-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x768 : Shape := ⟨3, ![64, 128, 768]⟩
abbrev S768x768 : Shape := ⟨2, ![768, 768]⟩
abbrev S768 : Shape := ⟨1, ![768]⟩
abbrev S_ : Shape := ⟨0, ![]⟩

class Facts : Prop where
  bcast_S_S64x128x768 : S_.BroadcastsInDim S64x128x768 (![] : Fin 0 → Fin S64x128x768.rank)
  reducesTo_S64x128x768_S_d0_1_2 : S64x128x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S768 .f32) (main_arg10 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768x768 .f32) (main_arg5 : FVec F S768 .f32) (main_arg6 : FVec F S768 .f32) (main_arg7 : FVec F S768 .f32) (main_arg8 : FVec F S768 .f32) (main_arg9 : FVec F S768 .f32) (main_arg10 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x128x768 .f32) (main_arg1 : FVec F S768x768 .f32) (main_arg2 : FVec F S768x768 .f32) (main_arg3 : FVec F S768x768 .f32) (main_arg4 : FVec F S768x768 .f32) (main_arg5 : FVec F S768 .f32) (main_arg6 : FVec F S768 .f32) (main_arg7 : FVec F S768 .f32) (main_arg8 : FVec F S768 .f32) (main_arg9 : FVec F S768 .f32) (main_arg10 : FVec F S768 .f32) : IVec S_ 1 :=
  let main_v0 : FVec F S64x128x768 .f32 := Host.absf main_arg0
  let main_cst : FVec F S_ .f32 := constant S_ .f32 0x7F800000#32
  let main_v1 : FVec F S64x128x768 .f32 := broadcastInDim S64x128x768 ![] bcast_S_S64x128x768 main_cst
  let main_v2 : IVec S64x128x768 1 := cmpf .olt main_v0 main_v1
  let main_c : IVec S_ 1 := constantI S_ 1 1#1
  let main_v3 : IVec S_ 1 := (fun x v => Host.reduce IntOp.andi x v reducesTo_S64x128x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_v13 main_v16
-- ==== Kernel.lean ====
abbrev S64x128x768 : Shape := ⟨3, ![64, 128, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S256x768 : Shape := ⟨2, ![256, 768]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x768 : Shape := ⟨2, ![128, 768]⟩
abbrev S256 : Shape := ⟨1, ![256]⟩
abbrev S256x1 : Shape := ⟨2, ![256, 1]⟩

abbrev nBuf : Space → Nat
  | .hbm => 24
  | .vmem => 14
  | .smem => 0
  | _ => 0

abbrev bufTy : (tb : Table) → Fin (tcTables nBuf tb) → BufTy
  | .hbm, ⟨0, _⟩ => ⟨S64x128x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S8192x768, .f32⟩
  | .hbm, ⟨12, _⟩ => ⟨S768x768, .bf16⟩
  | .hbm, ⟨13, _⟩ => ⟨S768x768, .bf16⟩
  | .hbm, ⟨14, _⟩ => ⟨S768x768, .bf16⟩
  | .hbm, ⟨15, _⟩ => ⟨S768x768, .bf16⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x768, .f32⟩
  | .hbm, ⟨23, _⟩ => ⟨S64x128x768, .f32⟩
  | .local _ .vmem, ⟨0, _⟩ => ⟨S256x768, .f32⟩
  | .local _ .vmem, ⟨1, _⟩ => ⟨S256x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S256x768, .f32⟩
  | .local _ .vmem, ⟨13, _⟩ => ⟨S256x768, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64x128x768_S8192x768 : S64x128x768.ShapeCasts S8192x768
  bitsLt_bf16_f32 : FTy.bits .bf16 < FTy.bits .f32
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  slices_S256x768_o0_0_S128x64 : S256x768.Slices ![0, 0] S128x64
  reduces_S128x128_S128 : S128x128.Reduces [1] S128
  shapeCasts_S128_S128x1 : S128.ShapeCasts S128x1
  broadcasts_S128x1_S128x128 : S128x1.Broadcasts S128x128
  slices_S256x768_o0_64_S128x64 : S256x768.Slices ![0, 64] S128x64
  slices_S256x768_o0_128_S128x64 : S256x768.Slices ![0, 128] S128x64
  slices_S256x768_o0_192_S128x64 : S256x768.Slices ![0, 192] S128x64
  slices_S256x768_o0_256_S128x64 : S256x768.Slices ![0, 256] S128x64
  slices_S256x768_o0_320_S128x64 : S256x768.Slices ![0, 320] S128x64
  slices_S256x768_o0_384_S128x64 : S256x768.Slices ![0, 384] S128x64
  slices_S256x768_o0_448_S128x64 : S256x768.Slices ![0, 448] S128x64
  slices_S256x768_o0_512_S128x64 : S256x768.Slices ![0, 512] S128x64
  slices_S256x768_o0_576_S128x64 : S256x768.Slices ![0, 576] S128x64
  slices_S256x768_o0_640_S128x64 : S256x768.Slices ![0, 640] S128x64
  slices_S256x768_o0_704_S128x64 : S256x768.Slices ![0, 704] S128x64
  concatenates_S128x64_S128x64_S128x64_S128x64_S128x64_S128x64_S128x64_S128x64_S128x64_S128x64_S128x64_S128x64_S128x768_d1 : Shape.Concatenates [S128x64, S128x64, S128x64, S128x64, S128x64, S128x64, S128x64, S128x64, S128x64, S128x64, S128x64, S128x64] S128x768 1
  slices_S256x768_o128_0_S128x64 : S256x768.Slices ![128, 0] S128x64
  slices_S256x768_o128_64_S128x64 : S256x768.Slices ![128, 64] S128x64
  slices_S256x768_o128_128_S128x64 : S256x768.Slices ![128, 128] S128x64
  slices_S256x768_o128_192_S128x64 : S256x768.Slices ![128, 192] S128x64
  slices_S256x768_o128_256_S128x64 : S256x768.Slices ![128, 256] S128x64
  slices_S256x768_o128_320_S128x64 : S256x768.Slices ![128, 320] S128x64
  slices_S256x768_o128_384_S128x64 : S256x768.Slices ![128, 384] S128x64
  slices_S256x768_o128_448_S128x64 : S256x768.Slices ![128, 448] S128x64
  slices_S256x768_o128_512_S128x64 : S256x768.Slices ![128, 512] S128x64
  slices_S256x768_o128_576_S128x64 : S256x768.Slices ![128, 576] S128x64
  slices_S256x768_o128_640_S128x64 : S256x768.Slices ![128, 640] S128x64
  slices_S256x768_o128_704_S128x64 : S256x768.Slices ![128, 704] S128x64
  concatenates_S128x768_S128x768_S256x768_d0 : Shape.Concatenates [S128x768, S128x768] S256x768 0
  reduces_S256x768_S256 : S256x768.Reduces [1] S256
  shapeCasts_S256_S256x1 : S256.ShapeCasts S256x1
  broadcasts_S256x1_S256x768 : S256x1.Broadcasts S256x768
  shapeCasts_S8192x768_S64x128x768 : S8192x768.ShapeCasts S64x128x768
  dot_S256x768_S768x768_S256x768_1_1_0_0_n_n_wf : DotDims.WF S256x768 S768x768 S256x768 [1] [1] [0] [0] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S8192x768.size a
  hwx0_0 : ∀ i : grid0.Coords, EltTy.bits .f32 = 32 ∨ (Rect.block (s := S8192x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S8192x768.size a
  hwx0_11 : ∀ i : grid0.Coords, EltTy.bits .f32 = 32 ∨ (Rect.block (s := S8192x768) S256x768.size (cc0_transform_11 i) (hinb0_11 i)).WholeWords (EltTy.packing .f32)

variable [Facts₀]

def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S256x768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x128x768 : Shape := ⟨3, ![64, 128, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S512x768 : Shape := ⟨2, ![512, 768]⟩
abbrev S64x128x12x64 : Shape := ⟨4, ![64, 128, 12, 64]⟩
abbrev S64x12x128x64 : Shape := ⟨4, ![64, 12, 128, 64]⟩
abbrev S768x128x64 : Shape := ⟨3, ![768, 128, 64]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S512 : Shape := ⟨1, ![512]⟩
abbrev S512x1 : Shape := ⟨2, ![512, 1]⟩

abbrev nBuf : Space → Nat
  | .hbm => 40
  | .vmem => 32
  | .smem => 0
  | _ => 0

abbrev bufTy : (tb : Table) → Fin (tcTables nBuf tb) → BufTy
  | .hbm, ⟨0, _⟩ => ⟨S64x128x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S8192x768, .f32⟩
  | .hbm, ⟨12, _⟩ => ⟨S768x768, .f32⟩
  | .hbm, ⟨13, _⟩ => ⟨S768x768, .f32⟩
  | .hbm, ⟨14, _⟩ => ⟨S768x768, .f32⟩
  | .hbm, ⟨15, _⟩ => ⟨S768x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S64x128x12x64, .f32⟩
  | .hbm, ⟨26, _⟩ => ⟨S64x12x128x64, .f32⟩
  | .hbm, ⟨27, _⟩ => ⟨S768x128x64, .f32⟩
  | .hbm, ⟨28, _⟩ => ⟨S64x128x12x64, .f32⟩
  | .hbm, ⟨29, _⟩ => ⟨S64x12x128x64, .f32⟩
  | .hbm, ⟨30, _⟩ => ⟨S768x128x64, .f32⟩
  | .hbm, ⟨31, _⟩ => ⟨S64x128x12x64, .f32⟩
  | .hbm, ⟨32, _⟩ => ⟨S64x12x128x64, .f32⟩
  | .hbm, ⟨33, _⟩ => ⟨S768x128x64, .f32⟩
  | .hbm, ⟨34, _⟩ => ⟨S768x128x64, .f32⟩
  | .hbm, ⟨35, _⟩ => ⟨S64x12x128x64, .f32⟩
  | .hbm, ⟨36, _⟩ => ⟨S64x128x12x64, .f32⟩
  | .hbm, ⟨37, _⟩ => ⟨S8192x768, .f32⟩
  | .hbm, ⟨38, _⟩ => ⟨S8192x768, .f32⟩
  | .hbm, ⟨39, _⟩ => ⟨S64x128x768, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S1x128x64, .f32⟩
  | .local _ .vmem, ⟨15, _⟩ => ⟨S1x128x64, .f32⟩
  | .local _ .vmem, ⟨16, _⟩ => ⟨S1x128x64, .f32⟩
  | .local _ .vmem, ⟨17, _⟩ => ⟨S1x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S768x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S512x768, .f32⟩
  | .local _ .vmem, ⟨31, _⟩ => ⟨S512x768, .f32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![768], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S64x128x768_S8192x768 : S64x128x768.ShapeCasts S8192x768
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S8192x768_S64x128x12x64 : S8192x768.ShapeCasts S64x128x12x64
  transposes_S64x128x12x64_S64x12x128x64_0_2_1_3 : S64x128x12x64.Transposes [0, 2, 1, 3] S64x12x128x64
  shapeCasts_S64x12x128x64_S768x128x64 : S64x12x128x64.ShapeCasts S768x128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  reduces_S128x128_S128 : S128x128.Reduces [1] S128
  shapeCasts_S128_S128x1 : S128.ShapeCasts S128x1
  broadcasts_S128x1_S128x128 : S128x1.Broadcasts S128x128
  shapeCasts_S128x64_S1x128x64 : S128x64.ShapeCasts S1x128x64
  shapeCasts_S768x128x64_S64x12x128x64 : S768x128x64.ShapeCasts S64x12x128x64
  transposes_S64x12x128x64_S64x128x12x64_0_2_1_3 : S64x12x128x64.Transposes [0, 2, 1, 3] S64x128x12x64
  shapeCasts_S64x128x12x64_S8192x768 : S64x128x12x64.ShapeCasts S8192x768
  reduces_S512x768_S512 : S512x768.Reduces [1] S512
  shapeCasts_S512_S512x1 : S512.ShapeCasts S512x1
  broadcasts_S512x1_S512x768 : S512x1.Broadcasts S512x768
  shapeCasts_S8192x768_S64x128x768 : S8192x768.ShapeCasts S64x128x768
  dot_S512x768_S768x768_S512x768_1_0_0_1_n_n_wf : DotDims.WF S512x768 S768x768 S512x768 [1] [0] [0] [1] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x768.size a ≤ S8192x768.size a
  hwx0_7 : ∀ i : grid0.Coords, EltTy.bits .f32 = 32 ∨ (Rect.block (s := S8192x768) S512x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x768.size a ≤ S8192x768.size a
  hwx0_8 : ∀ i : grid0.Coords, EltTy.bits .f32 = 32 ∨ (Rect.block (s := S8192x768) S512x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x768.size a ≤ S8192x768.size a
  hwx0_9 : ∀ i : grid0.Coords, EltTy.bits .f32 = 32 ∨ (Rect.block (s := S8192x768) S512x768.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S768x128x64.size a
  hwx1_0 : ∀ i : grid1.Coords, EltTy.bits .f32 = 32 ∨ (Rect.block (s := S768x128x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S768x128x64.size a
  hwx1_1 : ∀ i : grid1.Coords, EltTy.bits .f32 = 32 ∨ (Rect.block (s := S768x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64.size a ≤ S768x128x64.size a
  hwx1_2 : ∀ i : grid1.Coords, EltTy.bits .f32 = 32 ∨ (Rect.block (s := S768x128x64) S1x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64.size a ≤ S768x128x64.size a
  hwx1_3 : ∀ i : grid1.Coords, EltTy.bits .f32 = 32 ∨ (Rect.block (s := S768x128x64) S1x128x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S8192x768.size a
  hwx2_1 : ∀ i : grid2.Coords, EltTy.bits .f32 = 32 ∨ (Rect.block (s := S8192x768) S512x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .f32 = 32 ∨ (Rect.block (s := S768x768) S768x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x768.size a ≤ S1x768.size a
  hwx2_3 : ∀ i : grid2.Coords, EltTy.bits .f32 = 32 ∨ (Rect.block (s := S1x768) S1x768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x768.size a ≤ S8192x768.size a
  hwx2_6 : ∀ i : grid2.Coords, EltTy.bits .f32 = 32 ∨ (Rect.block (s := S8192x768) S512x768.size (cc2_transform_6 i) (hinb2_6 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S512x768.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== Proof.Spec.lean ====
/-
  The mathematics of one BERT self-attention block, written once for both programs.

  A batch is 128 rows of 768 features. For a batch with rows `xr j` (j < 128):
    q, k, v   = the three dense layers with (out, in) weights: `lin`;
    scores    = for head h (64 features wide), row s against row j: the inner product of q's and k's head slices,
                scaled by 1/8 — the scale applied to q before the product (`scK`) or to the product (`scR`);
    weights   = exp (score − the row's maximum) (`pOf`);
    context   = the weighted sum of v's head slice divided by the sum of the weights (`ctxK`: one division after the
                sums, the divisor being the weights summed against a column of ones), or the sum of normalised weights
                times v (`ctxR`);
    output    = the dense output layer on the context plus its bias plus the residual row (`hout`), then layer
                normalisation over the 768 features with ε under the root, scaled by γ and shifted by β (`lnRow`).
  `outK` and `outR` are the two readings; `arrOf` lays a per-batch function out over the flattened 8192 × 768 array.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The flattened activations, a weight matrix, a bias row. -/
abbrev SX : Shape := ⟨2, ![8192, 768]⟩
abbrev SW : Shape := ⟨2, ![768, 768]⟩
abbrev SB : Shape := ⟨2, ![1, 768]⟩

/-- The constants the programs spell: the score scale 1/8, the ones column's 1 (a bf16 word), the maximum's
    starting value −∞, the feature count 768 and the ε under the root. -/
def cs : EReal := Ideal.ofBits .f32 0x3E000000#32
def one16 : EReal := Ideal.ofBits .bf16 0x3F80#16
def negInf : EReal := Ideal.ofBits .f32 0xFF800000#32
def n768 : EReal := Ideal.ofBits .f32 0x44400000#32
def eps : EReal := Ideal.ofBits .f32 0x2B8CBCCC#32

/-- Feature `64 h + d`: feature d of head h. -/
def colOf (h : Fin 12) (d : Fin 64) : Fin 768 := ⟨64 * h.val + d.val, by omega⟩
/-- Row `128 B + s` of the flattened activations: row s of batch B. -/
def rowOf (B : Fin 64) (s : Fin 128) : Fin 8192 := ⟨128 * B.val + s.val, by omega⟩
/-- The batch and the row within it of a flattened row. -/
def batchOf (R : Fin 8192) : Fin 64 := ⟨R.val / 128, by omega⟩
def inBatch (R : Fin 8192) : Fin 128 := ⟨R.val % 128, by omega⟩
/-- The head and the feature within it of a feature. -/
def headOf (c : Fin 768) : Fin 12 := ⟨c.val / 64, by omega⟩
def inHead (c : Fin 768) : Fin 64 := ⟨c.val % 64, by omega⟩

/-- Block `12 B + h` of the per-(batch, head) arrays. -/
def bhOf (B : Fin 64) (h : Fin 12) : Fin 768 := ⟨12 * B.val + h.val, by omega⟩

/-- A dense layer on one row: weights (out, in), bias a row. -/
def lin (x : Fin 768 → EReal) (W : SW.Idx → EReal) (b : SB.Idx → EReal) (o : Fin 768) : EReal :=
  (∑ i : Fin 768, x i * W (ix2 o i)) + b (ix2 0 o)

/-- The maximum of a row of 128 scores, from −∞. -/
def rowmax (f : Fin 128 → EReal) : EReal := (Finset.univ : Finset (Fin 128)).fold max negInf f

/-- The unnormalised attention weights of a row of scores. -/
def pOf (sc : Fin 128 → EReal) (j : Fin 128) : EReal := Ideal.exp (sc j - rowmax sc)

section Batch

variable (xr : Fin 128 → Fin 768 → EReal) (Wq Wk Wv Wo : SW.Idx → EReal) (bq bk bv bo g be : SB.Idx → EReal)

/-- Head h's score of row s against row j, the scale on q. -/
def scK (h : Fin 12) (s j : Fin 128) : EReal :=
  ∑ e : Fin 64, (lin (xr s) Wq bq (colOf h e) * cs) * lin (xr j) Wk bk (colOf h e)
/-- The same with the scale on the product. -/
def scR (h : Fin 12) (s j : Fin 128) : EReal :=
  (∑ e : Fin 64, lin (xr s) Wq bq (colOf h e) * lin (xr j) Wk bk (colOf h e)) * cs

/-- The context of row s, head h, feature d: one division after the two sums. -/
def ctxK (h : Fin 12) (s : Fin 128) (d : Fin 64) : EReal :=
  Ideal.div (∑ j : Fin 128, pOf (scK xr Wq Wk bq bk h s) j * lin (xr j) Wv bv (colOf h d))
    (∑ j : Fin 128, pOf (scK xr Wq Wk bq bk h s) j * one16)
/-- The same with the weights normalised first. -/
def ctxR (h : Fin 12) (s : Fin 128) (d : Fin 64) : EReal :=
  ∑ j : Fin 128, Ideal.div (pOf (scR xr Wq Wk bq bk h s) j) (∑ l : Fin 128, pOf (scR xr Wq Wk bq bk h s) l)
    * lin (xr j) Wv bv (colOf h d)

/-- The output layer on a context row, plus its bias, plus the residual row. -/
def hout (ctx : Fin 768 → EReal) (x : Fin 768 → EReal) (c : Fin 768) : EReal :=
  ((∑ j : Fin 768, ctx j * Wo (ix2 c j)) + bo (ix2 0 c)) + x c

/-- Layer normalisation of one row. -/
def lnRow (hr : Fin 768 → EReal) (c : Fin 768) : EReal :=
  ((hr c - Ideal.div (∑ a : Fin 768, hr a) n768)
      * Ideal.rsqrt (Ideal.div (∑ a : Fin 768, (hr a - Ideal.div (∑ a' : Fin 768, hr a') n768)
          * (hr a - Ideal.div (∑ a' : Fin 768, hr a') n768)) n768 + eps))
    * g (ix2 0 c) + be (ix2 0 c)

/-- Row s of the batch's output, the first reading (one division after the sums). -/
def outK (s : Fin 128) (c : Fin 768) : EReal :=
  lnRow g be (hout Wo bo (fun j => ctxK xr Wq Wk Wv bq bk bv (headOf j) s (inHead j)) (xr s)) c
/-- The second reading (normalised weights). -/
def outR (s : Fin 128) (c : Fin 768) : EReal :=
  lnRow g be (hout Wo bo (fun j => ctxR xr Wq Wk Wv bq bk bv (headOf j) s (inHead j)) (xr s)) c

end Batch

/-- Batch B's rows of the flattened activations. -/
def rowsOf (X : SX.Idx → EReal) (B : Fin 64) (j : Fin 128) (i : Fin 768) : EReal := X (ix2 (rowOf B j) i)

/-- A per-batch function laid out over the flattened array. -/
def arrOf (f : (Fin 128 → Fin 768 → EReal) → Fin 128 → Fin 768 → EReal) (X : SX.Idx → EReal) : SX.Idx → EReal :=
  fun i => f (rowsOf X (batchOf (i 0))) (inBatch (i 0)) (i 1)

theorem arrOf_ix2 (f : (Fin 128 → Fin 768 → EReal) → Fin 128 → Fin 768 → EReal) (X : SX.Idx → EReal) (R : Fin 8192) (c : Fin 768) :
    arrOf f X (ix2 R c) = f (rowsOf X (batchOf R)) (inBatch R) c := rfl

/-- Every entry of an array is a real number. -/
def IsReal {ι : Type} (f : ι → EReal) : Prop := ∀ i, ∃ r : ℝ, f i = (r : EReal)

/-- The whole block on the programs' argument arrays: activations 64 × 128 × 768 flattened to 8192 × 768, the four weight
    matrices as given, the six vectors as rows, the per-batch function over every batch, and the result unflattened. -/
def result (f : (Fin 128 → Fin 768 → EReal) → (SW.Idx → EReal) → (SW.Idx → EReal) → (SW.Idx → EReal) → (SW.Idx → EReal)
      → (SB.Idx → EReal) → (SB.Idx → EReal) → (SB.Idx → EReal) → (SB.Idx → EReal) → (SB.Idx → EReal) → (SB.Idx → EReal)
      → Fin 128 → Fin 768 → EReal)
    (a0 : (⟨3, ![64, 128, 768]⟩ : Shape).Idx → EReal) (a1 a2 a3 a4 : SW.Idx → EReal)
    (a5 a6 a7 a8 a9 a10 : (⟨1, ![768]⟩ : Shape).Idx → EReal) : (⟨3, ![64, 128, 768]⟩ : Shape).Idx → EReal :=
  shapeCast ⟨3, ![64, 128, 768]⟩
    (arrOf (fun xr => f xr a1 a2 a3 a4 (shapeCast SB a5 (by decide)) (shapeCast SB a6 (by decide)) (shapeCast SB a7 (by decide))
        (shapeCast SB a8 (by decide)) (shapeCast SB a9 (by decide)) (shapeCast SB a10 (by decide)))
      (shapeCast SX a0 (by decide))) (by decide)

end Cert.Attn

end
-- ==== Proof.KDefs.lean ====
/-
  One attention head of the fused kernel as ONE term: the head's slices of the scaled q, of k and of v cut out of the
  256-row block at a row and column offset, the scores, the row maximum, the exponentials, and the two products whose
  quotient is the head's context. The kernel's body spells this term twenty-four times, once per (batch of the
  block, head).
-/
import proofs.«110644_g2000702396236789_pallasbulk_1056_3_alg».proof.Proof.Gen.KernelIdeal.Skeleton
import proofs.«110644_g2000702396236789_pallasbulk_1056_3_alg».proof.Proof.Spec

noncomputable section

open scoped BigOperators

namespace Cert.KernelIdeal.KV

open Idealize.ShloMosaic Idealize.ShloMosaic.ValueIdx Cert.KernelIdeal Cert.KernelIdeal.Facts₀

variable {F : FTy → Type} [FloatOps F]

/-- Row `128 b + s` of the 256-row block: row s of the block's batch b. -/
def blkRow (b : Fin 2) (s : Fin 128) : Fin 256 := ⟨128 * b.val + s.val, by omega⟩

/-- The unnormalised weights of the head at offset `off`: exp (scores − row maximum). -/
def expAt (off : Fin 2 → ℕ) (hs : S256x768.Slices off S128x64) (q k : FVec F S256x768 .bf16) : FVec F S128x128 .f32 :=
  exp (subf
    (matmul dot_S128x64_S128x64_S128x128_1_1_0_0_n_n none (extractStridedSlice S128x64 off q hs) (extractStridedSlice S128x64 off k hs) (constant S128x128 .f32 0x00000000#32))
    (broadcastTo S128x128 (shapeCast S128x1
      (multiReduction .maximumf [1] S128
        (matmul dot_S128x64_S128x64_S128x128_1_1_0_0_n_n none (extractStridedSlice S128x64 off q hs) (extractStridedSlice S128x64 off k hs) (constant S128x128 .f32 0x00000000#32))
        0xFF800000#32 reduces_S128x128_S128 (.inl rfl) rfl) shapeCasts_S128_S128x1) broadcasts_S128x1_S128x128))

/-- The head's context from given weights: (weights · v's slice) / (weights · ones). -/
def ctxOf (off : Fin 2 → ℕ) (hs : S256x768.Slices off S128x64) (p : FVec F S128x128 .f32) (v : FVec F S256x768 .bf16) (ones : FVec F S128x64 .bf16) : FVec F S128x64 .bf16 :=
  truncf .bf16 (divf
    (matmul dot_S128x128_S128x64_S128x64_1_0_0_1_n_n none (truncf .bf16 p bitsLt_bf16_f32) (extractStridedSlice S128x64 off v hs) (constant S128x64 .f32 0x00000000#32))
    (matmul dot_S128x128_S128x64_S128x64_1_0_0_1_n_n none (truncf .bf16 p bitsLt_bf16_f32) ones (constant S128x64 .f32 0x00000000#32))) bitsLt_bf16_f32

/-- The head at offset `off`. -/
def headAt (off : Fin 2 → ℕ) (hs : S256x768.Slices off S128x64) (q k v : FVec F S256x768 .bf16) (ones : FVec F S128x64 .bf16) : FVec F S128x64 .bf16 :=
  ctxOf off hs (expAt off hs q k) v ones

/-- Row s of batch b against row j, head h: the inner product of the two head slices (of whatever q and k hold). -/
def scBlk (q k : FVec Ideal S256x768 .bf16) (b : Fin 2) (h : Fin 12) (s j : Fin 128) : EReal :=
  ∑ e : Fin 64, q (ix2 (blkRow b s) (Attn.colOf h e)) * k (ix2 (blkRow b j) (Attn.colOf h e))

/-- The slice of batch b, head h lies inside the block. -/
theorem slices_at (b : Fin 2) (h : Fin 12) : S256x768.Slices ![128 * b.val, 64 * h.val] S128x64 := by
  refine ⟨rfl, fun a => ?_⟩
  have hb := b.isLt; have hh := h.isLt
  match a with
  | ⟨0, _⟩ => show 128 * b.val + 128 ≤ 256; omega
  | ⟨1, _⟩ => show 64 * h.val + 64 ≤ 768; omega

end Cert.KernelIdeal.KV

end
-- ==== Proof.KHead.lean ====
/-
  One head of the kernel read at an entry: the weighted sum of v's head slice over the batch's 128 rows, divided by the
  weights summed against the ones column.
-/
import proofs.«110644_g2000702396236789_pallasbulk_1056_3_alg».proof.Proof.KDefs
import Idealize.ShloMosaic.Lib.Pipeline.Value
import Idealize.ShloMosaic.Lib.ValueLayout
import Idealize.ShloMosaic.PureOps.Ideal.Laws

noncomputable section

open scoped BigOperators

namespace Cert.KernelIdeal.KV

open Idealize.ShloMosaic Idealize.ShloMosaic.ValueIdx Cert.KernelIdeal Cert.KernelIdeal.Facts₀

/-! ## The two products' operand indices -/

/-- The score product: both operands contracted on their feature axis. -/
private abbrev Dsc := dot_S128x64_S128x64_S128x128_1_1_0_0_n_n
/-- The weights' product: the weights' columns against the other operand's rows. -/
private abbrev Dpv := dot_S128x128_S128x64_S128x64_1_0_0_1_n_n

private theorem sc_lhs0 (j : S128x128.Idx) (k : Dsc.contr.Idx) : (Dsc.lhsIdx j k 0 : ℕ) = j 0 := by
  simp [DotDims.lhsIdx, Dsc, dot_S128x64_S128x64_S128x128_1_1_0_0_n_n]; rfl
private theorem sc_lhs1 (j : S128x128.Idx) (k : Dsc.contr.Idx) : (Dsc.lhsIdx j k 1 : ℕ) = k ⟨0, by decide⟩ := by
  simp [DotDims.lhsIdx, Dsc, dot_S128x64_S128x64_S128x128_1_1_0_0_n_n]; rfl
private theorem sc_rhs0 (j : S128x128.Idx) (k : Dsc.contr.Idx) : (Dsc.rhsIdx j k 0 : ℕ) = j 1 := by
  simp [DotDims.rhsIdx, Dsc, dot_S128x64_S128x64_S128x128_1_1_0_0_n_n]; rfl
private theorem sc_rhs1 (j : S128x128.Idx) (k : Dsc.contr.Idx) : (Dsc.rhsIdx j k 1 : ℕ) = k ⟨0, by decide⟩ := by
  simp [DotDims.rhsIdx, Dsc, dot_S128x64_S128x64_S128x128_1_1_0_0_n_n]; rfl

private theorem pv_lhs0 (j : S128x64.Idx) (k : Dpv.contr.Idx) : (Dpv.lhsIdx j k 0 : ℕ) = j 0 := by
  simp [DotDims.lhsIdx, Dpv, dot_S128x128_S128x64_S128x64_1_0_0_1_n_n]; rfl
private theorem pv_lhs1 (j : S128x64.Idx) (k : Dpv.contr.Idx) : (Dpv.lhsIdx j k 1 : ℕ) = k ⟨0, by decide⟩ := by
  simp [DotDims.lhsIdx, Dpv, dot_S128x128_S128x64_S128x64_1_0_0_1_n_n]; rfl
private theorem pv_rhs0 (j : S128x64.Idx) (k : Dpv.contr.Idx) : (Dpv.rhsIdx j k 0 : ℕ) = k ⟨0, by decide⟩ := by
  simp [DotDims.rhsIdx, Dpv, dot_S128x128_S128x64_S128x64_1_0_0_1_n_n]; rfl
private theorem pv_rhs1 (j : S128x64.Idx) (k : Dpv.contr.Idx) : (Dpv.rhsIdx j k 1 : ℕ) = j 1 := by
  simp [DotDims.rhsIdx, Dpv, dot_S128x128_S128x64_S128x64_1_0_0_1_n_n]; rfl

/-- The score product at (s, j): the inner product of row s of the left operand with row j of the right one. -/
private theorem sc_matmul (A B : FVec Ideal S128x64 .bf16) (s j : Fin 128) :
    matmul Dsc none A B (constant S128x128 .f32 0x00000000#32) (ix2 s j) = ∑ e : Fin 64, A (ix2 s e) * B (ix2 j e) := by
  show FloatOps.matmul Dsc none A B (constant S128x128 .f32 0x00000000#32) (ix2 s j) = _
  rw [Ideal.matmul_constant_zero_apply, ← Equiv.sum_comp (contrEquiv1 Dsc 64 rfl rfl).symm]
  refine Finset.sum_congr rfl fun e _ => ?_
  have c := contrEquiv1_symm_val Dsc 64 rfl rfl e
  have hl : Dsc.lhsIdx (ix2 s j) ((contrEquiv1 Dsc 64 rfl rfl).symm e) = ix2 s e := by
    funext ax; apply Fin.ext
    match ax with
    | ⟨0, _⟩ => exact sc_lhs0 _ _
    | ⟨1, _⟩ => exact (sc_lhs1 _ _).trans c
  have hr : Dsc.rhsIdx (ix2 s j) ((contrEquiv1 Dsc 64 rfl rfl).symm e) = ix2 j e := by
    funext ax; apply Fin.ext
    match ax with
    | ⟨0, _⟩ => exact sc_rhs0 _ _
    | ⟨1, _⟩ => exact (sc_rhs1 _ _).trans c
  rw [hl, hr]

/-- The weights' product at (s, d): row s of the weights against column d of the other operand. -/
private theorem pv_matmul (P : FVec Ideal S128x128 .bf16) (V : FVec Ideal S128x64 .bf16) (s : Fin 128) (d : Fin 64) :
    matmul Dpv none P V (constant S128x64 .f32 0x00000000#32) (ix2 s d) = ∑ j : Fin 128, P (ix2 s j) * V (ix2 j d) := by
  show FloatOps.matmul Dpv none P V (constant S128x64 .f32 0x00000000#32) (ix2 s d) = _
  rw [Ideal.matmul_constant_zero_apply, ← Equiv.sum_comp (contrEquiv1 Dpv 128 rfl rfl).symm]
  refine Finset.sum_congr rfl fun j _ => ?_
  have c := contrEquiv1_symm_val Dpv 128 rfl rfl j
  have hl : Dpv.lhsIdx (ix2 s d) ((contrEquiv1 Dpv 128 rfl rfl).symm j) = ix2 s j := by
    funext ax; apply Fin.ext
    match ax with
    | ⟨0, _⟩ => exact pv_lhs0 _ _
    | ⟨1, _⟩ => exact (pv_lhs1 _ _).trans c
  have hr : Dpv.rhsIdx (ix2 s d) ((contrEquiv1 Dpv 128 rfl rfl).symm j) = ix2 j d := by
    funext ax; apply Fin.ext
    match ax with
    | ⟨0, _⟩ => exact (pv_rhs0 _ _).trans c
    | ⟨1, _⟩ => exact pv_rhs1 _ _
  rw [hl, hr]

/-! ## The head's slices, and the row maximum's layout -/

/-- The slice of batch b, head h at (s, e): the block at row 128 b + s, feature 64 h + e. -/
private theorem slice_apply (b : Fin 2) (h : Fin 12) (hs : S256x768.Slices ![128 * b.val, 64 * h.val] S128x64)
    (x : FVec Ideal S256x768 .bf16) (s : Fin 128) (e : Fin 64) :
    extractStridedSlice S128x64 ![128 * b.val, 64 * h.val] x hs (ix2 s e) = x (ix2 (blkRow b s) (Attn.colOf h e)) := by
  refine extractStridedSlice_apply _ x hs _ _ fun a => ?_
  match a with
  | ⟨0, _⟩ => rfl
  | ⟨1, _⟩ => rfl

/-- An `[a, 1]` array broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row s of the scores with column l put back. -/
private theorem lift_row (s l : Fin 128) : reduces_S128x128_S128.lift (ix1 s) l = ix2 s l := by
  funext c; apply Fin.ext
  match c with
  | ⟨0, _⟩ => rfl
  | ⟨1, _⟩ => rfl

/-- The row maximum laid back over the row: at (s, j), the maximum from −∞ of row s. -/
private theorem rowmax_apply (X : FVec Ideal S128x128 .f32) (s j : Fin 128) :
    broadcastTo S128x128 (shapeCast S128x1
        (multiReduction .maximumf [1] S128 X 0xFF800000#32 reduces_S128x128_S128 (.inl rfl) rfl) shapeCasts_S128_S128x1)
      broadcasts_S128x1_S128x128 (ix2 s j)
      = Attn.rowmax (fun l => X (ix2 s l)) := by
  rw [broadcastTo_a1_ab_apply, shapeCast_a_a1_apply]
  refine (Ideal.multiReduction_maximumf_single X 0xFF800000#32 reduces_S128x128_S128 (.inl rfl) rfl (ix1 s)).trans ?_
  have hf : (X ∘ reduces_S128x128_S128.lift (ix1 s)) = fun l : Fin 128 => X (ix2 s l) :=
    funext fun l => congrArg X (lift_row s l)
  rw [hf]
  rfl

/-! ## The scores, the weights, and the head -/

/-- The score product of the head's slices at (s, l) is the head's inner product of row s with row l. -/
private theorem sc_apply (b : Fin 2) (h : Fin 12) (hs : S256x768.Slices ![128 * b.val, 64 * h.val] S128x64)
    (q k : FVec Ideal S256x768 .bf16) (s l : Fin 128) :
    matmul Dsc none (extractStridedSlice S128x64 ![128 * b.val, 64 * h.val] q hs)
        (extractStridedSlice S128x64 ![128 * b.val, 64 * h.val] k hs) (constant S128x128 .f32 0x00000000#32) (ix2 s l)
      = scBlk q k b h s l := by
  rw [sc_matmul]
  unfold scBlk
  exact Finset.sum_congr rfl fun e _ => by rw [slice_apply, slice_apply]

/-- The unnormalised weights at (s, j): exp of the score less the row's maximum. -/
private theorem expAt_apply (b : Fin 2) (h : Fin 12) (hs : S256x768.Slices ![128 * b.val, 64 * h.val] S128x64)
    (q k : FVec Ideal S256x768 .bf16) (s j : Fin 128) :
    expAt ![128 * b.val, 64 * h.val] hs q k (ix2 s j) = Attn.pOf (scBlk q k b h s) j := by
  unfold expAt
  show Ideal.exp (_ - _) = _
  rw [rowmax_apply, sc_apply]
  unfold Attn.pOf
  have hrow : (fun l : Fin 128 => matmul Dsc none (extractStridedSlice S128x64 ![128 * b.val, 64 * h.val] q hs)
        (extractStridedSlice S128x64 ![128 * b.val, 64 * h.val] k hs) (constant S128x128 .f32 0x00000000#32) (ix2 s l))
      = scBlk q k b h s := funext fun l => sc_apply b h hs q k s l
  rw [hrow]

theorem headAt_apply (b : Fin 2) (h : Fin 12) (hs : S256x768.Slices ![128 * b.val, 64 * h.val] S128x64)
    (q k v : FVec Ideal S256x768 .bf16) (ones : FVec Ideal S128x64 .bf16) (s : Fin 128) (d : Fin 64) :
    headAt ![128 * b.val, 64 * h.val] hs q k v ones (ix2 s d)
      = Ideal.div (∑ j : Fin 128, Attn.pOf (scBlk q k b h s) j * v (ix2 (blkRow b j) (Attn.colOf h d)))
          (∑ j : Fin 128, Attn.pOf (scBlk q k b h s) j * ones (ix2 j d)) := by
  unfold headAt ctxOf
  rw [truncf_apply, divf_apply, pv_matmul, pv_matmul]
  refine congrArg₂ Ideal.div (Finset.sum_congr rfl fun j _ => ?_) (Finset.sum_congr rfl fun j _ => ?_)
  · rw [truncf_apply, expAt_apply, slice_apply]
  · rw [truncf_apply, expAt_apply]

end Cert.KernelIdeal.KV

end
-- ==== Proof.KFinal.lean ====
/-
  The kernel's three projections and its last stage (output layer, residual, layer normalisation) read at an entry.
-/
import proofs.«110644_g2000702396236789_pallasbulk_1056_3_alg».proof.Proof.KDefs
import Idealize.ShloMosaic.Lib.Pipeline.Value
import Idealize.ShloMosaic.Lib.ValueLayout
import Idealize.ShloMosaic.PureOps.Ideal.Laws

noncomputable section

open scoped BigOperators

namespace Cert.KernelIdeal.KV

open Idealize.ShloMosaic Idealize.ShloMosaic.ValueIdx Cert.KernelIdeal Cert.KernelIdeal.Facts₀

/-- The contraction's coordinate on the left operand's contracted axis. -/
private theorem dotL1 (j : S256x768.Idx) (k : dot_S256x768_S768x768_S256x768_1_1_0_0_n_n.contr.Idx) :
    (dot_S256x768_S768x768_S256x768_1_1_0_0_n_n.lhsIdx j k 1).val = (k ⟨0, by decide⟩).val :=
  DotDims.lhsIdx_val_of_single _ rfl j k

private theorem dotR1 (j : S256x768.Idx) (k : dot_S256x768_S768x768_S256x768_1_1_0_0_n_n.contr.Idx) :
    (dot_S256x768_S768x768_S256x768_1_1_0_0_n_n.rhsIdx j k 1).val = (k ⟨0, by decide⟩).val :=
  DotDims.rhsIdx_val_of_single _ rfl j k

private theorem dotL0 (j : S256x768.Idx) (k : dot_S256x768_S768x768_S256x768_1_1_0_0_n_n.contr.Idx) :
    (dot_S256x768_S768x768_S256x768_1_1_0_0_n_n.lhsIdx j k 0).val = (j 0).val := by
  simp [DotDims.lhsIdx, dot_S256x768_S768x768_S256x768_1_1_0_0_n_n]; rfl

private theorem dotR0 (j : S256x768.Idx) (k : dot_S256x768_S768x768_S256x768_1_1_0_0_n_n.contr.Idx) :
    (dot_S256x768_S768x768_S256x768_1_1_0_0_n_n.rhsIdx j k 0).val = (j 1).val := by
  simp [DotDims.rhsIdx, dot_S256x768_S768x768_S256x768_1_1_0_0_n_n]; rfl

/-- The block product against (out, in) weights into the zero accumulator, at an entry. -/
private theorem mm_apply (A : FVec Ideal S256x768 .bf16) (B : FVec Ideal S768x768 .bf16) (r : Fin 256) (o : Fin 768) :
    matmul dot_S256x768_S768x768_S256x768_1_1_0_0_n_n none A B (constant S256x768 .f32 0x00000000#32) (ix2 r o)
      = ∑ k : Fin 768, A (ix2 r k) * B (ix2 o k) := by
  show FloatOps.matmul _ none A B (constant S256x768 .f32 0x00000000#32) (ix2 r o) = _
  rw [Ideal.matmul_constant_zero_apply,
    ← Equiv.sum_comp (contrEquiv1 dot_S256x768_S768x768_S256x768_1_1_0_0_n_n 768 rfl rfl).symm]
  refine Finset.sum_congr rfl fun c _ => ?_
  have c2 := contrEquiv1_symm_val dot_S256x768_S768x768_S256x768_1_1_0_0_n_n 768 rfl rfl c
  have l2 : dot_S256x768_S768x768_S256x768_1_1_0_0_n_n.lhsIdx (ix2 r o) ((contrEquiv1 _ 768 rfl rfl).symm c) = ix2 r c := by
    funext ax; apply Fin.ext
    match ax with
    | ⟨0, _⟩ => exact dotL0 _ _
    | ⟨1, _⟩ => exact (dotL1 _ _).trans c2
  have r2 : dot_S256x768_S768x768_S256x768_1_1_0_0_n_n.rhsIdx (ix2 r o) ((contrEquiv1 _ 768 rfl rfl).symm c) = ix2 o c := by
    funext ax; apply Fin.ext
    match ax with
    | ⟨0, _⟩ => exact dotR0 _ _
    | ⟨1, _⟩ => exact (dotR1 _ _).trans c2
  rw [l2, r2]

/-- A sum along the features of a block, at a row. -/
private theorem rowsum_apply (x : FVec Ideal S256x768 .f32) (r : Fin 256) :
    multiReduction .add [1] S256 x 0x00000000#32 reduces_S256x768_S256 (.inl rfl) rfl (ix1 r)
      = ∑ k : Fin 768, x (ix2 r k) := by
  refine (Ideal.multiReduction_add_single x _ reduces_S256x768_S256 (.inl rfl) rfl (ix1 r)).trans ?_
  refine Finset.sum_congr rfl fun k _ => congrArg x ?_
  funext a; apply Fin.ext
  match a with
  | ⟨0, _⟩ => rfl
  | ⟨1, _⟩ => rfl

/-- A vector of 256 entries as a column. -/
private theorem col_apply {α : Type} (x : S256.Idx → α) (r : Fin 256) (u : Fin 1) :
    shapeCast S256x1 x shapeCasts_S256_S256x1 (ix2 r u) = x (ix1 r) :=
  shapeCast_apply x _ _ _ (by
    have hu : u.val = 0 := by omega
    rw [Shape.rowMajor_val_one, Shape.rowMajor_val_two]
    show r.val = r.val * 1 + u.val
    rw [hu, Nat.mul_one, Nat.add_zero])

/-- A column repeated along the features. -/
private theorem bcol_apply {α : Type} (x : S256x1.Idx → α) (r : Fin 256) (c : Fin 768) :
    broadcastTo S256x768 x broadcasts_S256x1_S256x768 (ix2 r c) = x (ix2 r (0 : Fin 1)) := by
  refine broadcastTo_apply x _ (ix2 r c) (ix2 r (0 : Fin 1)) fun ax => ?_
  match ax with
  | ⟨0, _⟩ => rfl
  | ⟨1, _⟩ => rfl

/-- A row repeated along the block's rows. -/
private theorem brow_apply {α : Type} (x : S1x768.Idx → α) (r : Fin 256) (c : Fin 768) :
    broadcastTo S256x768 x broadcasts_S1x768_S256x768 (ix2 r c) = x (ix2 (0 : Fin 1) c) :=
  broadcastTo_1b_ab_apply x _ r c

/-- The two 128-row halves laid one above the other, at row s of batch b. -/
private theorem cat_apply (top bot : FVec Ideal S128x768 .bf16) (b : Fin 2) (s : Fin 128) (j : Fin 768) :
    concatenate S256x768 0 [⟨S128x768, top⟩, ⟨S128x768, bot⟩] concatenates_S128x768_S128x768_S256x768_d0 (ix2 (blkRow b s) j)
      = (if b.val = 0 then top else bot) (ix2 s j) := by
  have hb := b.isLt
  by_cases h0 : b.val = 0
  · rw [if_pos h0]
    refine concatenate_pair_apply_left (t := S256x768) 0 top bot _ _ rfl (ix2 s j) fun ax => ?_
    match ax with
    | ⟨0, _⟩ => show s.val = 128 * b.val + s.val; omega
    | ⟨1, _⟩ => rfl
  · rw [if_neg h0]
    refine concatenate_pair_apply_right (t := S256x768) 0 top bot _ _ rfl rfl (ix2 s j) (fun ax hne => ?_) ?_
    · match ax with
      | ⟨0, _⟩ => exact absurd rfl hne
      | ⟨1, _⟩ => rfl
    · show s.val + 128 = 128 * b.val + s.val; omega

/-- The reciprocal root of a vector, at an entry. -/
private theorem rsqrt_apply {s : Shape} {φ : FTy} (x : FVec Ideal s φ) (i : s.Idx) : rsqrt x i = Ideal.rsqrt (x i) := rfl

/-- The output layer on the stacked context halves, its bias row, the residual block. -/
private def hBlk (v1 : FVec Ideal S256x768 .f32) (top bot : FVec Ideal S128x768 .bf16) (w : Vec Ideal S768x768 .bf16)
    (bo : Vec Ideal S1x768 .f32) : FVec Ideal S256x768 .f32 :=
  addf (addf (matmul dot_S256x768_S768x768_S256x768_1_1_0_0_n_n none
      (concatenate S256x768 0 [⟨S128x768, top⟩, ⟨S128x768, bot⟩] concatenates_S128x768_S128x768_S256x768_d0)
      (shapeCast S768x768 w shapeCasts_S768x768_S768x768 : FVec Ideal S768x768 .bf16) (constant S256x768 .f32 0x00000000#32))
    (broadcastTo S256x768 (shapeCast S1x768 bo shapeCasts_S1x768_S1x768 : FVec Ideal S1x768 .f32) broadcasts_S1x768_S256x768)) v1

private theorem hBlk_apply (v1 : FVec Ideal S256x768 .f32) (top bot : FVec Ideal S128x768 .bf16) (w : Vec Ideal S768x768 .bf16)
    (bo : Vec Ideal S1x768 .f32) (b : Fin 2) (s : Fin 128) (c : Fin 768) :
    hBlk v1 top bot w bo (ix2 (blkRow b s) c)
      = Attn.hout w bo (fun j => (if b.val = 0 then top else bot) (ix2 s j)) (fun i => v1 (ix2 (blkRow b s) i)) c := by
  unfold hBlk
  simp only [addf_apply, mm_apply, brow_apply, shapeCast_self, cat_apply]
  rfl

/-- Each row's sum over the 768 features divided by 768, as a column. -/
private def meanCol (x : FVec Ideal S256x768 .f32) : FVec Ideal S256x1 .f32 :=
  divf (shapeCast S256x1 (multiReduction .add [1] S256 x 0x00000000#32 reduces_S256x768_S256 (.inl rfl) rfl) shapeCasts_S256_S256x1)
    (broadcast S256x1 (Scalar.ofBits .f32 0x44400000#32))

private theorem meanCol_apply (x : FVec Ideal S256x768 .f32) (r : Fin 256) (u : Fin 1) :
    meanCol x (ix2 r u) = Ideal.div (∑ a : Fin 768, x (ix2 r a)) Attn.n768 := by
  unfold meanCol
  rw [divf_apply, col_apply, rowsum_apply, broadcast_apply]
  rfl

/-- Layer normalisation of every row of a block: centred, times the reciprocal root of (variance + ε), times the γ row, plus the β row. -/
private def lnBlk (h : FVec Ideal S256x768 .f32) (g be : Vec Ideal S1x768 .f32) : FVec Ideal S256x768 .f32 :=
  addf (mulf (mulf (subf h (broadcastTo S256x768 (meanCol h) broadcasts_S256x1_S256x768))
      (broadcastTo S256x768 (rsqrt (addf
          (meanCol (mulf (subf h (broadcastTo S256x768 (meanCol h) broadcasts_S256x1_S256x768))
            (subf h (broadcastTo S256x768 (meanCol h) broadcasts_S256x1_S256x768))))
          (broadcast S256x1 (Scalar.ofBits .f32 0x2B8CBCCC#32)))) broadcasts_S256x1_S256x768))
    (broadcastTo S256x768 (shapeCast S1x768 g shapeCasts_S1x768_S1x768 : FVec Ideal S1x768 .f32) broadcasts_S1x768_S256x768))
    (broadcastTo S256x768 (shapeCast S1x768 be shapeCasts_S1x768_S1x768 : FVec Ideal S1x768 .f32) broadcasts_S1x768_S256x768)

private theorem lnBlk_apply (h : FVec Ideal S256x768 .f32) (g be : Vec Ideal S1x768 .f32) (r : Fin 256) (c : Fin 768) :
    lnBlk h g be (ix2 r c) = Attn.lnRow g be (fun a => h (ix2 r a)) c := by
  unfold lnBlk
  simp only [addf_apply, mulf_apply, subf_apply, rsqrt_apply, bcol_apply, brow_apply, shapeCast_self, meanCol_apply, broadcast_apply]
  rfl

/-- The scaled query projection of the block. -/
theorem pay3_apply (x0 : Vec Ideal S256x768 .f32) (w : Vec Ideal S768x768 .bf16) (bias : Vec Ideal S1x768 .f32) (r : Fin 256) (o : Fin 768) :
    Gen.k0_pay3 (F := Ideal) x0 w bias (ix2 r o) = Attn.lin (fun i => x0 (ix2 r i)) w bias o * Attn.cs := by
  unfold Gen.k0_pay3 Gen.k0_pay2 Gen.k0_pay1
  simp only [truncf_apply, mulf_apply, addf_apply, broadcast_apply, mm_apply, brow_apply, shapeCast_self]
  rfl

/-- The key projection. -/
theorem pay4_apply (x0 : Vec Ideal S256x768 .f32) (w : Vec Ideal S768x768 .bf16) (bias : Vec Ideal S1x768 .f32) (r : Fin 256) (o : Fin 768) :
    Gen.k0_pay4 (F := Ideal) x0 w bias (ix2 r o) = Attn.lin (fun i => x0 (ix2 r i)) w bias o := by
  unfold Gen.k0_pay4 Gen.k0_pay2 Gen.k0_pay1
  simp only [truncf_apply, addf_apply, mm_apply, brow_apply, shapeCast_self]
  rfl

/-- The value projection. -/
theorem pay5_apply (x0 : Vec Ideal S256x768 .f32) (w : Vec Ideal S768x768 .bf16) (bias : Vec Ideal S1x768 .f32) (r : Fin 256) (o : Fin 768) :
    Gen.k0_pay5 (F := Ideal) x0 w bias (ix2 r o) = Attn.lin (fun i => x0 (ix2 r i)) w bias o := by
  unfold Gen.k0_pay5 Gen.k0_pay2 Gen.k0_pay1
  simp only [truncf_apply, addf_apply, mm_apply, brow_apply, shapeCast_self]
  rfl

/-- The ones column. -/
theorem pay6_apply (j : Fin 128) (d : Fin 64) : Gen.k0_pay6 (F := Ideal) (ix2 j d) = Attn.one16 := by
  rfl

/-- The loaded block as it is. -/
theorem pay1_apply (x0 : Vec Ideal S256x768 .f32) (i : S256x768.Idx) : Gen.k0_pay1 (F := Ideal) x0 i = x0 i := by
  unfold Gen.k0_pay1
  rw [shapeCast_self]

/-- The last stage on the two batches' context halves `top` and `bot`: the output layer on the row's context, its bias,
    the residual row, layer normalisation. -/
theorem pay43_apply (v1 : FVec Ideal S256x768 .f32) (top bot : FVec Ideal S128x768 .bf16) (w : Vec Ideal S768x768 .bf16)
    (bo g be : Vec Ideal S1x768 .f32) (b : Fin 2) (s : Fin 128) (c : Fin 768) :
    Gen.k0_pay43 (F := Ideal) v1 top bot w bo g be (ix2 (blkRow b s) c)
      = Attn.lnRow g be (Attn.hout w bo (fun j => (if b.val = 0 then top else bot) (ix2 s j)) (fun i => v1 (ix2 (blkRow b s) i))) c := by
  show lnBlk (hBlk v1 top bot w bo) g be (ix2 (blkRow b s) c) = _
  rw [lnBlk_apply]
  exact congrArg (fun hr => Attn.lnRow g be hr c) (funext fun a => hBlk_apply v1 top bot w bo b s a)

end Cert.KernelIdeal.KV

end
-- ==== Proof.KBody.lean ====
/-
  What the kernel's body leaves in the output block, entry by entry: the first reading of the attention block on the
  block's two batches.
-/
import proofs.«110644_g2000702396236789_pallasbulk_1056_3_alg».proof.Proof.Gen.KernelIdeal.Frame
import proofs.«110644_g2000702396236789_pallasbulk_1056_3_alg».proof.Proof.KHead
import proofs.«110644_g2000702396236789_pallasbulk_1056_3_alg».proof.Proof.KFinal

noncomputable section

open scoped BigOperators

namespace Cert.KernelIdeal.KV

open Idealize.ShloMosaic Idealize.ShloMosaic.ValueIdx Cert.KernelIdeal Cert.KernelIdeal.Facts₀

/-- Twelve pieces of 64 features laid side by side, read at feature j: piece j / 64 at its feature j % 64. -/
private theorem cat12_apply (f : Fin 12 → (S128x64.Idx → EReal))
    (h : Shape.Concatenates (([⟨S128x64, f 0⟩, ⟨S128x64, f 1⟩, ⟨S128x64, f 2⟩, ⟨S128x64, f 3⟩, ⟨S128x64, f 4⟩, ⟨S128x64, f 5⟩,
      ⟨S128x64, f 6⟩, ⟨S128x64, f 7⟩, ⟨S128x64, f 8⟩, ⟨S128x64, f 9⟩, ⟨S128x64, f 10⟩, ⟨S128x64, f 11⟩] :
        List ((s : Shape) × (s.Idx → EReal))).map (·.1)) S128x768 1)
    (s : Fin 128) (j : Fin 768) :
    concatenate S128x768 1 [⟨S128x64, f 0⟩, ⟨S128x64, f 1⟩, ⟨S128x64, f 2⟩, ⟨S128x64, f 3⟩, ⟨S128x64, f 4⟩, ⟨S128x64, f 5⟩,
      ⟨S128x64, f 6⟩, ⟨S128x64, f 7⟩, ⟨S128x64, f 8⟩, ⟨S128x64, f 9⟩, ⟨S128x64, f 10⟩, ⟨S128x64, f 11⟩] h (ix2 s j)
      = f (Attn.headOf j) (ix2 s (Attn.inHead j)) := by
  -- the literal list is the list of the pieces' function over Fin 12
  show concatenate S128x768 1 (List.ofFn fun n : Fin 12 => (⟨S128x64, f n⟩ : (s : Shape) × (s.Idx → EReal))) h (ix2 s j) = _
  refine concatenate_ofFn_apply (t := S128x768) (s₁ := S128x64) (1 : Fin 2) f h rfl 64 rfl (ix2 s j) (Attn.headOf j) rfl
    (ix2 s (Attn.inHead j)) rfl ?_
  intro b hb
  match b, hb with
  | ⟨0, _⟩, _ => rfl
  | ⟨1, _⟩, hb => exact absurd rfl hb

section Heads

variable (q k v : FVec Ideal S256x768 .bf16) (o : FVec Ideal S128x64 .bf16)

/-- Head h of batch b of the block: the head at row offset 128 b and feature offset 64 h. -/
private def hd (b : Fin 2) (h : Fin 12) : S128x64.Idx → EReal :=
  headAt ![128 * b.val, 64 * h.val] (slices_at b h) q k v o

/-- The twelve heads of batch b side by side: the batch's 128 × 768 context. -/
private def heads (b : Fin 2) : S128x768.Idx → EReal :=
  concatenate S128x768 1 [⟨S128x64, hd q k v o b 0⟩, ⟨S128x64, hd q k v o b 1⟩, ⟨S128x64, hd q k v o b 2⟩, ⟨S128x64, hd q k v o b 3⟩,
    ⟨S128x64, hd q k v o b 4⟩, ⟨S128x64, hd q k v o b 5⟩, ⟨S128x64, hd q k v o b 6⟩, ⟨S128x64, hd q k v o b 7⟩,
    ⟨S128x64, hd q k v o b 8⟩, ⟨S128x64, hd q k v o b 9⟩, ⟨S128x64, hd q k v o b 10⟩, ⟨S128x64, hd q k v o b 11⟩]
    concatenates_S128x64_S128x64_S128x64_S128x64_S128x64_S128x64_S128x64_S128x64_S128x64_S128x64_S128x64_S128x64_S128x768_d1

/-- The bottom batch's twelve heads as the kernel spells them — whole or cut in two or three — are the heads at row
    offset 128. -/
private theorem bot_eq :
    (Gen.k0_pay42 o (Gen.k0_pay24 q k v o) (Gen.k0_pay27 o (Gen.k0_pay25 q k) (Gen.k0_pay26 q k v) (constant S128x64 .f32
      0x00000000#32)) (Gen.k0_pay28 q k v o) (Gen.k0_pay29 q k v o) (Gen.k0_pay30 q k v o) (Gen.k0_pay33 v o
      (Gen.k0_pay31 q) (Gen.k0_pay32 k) (constant S128x128 .f32 0x00000000#32)) (Gen.k0_pay34 q k v o) (Gen.k0_pay35 q
      k v o) (Gen.k0_pay37 v o (Gen.k0_pay36 q k)) (Gen.k0_pay38 q k v o) (Gen.k0_pay39 q k v o) (Gen.k0_pay40 q k)
      (Gen.k0_pay41 q k v) (constant S128x64 .f32 0x00000000#32))
      = heads q k v o 1 := rfl

/-- A batch's context at row s, feature j: head j / 64 at its feature j % 64, the weighted sum of v's head slice over
    the batch's rows divided by the weights summed against the ones column. -/
private theorem heads_apply (b : Fin 2) (s : Fin 128) (j : Fin 768) :
    heads q k v o b (ix2 s j)
      = Ideal.div (∑ l : Fin 128, Attn.pOf (scBlk q k b (Attn.headOf j) s) l * v (ix2 (blkRow b l) (Attn.colOf (Attn.headOf j) (Attn.inHead j))))
          (∑ l : Fin 128, Attn.pOf (scBlk q k b (Attn.headOf j) s) l * o (ix2 l (Attn.inHead j))) :=
  (cat12_apply (hd q k v o b) _ s j).trans (headAt_apply b (Attn.headOf j) _ q k v o s (Attn.inHead j))

end Heads

section Block

variable (x0 : Vec Ideal S256x768 .f32) (x1 x2 x3 : Vec Ideal S768x768 .bf16) (x5 x6 x7 : Vec Ideal S1x768 .f32)

/-- The top batch's twelve heads as the kernel spells them are the heads at row offset 0 (the first head's scores are
    spelled from the block itself, through the same two projections). -/
private theorem top_eq (v : FVec Ideal S256x768 .bf16) (o : FVec Ideal S128x64 .bf16) :
    (Gen.k0_pay23 (Gen.k0_pay3 x0 x1 x5) (Gen.k0_pay4 x0 x2 x6) v o (Gen.k0_pay8 v o (Gen.k0_pay7 x0 x1 x5 x2 x6))
      (Gen.k0_pay9 (Gen.k0_pay3 x0 x1 x5) (Gen.k0_pay4 x0 x2 x6) v o) (Gen.k0_pay10 (Gen.k0_pay3 x0 x1 x5)
      (Gen.k0_pay4 x0 x2 x6) v o) (Gen.k0_pay14 (Gen.k0_pay12 (Gen.k0_pay3 x0 x1 x5) (Gen.k0_pay4 x0 x2 x6) v)
      (Gen.k0_pay13 (Gen.k0_pay3 x0 x1 x5) (Gen.k0_pay4 x0 x2 x6) o)) (Gen.k0_pay15 (Gen.k0_pay3 x0 x1 x5)
      (Gen.k0_pay4 x0 x2 x6) v o) (Gen.k0_pay16 (Gen.k0_pay3 x0 x1 x5) (Gen.k0_pay4 x0 x2 x6) v o) (Gen.k0_pay17
      (Gen.k0_pay3 x0 x1 x5) (Gen.k0_pay4 x0 x2 x6) v o) (Gen.k0_pay19 v o (Gen.k0_pay18 (Gen.k0_pay3 x0 x1 x5)
      (Gen.k0_pay4 x0 x2 x6))) (Gen.k0_pay20 (Gen.k0_pay3 x0 x1 x5) (Gen.k0_pay4 x0 x2 x6) v o) (Gen.k0_pay21
      (Gen.k0_pay3 x0 x1 x5) (Gen.k0_pay4 x0 x2 x6) v o) (Gen.k0_pay22 (Gen.k0_pay3 x0 x1 x5) (Gen.k0_pay4 x0 x2 x6)))
      = heads (Gen.k0_pay3 x0 x1 x5) (Gen.k0_pay4 x0 x2 x6) v o 0 := rfl

/-- The scores of the block's batch b from the two projections are the batch's scores, the scale on q. -/
private theorem scBlk_eq (b : Fin 2) (h : Fin 12) (s : Fin 128) :
    scBlk (Gen.k0_pay3 (F := Ideal) x0 x1 x5) (Gen.k0_pay4 (F := Ideal) x0 x2 x6) b h s
      = Attn.scK (fun j i => x0 (ix2 (blkRow b j) i)) x1 x2 x5 x6 h s := by
  funext j
  unfold scBlk Attn.scK
  simp only [pay3_apply, pay4_apply]

/-- The context half the last stage reads for batch b, at row s and feature j, is the batch's context. -/
private theorem half_apply (b : Fin 2) (s : Fin 128) (j : Fin 768) :
    (if b.val = 0 then
      (Gen.k0_pay23 (Gen.k0_pay3 x0 x1 x5) (Gen.k0_pay4 x0 x2 x6) (Gen.k0_pay5 x0 x3 x7) (Gen.k0_pay6 (F := Ideal))
        (Gen.k0_pay8 (Gen.k0_pay5 x0 x3 x7) (Gen.k0_pay6 (F := Ideal)) (Gen.k0_pay7 x0 x1 x5 x2 x6)) (Gen.k0_pay9
        (Gen.k0_pay3 x0 x1 x5) (Gen.k0_pay4 x0 x2 x6) (Gen.k0_pay5 x0 x3 x7) (Gen.k0_pay6 (F := Ideal))) (Gen.k0_pay10
        (Gen.k0_pay3 x0 x1 x5) (Gen.k0_pay4 x0 x2 x6) (Gen.k0_pay5 x0 x3 x7) (Gen.k0_pay6 (F := Ideal))) (Gen.k0_pay14
        (Gen.k0_pay12 (Gen.k0_pay3 x0 x1 x5) (Gen.k0_pay4 x0 x2 x6) (Gen.k0_pay5 x0 x3 x7)) (Gen.k0_pay13 (Gen.k0_pay3
        x0 x1 x5) (Gen.k0_pay4 x0 x2 x6) (Gen.k0_pay6 (F := Ideal)))) (Gen.k0_pay15 (Gen.k0_pay3 x0 x1 x5)
        (Gen.k0_pay4 x0 x2 x6) (Gen.k0_pay5 x0 x3 x7) (Gen.k0_pay6 (F := Ideal))) (Gen.k0_pay16 (Gen.k0_pay3 x0 x1 x5)
        (Gen.k0_pay4 x0 x2 x6) (Gen.k0_pay5 x0 x3 x7) (Gen.k0_pay6 (F := Ideal))) (Gen.k0_pay17 (Gen.k0_pay3 x0 x1 x5)
        (Gen.k0_pay4 x0 x2 x6) (Gen.k0_pay5 x0 x3 x7) (Gen.k0_pay6 (F := Ideal))) (Gen.k0_pay19 (Gen.k0_pay5 x0 x3 x7)
        (Gen.k0_pay6 (F := Ideal)) (Gen.k0_pay18 (Gen.k0_pay3 x0 x1 x5) (Gen.k0_pay4 x0 x2 x6))) (Gen.k0_pay20
        (Gen.k0_pay3 x0 x1 x5) (Gen.k0_pay4 x0 x2 x6) (Gen.k0_pay5 x0 x3 x7) (Gen.k0_pay6 (F := Ideal))) (Gen.k0_pay21
        (Gen.k0_pay3 x0 x1 x5) (Gen.k0_pay4 x0 x2 x6) (Gen.k0_pay5 x0 x3 x7) (Gen.k0_pay6 (F := Ideal))) (Gen.k0_pay22
        (Gen.k0_pay3 x0 x1 x5) (Gen.k0_pay4 x0 x2 x6)))
    else
      (Gen.k0_pay42 (Gen.k0_pay6 (F := Ideal)) (Gen.k0_pay24 (Gen.k0_pay3 x0 x1 x5) (Gen.k0_pay4 x0 x2 x6) (Gen.k0_pay5 x0
        x3 x7) (Gen.k0_pay6 (F := Ideal))) (Gen.k0_pay27 (Gen.k0_pay6 (F := Ideal)) (Gen.k0_pay25 (Gen.k0_pay3 x0 x1
        x5) (Gen.k0_pay4 x0 x2 x6)) (Gen.k0_pay26 (Gen.k0_pay3 x0 x1 x5) (Gen.k0_pay4 x0 x2 x6) (Gen.k0_pay5 x0 x3
        x7)) (constant S128x64 .f32 0x00000000#32)) (Gen.k0_pay28 (Gen.k0_pay3 x0 x1 x5) (Gen.k0_pay4 x0 x2 x6)
        (Gen.k0_pay5 x0 x3 x7) (Gen.k0_pay6 (F := Ideal))) (Gen.k0_pay29 (Gen.k0_pay3 x0 x1 x5) (Gen.k0_pay4 x0 x2 x6)
        (Gen.k0_pay5 x0 x3 x7) (Gen.k0_pay6 (F := Ideal))) (Gen.k0_pay30 (Gen.k0_pay3 x0 x1 x5) (Gen.k0_pay4 x0 x2 x6)
        (Gen.k0_pay5 x0 x3 x7) (Gen.k0_pay6 (F := Ideal))) (Gen.k0_pay33 (Gen.k0_pay5 x0 x3 x7) (Gen.k0_pay6 (F :=
        Ideal)) (Gen.k0_pay31 (Gen.k0_pay3 x0 x1 x5)) (Gen.k0_pay32 (Gen.k0_pay4 x0 x2 x6)) (constant S128x128 .f32
        0x00000000#32)) (Gen.k0_pay34 (Gen.k0_pay3 x0 x1 x5) (Gen.k0_pay4 x0 x2 x6) (Gen.k0_pay5 x0 x3 x7)
        (Gen.k0_pay6 (F := Ideal))) (Gen.k0_pay35 (Gen.k0_pay3 x0 x1 x5) (Gen.k0_pay4 x0 x2 x6) (Gen.k0_pay5 x0 x3 x7)
        (Gen.k0_pay6 (F := Ideal))) (Gen.k0_pay37 (Gen.k0_pay5 x0 x3 x7) (Gen.k0_pay6 (F := Ideal)) (Gen.k0_pay36
        (Gen.k0_pay3 x0 x1 x5) (Gen.k0_pay4 x0 x2 x6))) (Gen.k0_pay38 (Gen.k0_pay3 x0 x1 x5) (Gen.k0_pay4 x0 x2 x6)
        (Gen.k0_pay5 x0 x3 x7) (Gen.k0_pay6 (F := Ideal))) (Gen.k0_pay39 (Gen.k0_pay3 x0 x1 x5) (Gen.k0_pay4 x0 x2 x6)
        (Gen.k0_pay5 x0 x3 x7) (Gen.k0_pay6 (F := Ideal))) (Gen.k0_pay40 (Gen.k0_pay3 x0 x1 x5) (Gen.k0_pay4 x0 x2
        x6)) (Gen.k0_pay41 (Gen.k0_pay3 x0 x1 x5) (Gen.k0_pay4 x0 x2 x6) (Gen.k0_pay5 x0 x3 x7)) (constant S128x64
        .f32 0x00000000#32))) (ix2 s j)
      = Attn.ctxK (fun j i => x0 (ix2 (blkRow b j) i)) x1 x2 x3 x5 x6 x7 (Attn.headOf j) s (Attn.inHead j) := by
  have hh : (if b.val = 0 then
      (Gen.k0_pay23 (Gen.k0_pay3 x0 x1 x5) (Gen.k0_pay4 x0 x2 x6) (Gen.k0_pay5 x0 x3 x7) (Gen.k0_pay6 (F := Ideal))
        (Gen.k0_pay8 (Gen.k0_pay5 x0 x3 x7) (Gen.k0_pay6 (F := Ideal)) (Gen.k0_pay7 x0 x1 x5 x2 x6)) (Gen.k0_pay9
        (Gen.k0_pay3 x0 x1 x5) (Gen.k0_pay4 x0 x2 x6) (Gen.k0_pay5 x0 x3 x7) (Gen.k0_pay6 (F := Ideal))) (Gen.k0_pay10
        (Gen.k0_pay3 x0 x1 x5) (Gen.k0_pay4 x0 x2 x6) (Gen.k0_pay5 x0 x3 x7) (Gen.k0_pay6 (F := Ideal))) (Gen.k0_pay14
        (Gen.k0_pay12 (Gen.k0_pay3 x0 x1 x5) (Gen.k0_pay4 x0 x2 x6) (Gen.k0_pay5 x0 x3 x7)) (Gen.k0_pay13 (Gen.k0_pay3
        x0 x1 x5) (Gen.k0_pay4 x0 x2 x6) (Gen.k0_pay6 (F := Ideal)))) (Gen.k0_pay15 (Gen.k0_pay3 x0 x1 x5)
        (Gen.k0_pay4 x0 x2 x6) (Gen.k0_pay5 x0 x3 x7) (Gen.k0_pay6 (F := Ideal))) (Gen.k0_pay16 (Gen.k0_pay3 x0 x1 x5)
        (Gen.k0_pay4 x0 x2 x6) (Gen.k0_pay5 x0 x3 x7) (Gen.k0_pay6 (F := Ideal))) (Gen.k0_pay17 (Gen.k0_pay3 x0 x1 x5)
        (Gen.k0_pay4 x0 x2 x6) (Gen.k0_pay5 x0 x3 x7) (Gen.k0_pay6 (F := Ideal))) (Gen.k0_pay19 (Gen.k0_pay5 x0 x3 x7)
        (Gen.k0_pay6 (F := Ideal)) (Gen.k0_pay18 (Gen.k0_pay3 x0 x1 x5) (Gen.k0_pay4 x0 x2 x6))) (Gen.k0_pay20
        (Gen.k0_pay3 x0 x1 x5) (Gen.k0_pay4 x0 x2 x6) (Gen.k0_pay5 x0 x3 x7) (Gen.k0_pay6 (F := Ideal))) (Gen.k0_pay21
        (Gen.k0_pay3 x0 x1 x5) (Gen.k0_pay4 x0 x2 x6) (Gen.k0_pay5 x0 x3 x7) (Gen.k0_pay6 (F := Ideal))) (Gen.k0_pay22
        (Gen.k0_pay3 x0 x1 x5) (Gen.k0_pay4 x0 x2 x6)))
    else
      (Gen.k0_pay42 (Gen.k0_pay6 (F := Ideal)) (Gen.k0_pay24 (Gen.k0_pay3 x0 x1 x5) (Gen.k0_pay4 x0 x2 x6) (Gen.k0_pay5 x0
        x3 x7) (Gen.k0_pay6 (F := Ideal))) (Gen.k0_pay27 (Gen.k0_pay6 (F := Ideal)) (Gen.k0_pay25 (Gen.k0_pay3 x0 x1
        x5) (Gen.k0_pay4 x0 x2 x6)) (Gen.k0_pay26 (Gen.k0_pay3 x0 x1 x5) (Gen.k0_pay4 x0 x2 x6) (Gen.k0_pay5 x0 x3
        x7)) (constant S128x64 .f32 0x00000000#32)) (Gen.k0_pay28 (Gen.k0_pay3 x0 x1 x5) (Gen.k0_pay4 x0 x2 x6)
        (Gen.k0_pay5 x0 x3 x7) (Gen.k0_pay6 (F := Ideal))) (Gen.k0_pay29 (Gen.k0_pay3 x0 x1 x5) (Gen.k0_pay4 x0 x2 x6)
        (Gen.k0_pay5 x0 x3 x7) (Gen.k0_pay6 (F := Ideal))) (Gen.k0_pay30 (Gen.k0_pay3 x0 x1 x5) (Gen.k0_pay4 x0 x2 x6)
        (Gen.k0_pay5 x0 x3 x7) (Gen.k0_pay6 (F := Ideal))) (Gen.k0_pay33 (Gen.k0_pay5 x0 x3 x7) (Gen.k0_pay6 (F :=
        Ideal)) (Gen.k0_pay31 (Gen.k0_pay3 x0 x1 x5)) (Gen.k0_pay32 (Gen.k0_pay4 x0 x2 x6)) (constant S128x128 .f32
        0x00000000#32)) (Gen.k0_pay34 (Gen.k0_pay3 x0 x1 x5) (Gen.k0_pay4 x0 x2 x6) (Gen.k0_pay5 x0 x3 x7)
        (Gen.k0_pay6 (F := Ideal))) (Gen.k0_pay35 (Gen.k0_pay3 x0 x1 x5) (Gen.k0_pay4 x0 x2 x6) (Gen.k0_pay5 x0 x3 x7)
        (Gen.k0_pay6 (F := Ideal))) (Gen.k0_pay37 (Gen.k0_pay5 x0 x3 x7) (Gen.k0_pay6 (F := Ideal)) (Gen.k0_pay36
        (Gen.k0_pay3 x0 x1 x5) (Gen.k0_pay4 x0 x2 x6))) (Gen.k0_pay38 (Gen.k0_pay3 x0 x1 x5) (Gen.k0_pay4 x0 x2 x6)
        (Gen.k0_pay5 x0 x3 x7) (Gen.k0_pay6 (F := Ideal))) (Gen.k0_pay39 (Gen.k0_pay3 x0 x1 x5) (Gen.k0_pay4 x0 x2 x6)
        (Gen.k0_pay5 x0 x3 x7) (Gen.k0_pay6 (F := Ideal))) (Gen.k0_pay40 (Gen.k0_pay3 x0 x1 x5) (Gen.k0_pay4 x0 x2
        x6)) (Gen.k0_pay41 (Gen.k0_pay3 x0 x1 x5) (Gen.k0_pay4 x0 x2 x6) (Gen.k0_pay5 x0 x3 x7)) (constant S128x64
        .f32 0x00000000#32)))
      = heads (Gen.k0_pay3 x0 x1 x5) (Gen.k0_pay4 x0 x2 x6) (Gen.k0_pay5 x0 x3 x7) (Gen.k0_pay6 (F := Ideal)) b := by
    match b with
    | ⟨0, _⟩ => exact (if_pos rfl).trans (top_eq x0 x1 x2 x5 x6 _ _)
    | ⟨1, _⟩ => exact (if_neg Nat.one_ne_zero).trans (bot_eq _ _ _ _)
  rw [hh, heads_apply, scBlk_eq]
  unfold Attn.ctxK
  simp only [pay5_apply, pay6_apply]

end Block

theorem out_apply (x0 : Vec Ideal S256x768 .f32) (x1 x2 x3 x4 : Vec Ideal S768x768 .bf16)
    (x5 x6 x7 x8 x9 x10 : Vec Ideal S1x768 .f32) (b : Fin 2) (s : Fin 128) (c : Fin 768) :
    Gen.out0_11 (F := Ideal) x0 x1 x2 x3 x4 x5 x6 x7 x8 x9 x10 (ix2 (blkRow b s) c)
      = Attn.outK (fun j i => x0 (ix2 (blkRow b j) i)) x1 x2 x3 x4 x5 x6 x7 x8 x9 x10 s c := by
  have hz : (![0, 0] : Fin 2 → Nat) = fun _ => 0 := funext fun a => by fin_cases a <;> rfl
  -- the output block is the one store's payload, and each loaded window is its block
  unfold Gen.out0_11
  rw [View.canon_unit_zero hz]
  simp only [View.ld_unit_zero (S := S256x768) hz, View.ld_unit_zero (S := S768x768) hz, View.ld_unit_zero (S := S1x768) hz]
  -- the last stage on the batch's context half and the residual row
  rw [pay43_apply]
  simp only [half_apply, pay1_apply]
  rfl

end Cert.KernelIdeal.KV

end
-- ==== Proof.KValue.lean ====
/-
  The kernel's run with its result named: the output array is the first reading of the attention block on the
  flattened activations, and the result is that array unflattened.
-/
import proofs.«110644_g2000702396236789_pallasbulk_1056_3_alg».proof.Proof.Gen.KernelIdeal.Frame
import proofs.«110644_g2000702396236789_pallasbulk_1056_3_alg».proof.Proof.KBody
import Idealize.ShloMosaic.Lib.Pipeline.Value
import Idealize.ShloMosaic.Lib.StableHlo.Run

noncomputable section

open scoped BigOperators

namespace Cert.KernelIdeal.KV

open Idealize.ShloMosaic Idealize.ShloMosaic.TcCoe Idealize.ShloMosaic.ValueIdx Idealize.SL.Sem Cert.KernelIdeal Cert.KernelIdeal.Facts₀ Cert.KernelIdeal.Gen

variable (m : (ℓ : Loc nD τ sig) → Buf (Elt Ideal) ℓ) (ρ : Dev nD → PrngReg)

/-- The arrays as the region finds them, each at its literal type. -/
abbrev xArr (c : Dev nD) : S8192x768.Idx → EReal := V m c main_v0
abbrev wArr1 (c : Dev nD) : S768x768.Idx → EReal := V m c main_v1
abbrev wArr2 (c : Dev nD) : S768x768.Idx → EReal := V m c main_v2
abbrev wArr3 (c : Dev nD) : S768x768.Idx → EReal := V m c main_v3
abbrev wArr4 (c : Dev nD) : S768x768.Idx → EReal := V m c main_v4
abbrev bArr5 (c : Dev nD) : S1x768.Idx → EReal := V m c main_v5
abbrev bArr6 (c : Dev nD) : S1x768.Idx → EReal := V m c main_v6
abbrev bArr7 (c : Dev nD) : S1x768.Idx → EReal := V m c main_v7
abbrev bArr8 (c : Dev nD) : S1x768.Idx → EReal := V m c main_v8
abbrev bArr9 (c : Dev nD) : S1x768.Idx → EReal := V m c main_v9
abbrev bArr10 (c : Dev nD) : S1x768.Idx → EReal := V m c main_v10

/-- What the output array ends holding: the attention block's first reading, batch by batch, of the flattened
    activations as the region finds them. -/
abbrev G (c : Dev nD) : S8192x768.Idx → EReal :=
  Attn.arrOf (fun xr => Attn.outK xr (wArr1 m c) (wArr2 m c) (wArr3 m c) (wArr4 m c) (bArr5 m c) (bArr6 m c) (bArr7 m c)
    (bArr8 m c) (bArr9 m c) (bArr10 m c)) (xArr m c)

/-- The index maps over the grid: the activations' and the output's blocks move with the point, the others stay. -/
theorem idx_facts : ∀ t : Fin cfg0.N, win0_0.index t (0 : Fin 2) = t.val ∧ win0_0.index t (1 : Fin 2) = 0
    ∧ win0_11.index t (0 : Fin 2) = t.val ∧ win0_11.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The activations' block at point t is rows 256 t … 256 t + 255 of the array. -/
theorem iblk0_apply (c : Dev nD) (t : Fin cfg0.N) (x : S256x768.Idx) (k : S8192x768.Idx)
    (hk0 : (k 0).val = 256 * t.val + (x 0).val) (hk1 : (k 1).val = (x 1).val) :
    (iblk m c 0 t : Vec Ideal S256x768 .f32) x = xArr m c k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 256 + 1 * (x 0).val = (k 0).val; rw [e0, hk0]; omega
  | ⟨1, _⟩ => show win0_0.index t 1 * 768 + 1 * (x 1).val = (k 1).val; rw [e1, hk1]; omega

/-- A weight's or a bias row's block at any point is the whole array. -/
theorem iblk1_eq (c : Dev nD) (t : Fin cfg0.N) : (iblk m c 1 t : Vec Ideal S768x768 .bf16) = wArr1 m c := by
  obtain ⟨-, -, -, -, e0, e1, -⟩ := idx_facts t
  funext x
  unfold iblk
  rw [View.read_apply]
  show V m c main_v1 _ = V m c main_v1 _
  congr 1
  funext a
  apply Fin.ext
  match a with
  | ⟨0, _⟩ => show win0_1.index t 0 * 768 + 1 * (x 0).val = (x 0).val; rw [e0]; omega
  | ⟨1, _⟩ => show win0_1.index t 1 * 768 + 1 * (x 1).val = (x 1).val; rw [e1]; omega

theorem iblk2_eq (c : Dev nD) (t : Fin cfg0.N) : (iblk m c 2 t : Vec Ideal S768x768 .bf16) = wArr2 m c := by
  obtain ⟨-, -, -, -, -, -, e0, e1, -⟩ := idx_facts t
  funext x
  unfold iblk
  rw [View.read_apply]
  show V m c main_v2 _ = V m c main_v2 _
  congr 1
  funext a
  apply Fin.ext
  match a with
  | ⟨0, _⟩ => show win0_2.index t 0 * 768 + 1 * (x 0).val = (x 0).val; rw [e0]; omega
  | ⟨1, _⟩ => show win0_2.index t 1 * 768 + 1 * (x 1).val = (x 1).val; rw [e1]; omega

theorem iblk3_eq (c : Dev nD) (t : Fin cfg0.N) : (iblk m c 3 t : Vec Ideal S768x768 .bf16) = wArr3 m c := by
  obtain ⟨-, -, -, -, -, -, -, -, e0, e1, -⟩ := idx_facts t
  funext x
  unfold iblk
  rw [View.read_apply]
  show V m c main_v3 _ = V m c main_v3 _
  congr 1
  funext a
  apply Fin.ext
  match a with
  | ⟨0, _⟩ => show win0_3.index t 0 * 768 + 1 * (x 0).val = (x 0).val; rw [e0]; omega
  | ⟨1, _⟩ => show win0_3.index t 1 * 768 + 1 * (x 1).val = (x 1).val; rw [e1]; omega

theorem iblk4_eq (c : Dev nD) (t : Fin cfg0.N) : (iblk m c 4 t : Vec Ideal S768x768 .bf16) = wArr4 m c := by
  obtain ⟨-, -, -, -, -, -, -, -, -, -, e0, e1, -⟩ := idx_facts t
  funext x
  unfold iblk
  rw [View.read_apply]
  show V m c main_v4 _ = V m c main_v4 _
  congr 1
  funext a
  apply Fin.ext
  match a with
  | ⟨0, _⟩ => show win0_4.index t 0 * 768 + 1 * (x 0).val = (x 0).val; rw [e0]; omega
  | ⟨1, _⟩ => show win0_4.index t 1 * 768 + 1 * (x 1).val = (x 1).val; rw [e1]; omega

theorem iblk5_eq (c : Dev nD) (t : Fin cfg0.N) : (iblk m c 5 t : Vec Ideal S1x768 .f32) = bArr5 m c := by
  obtain ⟨-, -, -, -, -, -, -, -, -, -, -, -, e0, e1, -⟩ := idx_facts t
  funext x
  unfold iblk
  rw [View.read_apply]
  show V m c main_v5 _ = V m c main_v5 _
  congr 1
  funext a
  apply Fin.ext
  match a with
  | ⟨0, _⟩ => show win0_5.index t 0 * 1 + 1 * (x 0).val = (x 0).val; rw [e0]; omega
  | ⟨1, _⟩ => show win0_5.index t 1 * 768 + 1 * (x 1).val = (x 1).val; rw [e1]; omega

theorem iblk6_eq (c : Dev nD) (t : Fin cfg0.N) : (iblk m c 6 t : Vec Ideal S1x768 .f32) = bArr6 m c := by
  obtain ⟨-, -, -, -, -, -, -, -, -, -, -, -, -, -, e0, e1, -⟩ := idx_facts t
  funext x
  unfold iblk
  rw [View.read_apply]
  show V m c main_v6 _ = V m c main_v6 _
  congr 1
  funext a
  apply Fin.ext
  match a with
  | ⟨0, _⟩ => show win0_6.index t 0 * 1 + 1 * (x 0).val = (x 0).val; rw [e0]; omega
  | ⟨1, _⟩ => show win0_6.index t 1 * 768 + 1 * (x 1).val = (x 1).val; rw [e1]; omega

theorem iblk7_eq (c : Dev nD) (t : Fin cfg0.N) : (iblk m c 7 t : Vec Ideal S1x768 .f32) = bArr7 m c := by
  obtain ⟨-, -, -, -, -, -, -, -, -, -, -, -, -, -, -, -, e0, e1, -⟩ := idx_facts t
  funext x
  unfold iblk
  rw [View.read_apply]
  show V m c main_v7 _ = V m c main_v7 _
  congr 1
  funext a
  apply Fin.ext
  match a with
  | ⟨0, _⟩ => show win0_7.index t 0 * 1 + 1 * (x 0).val = (x 0).val; rw [e0]; omega
  | ⟨1, _⟩ => show win0_7.index t 1 * 768 + 1 * (x 1).val = (x 1).val; rw [e1]; omega

theorem iblk8_eq (c : Dev nD) (t : Fin cfg0.N) : (iblk m c 8 t : Vec Ideal S1x768 .f32) = bArr8 m c := by
  obtain ⟨-, -, -, -, -, -, -, -, -, -, -, -, -, -, -, -, -, -, e0, e1, -⟩ := idx_facts t
  funext x
  unfold iblk
  rw [View.read_apply]
  show V m c main_v8 _ = V m c main_v8 _
  congr 1
  funext a
  apply Fin.ext
  match a with
  | ⟨0, _⟩ => show win0_8.index t 0 * 1 + 1 * (x 0).val = (x 0).val; rw [e0]; omega
  | ⟨1, _⟩ => show win0_8.index t 1 * 768 + 1 * (x 1).val = (x 1).val; rw [e1]; omega

theorem iblk9_eq (c : Dev nD) (t : Fin cfg0.N) : (iblk m c 9 t : Vec Ideal S1x768 .f32) = bArr9 m c := by
  obtain ⟨-, -, -, -, -, -, -, -, -, -, -, -, -, -, -, -, -, -, -, -, e0, e1, -⟩ := idx_facts t
  funext x
  unfold iblk
  rw [View.read_apply]
  show V m c main_v9 _ = V m c main_v9 _
  congr 1
  funext a
  apply Fin.ext
  match a with
  | ⟨0, _⟩ => show win0_9.index t 0 * 1 + 1 * (x 0).val = (x 0).val; rw [e0]; omega
  | ⟨1, _⟩ => show win0_9.index t 1 * 768 + 1 * (x 1).val = (x 1).val; rw [e1]; omega

theorem iblk10_eq (c : Dev nD) (t : Fin cfg0.N) : (iblk m c 10 t : Vec Ideal S1x768 .f32) = bArr10 m c := by
  obtain ⟨-, -, -, -, -, -, -, -, -, -, -, -, -, -, -, -, -, -, -, -, -, -, e0, e1⟩ := idx_facts t
  funext x
  unfold iblk
  rw [View.read_apply]
  show V m c main_v10 _ = V m c main_v10 _
  congr 1
  funext a
  apply Fin.ext
  match a with
  | ⟨0, _⟩ => show win0_10.index t 0 * 1 + 1 * (x 0).val = (x 0).val; rw [e0]; omega
  | ⟨1, _⟩ => show win0_10.index t 1 * 768 + 1 * (x 1).val = (x 1).val; rw [e1]; omega

/-- The body's result on a block whose activations are rows 256 t … 256 t + 255 of X is the attention block's first
    reading of X there: row 128 b + s of the block is row s of batch 2 t + b. -/
theorem out_block (X : S8192x768.Idx → EReal) (t : Fin 32)
    (x0 : Vec Ideal S256x768 .f32) (x1 x2 x3 x4 : Vec Ideal S768x768 .bf16) (x5 x6 x7 x8 x9 x10 : Vec Ideal S1x768 .f32)
    (hx0 : ∀ (y : S256x768.Idx) (k : S8192x768.Idx), (k 0).val = 256 * t.val + (y 0).val → (k 1).val = (y 1).val → x0 y = X k)
    (y : S256x768.Idx) (k : S8192x768.Idx) (hk0 : (k 0).val = 256 * t.val + (y 0).val) (hk1 : (k 1).val = (y 1).val) :
    out0_11 (F := Ideal) x0 x1 x2 x3 x4 x5 x6 x7 x8 x9 x10 y
      = Attn.arrOf (fun xr => Attn.outK xr x1 x2 x3 x4 x5 x6 x7 x8 x9 x10) X k := by
  obtain ⟨r, col, rfl⟩ : ∃ (r : Fin 256) (col : Fin 768), y = ix2 r col := ⟨y 0, y 1, eq_ix2 y⟩
  obtain ⟨R, col', rfl⟩ : ∃ (R : Fin 8192) (col' : Fin 768), k = ix2 R col' := ⟨k 0, k 1, eq_ix2 k⟩
  have hk0' : R.val = 256 * t.val + r.val := hk0
  have hk1' : col'.val = col.val := hk1
  obtain rfl : col' = col := Fin.ext hk1'
  have hr := r.isLt
  have ht := t.isLt
  obtain ⟨b, s, rfl⟩ : ∃ (b : Fin 2) (s : Fin 128), r = blkRow b s :=
    ⟨⟨r.val / 128, by omega⟩, ⟨r.val % 128, by omega⟩, Fin.ext (by show r.val = 128 * (r.val / 128) + r.val % 128; omega)⟩
  have hR : R.val = 256 * t.val + (128 * b.val + s.val) := hk0'
  have hb := b.isLt
  have hs := s.isLt
  rw [out_apply, Attn.arrOf_ix2]
  have hs' : Attn.inBatch R = s := Fin.ext (by show R.val % 128 = s.val; omega)
  have hrows : Attn.rowsOf X (Attn.batchOf R) = fun j i => x0 (ix2 (blkRow b j) i) := by
    funext j i
    have hj := j.isLt
    refine (hx0 (ix2 (blkRow b j) i) (ix2 (Attn.rowOf (Attn.batchOf R) j) i) ?_ rfl).symm
    show 128 * (R.val / 128) + j.val = 256 * t.val + (128 * b.val + j.val)
    omega
  rw [hs', hrows]

/-- The same with the weights and the bias rows named. -/
theorem out_block' (X : S8192x768.Idx → EReal) (t : Fin 32)
    (x0 : Vec Ideal S256x768 .f32) (x1 x2 x3 x4 : Vec Ideal S768x768 .bf16) (x5 x6 x7 x8 x9 x10 : Vec Ideal S1x768 .f32)
    (w1 w2 w3 w4 : S768x768.Idx → EReal) (b5 b6 b7 b8 b9 b10 : S1x768.Idx → EReal)
    (h1 : x1 = w1) (h2 : x2 = w2) (h3 : x3 = w3) (h4 : x4 = w4) (h5 : x5 = b5) (h6 : x6 = b6) (h7 : x7 = b7)
    (h8 : x8 = b8) (h9 : x9 = b9) (h10 : x10 = b10)
    (hx0 : ∀ (y : S256x768.Idx) (k : S8192x768.Idx), (k 0).val = 256 * t.val + (y 0).val → (k 1).val = (y 1).val → x0 y = X k)
    (y : S256x768.Idx) (k : S8192x768.Idx) (hk0 : (k 0).val = 256 * t.val + (y 0).val) (hk1 : (k 1).val = (y 1).val) :
    out0_11 (F := Ideal) x0 x1 x2 x3 x4 x5 x6 x7 x8 x9 x10 y
      = Attn.arrOf (fun xr => Attn.outK xr w1 w2 w3 w4 b5 b6 b7 b8 b9 b10) X k := by
  subst h1 h2 h3 h4 h5 h6 h7 h8 h9 h10
  exact out_block X t x0 x1 x2 x3 x4 x5 x6 x7 x8 x9 x10 hx0 y k hk0 hk1

/-- What point t writes back is block t of G. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  obtain ⟨-, -, e0, e1, -⟩ := idx_facts t
  have ht : t.val < 32 := Nat.lt_of_lt_of_eq t.isLt N_0
  funext y
  rw [View.read_apply]
  exact out_block' (xArr m c) ⟨t.val, ht⟩ (iblk m c 0 t) (iblk m c 1 t) (iblk m c 2 t) (iblk m c 3 t) (iblk m c 4 t)
    (iblk m c 5 t) (iblk m c 6 t) (iblk m c 7 t) (iblk m c 8 t) (iblk m c 9 t) (iblk m c 10 t)
    (wArr1 m c) (wArr2 m c) (wArr3 m c) (wArr4 m c) (bArr5 m c) (bArr6 m c) (bArr7 m c) (bArr8 m c) (bArr9 m c) (bArr10 m c)
    (iblk1_eq m c t) (iblk2_eq m c t) (iblk3_eq m c t) (iblk4_eq m c t) (iblk5_eq m c t) (iblk6_eq m c t) (iblk7_eq m c t)
    (iblk8_eq m c t) (iblk9_eq m c t) (iblk10_eq m c t)
    (fun y k h0 h1 => iblk0_apply m c t y k h0 h1) y (((cfg0.win 11).blk t).view.emb y)
    (by show win0_11.index t 0 * 256 + 1 * (y 0).val = 256 * t.val + (y 0).val; rw [e0]; omega)
    (by show win0_11.index t 1 * 768 + 1 * (y 1).val = (y 1).val; rw [e1]; omega)

/-- An index of the array is in point t's block iff each coordinate is in the block's range on its axis. -/
theorem mem_blk (t : Fin cfg0.N) (i : S8192x768.Idx) :
    i ∈ ((cfg0.win 11).blk t).view.set ↔ ∀ a : Fin 2, win0_11.index t a * S256x768.size a ≤ (i a).val ∧ (i a).val < win0_11.index t a * S256x768.size a + S256x768.size a := by
  show i ∈ ((View.whole main_v11).slice (win0_11.rect t)).set ↔ _
  rw [View.set_slice_whole, Rect.mem_set_unit]
  exact Iff.rfl

/-- Row R of the array is in the block of point R / 256. -/
theorem cover (i : S8192x768.Idx) : ∃ t : Fin cfg0.N, (cfg0.win 11).flush t = true ∧ i ∈ ((cfg0.win 11).blk t).view.set := by
  have hN : cfg0.N = 32 := N_0
  have hi0 : (i 0).val < 8192 := (i 0).isLt
  have hi1 : (i 1).val < 768 := (i 1).isLt
  obtain ⟨t, htv⟩ : ∃ t : Fin cfg0.N, t.val = (i 0).val / 256 := ⟨⟨(i 0).val / 256, Nat.lt_of_lt_of_eq (by omega : (i 0).val / 256 < 32) hN.symm⟩, rfl⟩
  obtain ⟨-, -, e0, e1, -⟩ := idx_facts t
  refine ⟨t, flush0_11 t, ?_⟩
  rw [mem_blk]
  intro a
  match a with
  | ⟨0, _⟩ => show win0_11.index t 0 * 256 ≤ (i 0).val ∧ (i 0).val < win0_11.index t 0 * 256 + 256; rw [e0, htv]; omega
  | ⟨1, _⟩ => show win0_11.index t 1 * 768 ≤ (i 1).val ∧ (i 1).val < win0_11.index t 1 * 768 + 768; rw [e1]; omega

/-- The output array after the region. -/
theorem final (c : Dev nD) : (dats m 0 c).arrAt 11 cfg0.N = G m c :=
  (dats m 0 c).arrAt_eq_of_cover 11 (G m c) (fun t _ => flushed_eq m c t) cover

/-- The host operations before the region: the activations flattened, the weights as given (the conversion is the
    identity over the extended reals), the six vectors as rows. -/
theorem xArr_eq (c : Dev nD) : xArr m c = shapeCast S8192x768 (m ((c : Thread nD τ).loc main_arg0) : S64x128x768.Idx → EReal) Gen.shapeCasts_S64x128x768_S8192x768 := by
  show StableHlo.after hostOps0 (fun b => m (c, b)) (Proc.devRef .tc main_v0) = _
  after_results
  rfl

theorem wArr1_eq (c : Dev nD) : wArr1 m c = (m ((c : Thread nD τ).loc main_arg1) : S768x768.Idx → EReal) := by
  show StableHlo.after hostOps0 (fun b => m (c, b)) (Proc.devRef .tc main_v1) = _
  after_results
  rfl

theorem wArr2_eq (c : Dev nD) : wArr2 m c = (m ((c : Thread nD τ).loc main_arg2) : S768x768.Idx → EReal) := by
  show StableHlo.after hostOps0 (fun b => m (c, b)) (Proc.devRef .tc main_v2) = _
  after_results
  rfl

theorem wArr3_eq (c : Dev nD) : wArr3 m c = (m ((c : Thread nD τ).loc main_arg3) : S768x768.Idx → EReal) := by
  show StableHlo.after hostOps0 (fun b => m (c, b)) (Proc.devRef .tc main_v3) = _
  after_results
  rfl

theorem wArr4_eq (c : Dev nD) : wArr4 m c = (m ((c : Thread nD τ).loc main_arg4) : S768x768.Idx → EReal) := by
  show StableHlo.after hostOps0 (fun b => m (c, b)) (Proc.devRef .tc main_v4) = _
  after_results
  rfl

theorem bArr5_eq (c : Dev nD) : bArr5 m c = shapeCast S1x768 (m ((c : Thread nD τ).loc main_arg5) : S768.Idx → EReal) Gen.shapeCasts_S768_S1x768 := by
  show StableHlo.after hostOps0 (fun b => m (c, b)) (Proc.devRef .tc main_v5) = _
  after_results
  rfl

theorem bArr6_eq (c : Dev nD) : bArr6 m c = shapeCast S1x768 (m ((c : Thread nD τ).loc main_arg6) : S768.Idx → EReal) Gen.shapeCasts_S768_S1x768 := by
  show StableHlo.after hostOps0 (fun b => m (c, b)) (Proc.devRef .tc main_v6) = _
  after_results
  rfl

theorem bArr7_eq (c : Dev nD) : bArr7 m c = shapeCast S1x768 (m ((c : Thread nD τ).loc main_arg7) : S768.Idx → EReal) Gen.shapeCasts_S768_S1x768 := by
  show StableHlo.after hostOps0 (fun b => m (c, b)) (Proc.devRef .tc main_v7) = _
  after_results
  rfl

theorem bArr8_eq (c : Dev nD) : bArr8 m c = shapeCast S1x768 (m ((c : Thread nD τ).loc main_arg8) : S768.Idx → EReal) Gen.shapeCasts_S768_S1x768 := by
  show StableHlo.after hostOps0 (fun b => m (c, b)) (Proc.devRef .tc main_v8) = _
  after_results
  rfl

theorem bArr9_eq (c : Dev nD) : bArr9 m c = shapeCast S1x768 (m ((c : Thread nD τ).loc main_arg9) : S768.Idx → EReal) Gen.shapeCasts_S768_S1x768 := by
  show StableHlo.after hostOps0 (fun b => m (c, b)) (Proc.devRef .tc main_v9) = _
  after_results
  rfl

theorem bArr10_eq (c : Dev nD) : bArr10 m c = shapeCast S1x768 (m ((c : Thread nD τ).loc main_arg10) : S768.Idx → EReal) Gen.shapeCasts_S768_S1x768 := by
  show StableHlo.after hostOps0 (fun b => m (c, b)) (Proc.devRef .tc main_v10) = _
  after_results
  rfl

/-- The output array in terms of the launch memory's argument arrays. -/
theorem G_eq (c : Dev nD) : G m c = Attn.arrOf (fun xr => Attn.outK xr
      (m ((c : Thread nD τ).loc main_arg1) : S768x768.Idx → EReal) (m ((c : Thread nD τ).loc main_arg2) : S768x768.Idx → EReal)
      (m ((c : Thread nD τ).loc main_arg3) : S768x768.Idx → EReal) (m ((c : Thread nD τ).loc main_arg4) : S768x768.Idx → EReal)
      (shapeCast S1x768 (m ((c : Thread nD τ).loc main_arg5) : S768.Idx → EReal) Gen.shapeCasts_S768_S1x768)
      (shapeCast S1x768 (m ((c : Thread nD τ).loc main_arg6) : S768.Idx → EReal) Gen.shapeCasts_S768_S1x768)
      (shapeCast S1x768 (m ((c : Thread nD τ).loc main_arg7) : S768.Idx → EReal) Gen.shapeCasts_S768_S1x768)
      (shapeCast S1x768 (m ((c : Thread nD τ).loc main_arg8) : S768.Idx → EReal) Gen.shapeCasts_S768_S1x768)
      (shapeCast S1x768 (m ((c : Thread nD τ).loc main_arg9) : S768.Idx → EReal) Gen.shapeCasts_S768_S1x768)
      (shapeCast S1x768 (m ((c : Thread nD τ).loc main_arg10) : S768.Idx → EReal) Gen.shapeCasts_S768_S1x768))
    (shapeCast S8192x768 (m ((c : Thread nD τ).loc main_arg0) : S64x128x768.Idx → EReal) Gen.shapeCasts_S64x128x768_S8192x768) := by
  show Attn.arrOf (fun xr => Attn.outK xr (wArr1 m c) (wArr2 m c) (wArr3 m c) (wArr4 m c) (bArr5 m c) (bArr6 m c) (bArr7 m c)
    (bArr8 m c) (bArr9 m c) (bArr10 m c)) (xArr m c) = _
  rw [xArr_eq, wArr1_eq, wArr2_eq, wArr3_eq, wArr4_eq, bArr5_eq, bArr6_eq, bArr7_eq, bArr8_eq, bArr9_eq, bArr10_eq]

/-- The output array as the host operations after the region find it. -/
theorem v11_eq (c : Dev nD) :
    Pipeline.withArrays (cfgs 0).spec c (V0 m c) (fun w => (dats m 0 c).arrAt w (cfgs 0).N) (Proc.devRef .tc main_v11) = G m c :=
  (Pipeline.withArrays_arr spec0 launch0.win.arr_inj c _ _ 11).trans (final m c)

/-- The result buffer after the host operations after the region: the output array unflattened. -/
theorem tail_eq (c : Dev nD) :
    Pipeline.afterTail₀ cfgs (dats m) 0 (V0 m) [hostOps1] c main_v12
      = Attn.result Attn.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v12) = _
  after_results
  rw [v11_eq m c, G_eq m c]
  rfl

theorem kernel_run : θ_run (defs (F := Ideal)) (onTc (τ := τ) (main (F := Ideal))) ⟨m, fun _ => 0, ρ⟩ (fun r => ∀ c : Dev nD,
      r.2.mem ((c.tc : Thread nD τ).loc main_v12) = Attn.result Attn.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v12 (Pipeline.mem_restRefs_of main_v12 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.KV

end
-- ==== Proof.RBody.lean ====
/-
  Two of the reference's kernel bodies read at an entry: a projection (weights already transposed to (in, out)) and
  one head's attention with normalised weights.
-/
import proofs.«110644_g2000702396236789_pallasbulk_1056_3_alg».proof.Proof.Gen.ReferenceIdeal.Frame
import proofs.«110644_g2000702396236789_pallasbulk_1056_3_alg».proof.Proof.Spec
import Idealize.ShloMosaic.Lib.Pipeline.Value
import Idealize.ShloMosaic.Lib.ValueLayout
import Idealize.ShloMosaic.PureOps.Ideal.Laws

noncomputable section

open scoped BigOperators

namespace Cert.ReferenceIdeal.RV

open Idealize.ShloMosaic Idealize.ShloMosaic.ValueIdx Cert.ReferenceIdeal Cert.ReferenceIdeal.Facts₀

/-- A dense layer with (in, out) weights on one row of a block. -/
def linT {n : ℕ} (x : (⟨2, ![n, 768]⟩ : Shape).Idx → EReal) (wT : S768x768.Idx → EReal) (bias : S1x768.Idx → EReal) (r : Fin n) (o : Fin 768) : EReal :=
  (∑ i : Fin 768, x (ix2 r i) * wT (ix2 i o)) + bias (ix2 0 o)

/-- Both offsets of a whole-block rectangle are zero. -/
private theorem hz2 : (![0, 0] : Fin 2 → Nat) = fun _ => 0 := by funext a; fin_cases a <;> rfl

/-- The projection's left operand index at output (r, o) and contraction coordinate i is (r, i). -/
private theorem D0_lhs (r : Fin 512) (o : Fin 768) (i : Fin 768) :
    dot_S512x768_S768x768_S512x768_1_0_0_1_n_n.lhsIdx (ix2 r o) ((contrEquiv1 dot_S512x768_S768x768_S512x768_1_0_0_1_n_n 768 rfl rfl).symm i) = ix2 r i := by
  have c2 := contrEquiv1_symm_val dot_S512x768_S768x768_S512x768_1_0_0_1_n_n 768 rfl rfl i
  funext ax; apply Fin.ext
  match ax with
  | ⟨0, _⟩ => simp [DotDims.lhsIdx, dot_S512x768_S768x768_S512x768_1_0_0_1_n_n]; rfl
  | ⟨1, _⟩ => simp [DotDims.lhsIdx, dot_S512x768_S768x768_S512x768_1_0_0_1_n_n]; exact c2

/-- Its right operand index there is (i, o). -/
private theorem D0_rhs (r : Fin 512) (o : Fin 768) (i : Fin 768) :
    dot_S512x768_S768x768_S512x768_1_0_0_1_n_n.rhsIdx (ix2 r o) ((contrEquiv1 dot_S512x768_S768x768_S512x768_1_0_0_1_n_n 768 rfl rfl).symm i) = ix2 i o := by
  have c2 := contrEquiv1_symm_val dot_S512x768_S768x768_S512x768_1_0_0_1_n_n 768 rfl rfl i
  funext ax; apply Fin.ext
  match ax with
  | ⟨0, _⟩ => simp [DotDims.rhsIdx, dot_S512x768_S768x768_S512x768_1_0_0_1_n_n]; exact c2
  | ⟨1, _⟩ => simp [DotDims.rhsIdx, dot_S512x768_S768x768_S512x768_1_0_0_1_n_n]; rfl

/-- The projection's product into zero, read at an entry: row r of the block against column o of the weights. -/
private theorem mm0_apply (a : FVec Ideal S512x768 .f32) (w : FVec Ideal S768x768 .f32) (r : Fin 512) (o : Fin 768) :
    matmul dot_S512x768_S768x768_S512x768_1_0_0_1_n_n none a w (constant S512x768 .f32 0x00000000#32) (ix2 r o)
      = ∑ i : Fin 768, a (ix2 r i) * w (ix2 i o) := by
  show FloatOps.matmul _ none a w _ (ix2 r o) = _
  rw [Ideal.matmul_constant_zero_apply, ← Equiv.sum_comp (contrEquiv1 dot_S512x768_S768x768_S512x768_1_0_0_1_n_n 768 rfl rfl).symm]
  refine Finset.sum_congr rfl fun i _ => ?_
  rw [D0_lhs, D0_rhs]

theorem out0_7_apply (x0 : Vec Ideal S512x768 .f32) (x1 x2 x3 : Vec Ideal S768x768 .f32) (x4 x5 x6 : Vec Ideal S1x768 .f32) (r : Fin 512) (o : Fin 768) :
    Gen.out0_7 (F := Ideal) x0 x1 x2 x3 x4 x5 x6 (ix2 r o) = linT x0 x1 x4 r o := by
  unfold Gen.out0_7
  rw [View.canon_unit_zero hz2]
  simp only [View.ld_unit_zero (S := S512x768) hz2, View.ld_unit_zero (S := S768x768) hz2, View.ld_unit_zero (S := S1x768) hz2]
  unfold Gen.k0_pay2 Gen.k0_pay1
  simp only [shapeCast_self]
  rw [addf_apply, mm0_apply, broadcastTo_1b_ab_apply]
  rfl
theorem out0_8_apply (x0 : Vec Ideal S512x768 .f32) (x1 x2 x3 : Vec Ideal S768x768 .f32) (x4 x5 x6 : Vec Ideal S1x768 .f32) (r : Fin 512) (o : Fin 768) :
    Gen.out0_8 (F := Ideal) x0 x1 x2 x3 x4 x5 x6 (ix2 r o) = linT x0 x2 x5 r o := by
  unfold Gen.out0_8
  rw [View.canon_unit_zero hz2]
  simp only [View.ld_unit_zero (S := S512x768) hz2, View.ld_unit_zero (S := S768x768) hz2, View.ld_unit_zero (S := S1x768) hz2]
  unfold Gen.k0_pay3 Gen.k0_pay1
  simp only [shapeCast_self]
  rw [addf_apply, mm0_apply, broadcastTo_1b_ab_apply]
  rfl
theorem out0_9_apply (x0 : Vec Ideal S512x768 .f32) (x1 x2 x3 : Vec Ideal S768x768 .f32) (x4 x5 x6 : Vec Ideal S1x768 .f32) (r : Fin 512) (o : Fin 768) :
    Gen.out0_9 (F := Ideal) x0 x1 x2 x3 x4 x5 x6 (ix2 r o) = linT x0 x3 x6 r o := by
  unfold Gen.out0_9
  rw [View.canon_unit_zero hz2]
  simp only [View.ld_unit_zero (S := S512x768) hz2, View.ld_unit_zero (S := S768x768) hz2, View.ld_unit_zero (S := S1x768) hz2]
  unfold Gen.k0_pay4 Gen.k0_pay1
  simp only [shapeCast_self]
  rw [addf_apply, mm0_apply, broadcastTo_1b_ab_apply]
  rfl

/-- One head's scores from its q and k blocks, the scale on the product. -/
def scHead (x0 x1 : S1x128x64.Idx → EReal) (s j : Fin 128) : EReal :=
  (∑ e : Fin 64, x0 (ix3 0 s e) * x1 (ix3 0 j e)) * Attn.cs

/-- All three offsets of a whole-block rectangle are zero. -/
private theorem hz3 : (![0, 0, 0] : Fin 3 → Nat) = fun _ => 0 := by funext a; fin_cases a <;> rfl

/-- The scores' left operand index at output (s, j) and contraction coordinate e is (s, e). -/
private theorem D1_lhs (s j : Fin 128) (e : Fin 64) :
    dot_S128x64_S128x64_S128x128_1_1_0_0_n_n.lhsIdx (ix2 s j) ((contrEquiv1 dot_S128x64_S128x64_S128x128_1_1_0_0_n_n 64 rfl rfl).symm e) = ix2 s e := by
  have c2 := contrEquiv1_symm_val dot_S128x64_S128x64_S128x128_1_1_0_0_n_n 64 rfl rfl e
  funext ax; apply Fin.ext
  match ax with
  | ⟨0, _⟩ => simp [DotDims.lhsIdx, dot_S128x64_S128x64_S128x128_1_1_0_0_n_n]; rfl
  | ⟨1, _⟩ => simp [DotDims.lhsIdx, dot_S128x64_S128x64_S128x128_1_1_0_0_n_n]; exact c2

/-- Their right operand index there is (j, e): both operands are contracted on their feature axis. -/
private theorem D1_rhs (s j : Fin 128) (e : Fin 64) :
    dot_S128x64_S128x64_S128x128_1_1_0_0_n_n.rhsIdx (ix2 s j) ((contrEquiv1 dot_S128x64_S128x64_S128x128_1_1_0_0_n_n 64 rfl rfl).symm e) = ix2 j e := by
  have c2 := contrEquiv1_symm_val dot_S128x64_S128x64_S128x128_1_1_0_0_n_n 64 rfl rfl e
  funext ax; apply Fin.ext
  match ax with
  | ⟨0, _⟩ => simp [DotDims.rhsIdx, dot_S128x64_S128x64_S128x128_1_1_0_0_n_n]; rfl
  | ⟨1, _⟩ => simp [DotDims.rhsIdx, dot_S128x64_S128x64_S128x128_1_1_0_0_n_n]; exact c2

/-- The context's left operand index at output (s, d) and contraction coordinate j is (s, j). -/
private theorem D2_lhs (s : Fin 128) (d : Fin 64) (j : Fin 128) :
    dot_S128x128_S128x64_S128x64_1_0_0_1_n_n.lhsIdx (ix2 s d) ((contrEquiv1 dot_S128x128_S128x64_S128x64_1_0_0_1_n_n 128 rfl rfl).symm j) = ix2 s j := by
  have c2 := contrEquiv1_symm_val dot_S128x128_S128x64_S128x64_1_0_0_1_n_n 128 rfl rfl j
  funext ax; apply Fin.ext
  match ax with
  | ⟨0, _⟩ => simp [DotDims.lhsIdx, dot_S128x128_S128x64_S128x64_1_0_0_1_n_n]; rfl
  | ⟨1, _⟩ => simp [DotDims.lhsIdx, dot_S128x128_S128x64_S128x64_1_0_0_1_n_n]; exact c2

/-- Its right operand index there is (j, d). -/
private theorem D2_rhs (s : Fin 128) (d : Fin 64) (j : Fin 128) :
    dot_S128x128_S128x64_S128x64_1_0_0_1_n_n.rhsIdx (ix2 s d) ((contrEquiv1 dot_S128x128_S128x64_S128x64_1_0_0_1_n_n 128 rfl rfl).symm j) = ix2 j d := by
  have c2 := contrEquiv1_symm_val dot_S128x128_S128x64_S128x64_1_0_0_1_n_n 128 rfl rfl j
  funext ax; apply Fin.ext
  match ax with
  | ⟨0, _⟩ => simp [DotDims.rhsIdx, dot_S128x128_S128x64_S128x64_1_0_0_1_n_n]; exact c2
  | ⟨1, _⟩ => simp [DotDims.rhsIdx, dot_S128x128_S128x64_S128x64_1_0_0_1_n_n]; rfl

/-- The scores' product into zero at an entry: row s of q against row j of k. -/
private theorem mm1_apply (a b : FVec Ideal S128x64 .f32) (s j : Fin 128) :
    matmul dot_S128x64_S128x64_S128x128_1_1_0_0_n_n none a b (constant S128x128 .f32 0x00000000#32) (ix2 s j)
      = ∑ e : Fin 64, a (ix2 s e) * b (ix2 j e) := by
  show FloatOps.matmul _ none a b _ (ix2 s j) = _
  rw [Ideal.matmul_constant_zero_apply, ← Equiv.sum_comp (contrEquiv1 dot_S128x64_S128x64_S128x128_1_1_0_0_n_n 64 rfl rfl).symm]
  refine Finset.sum_congr rfl fun e _ => ?_
  rw [D1_lhs, D1_rhs]

/-- The context's product into zero at an entry: row s of the weights against column d of v. -/
private theorem mm2_apply (p : FVec Ideal S128x128 .f32) (v : FVec Ideal S128x64 .f32) (s : Fin 128) (d : Fin 64) :
    matmul dot_S128x128_S128x64_S128x64_1_0_0_1_n_n none p v (constant S128x64 .f32 0x00000000#32) (ix2 s d)
      = ∑ j : Fin 128, p (ix2 s j) * v (ix2 j d) := by
  show FloatOps.matmul _ none p v _ (ix2 s d) = _
  rw [Ideal.matmul_constant_zero_apply, ← Equiv.sum_comp (contrEquiv1 dot_S128x128_S128x64_S128x64_1_0_0_1_n_n 128 rfl rfl).symm]
  refine Finset.sum_congr rfl fun j _ => ?_
  rw [D2_lhs, D2_rhs]

/-- The index over row s with column j put back. -/
private theorem lift_ix (h : S128x128.Reduces [1] S128) (s j : Fin 128) : h.lift (ix1 s) j = ix2 s j := by
  funext c; apply Fin.ext
  match c with
  | ⟨0, _⟩ => rfl
  | ⟨1, _⟩ => rfl

/-- A row reduction's result kept as a column and broadcast back over the row. -/
private theorem col_apply (v : FVec Ideal S128 .f32) (h1 : S128.ShapeCasts S128x1) (h2 : S128x1.Broadcasts S128x128) (s j : Fin 128) :
    broadcastTo S128x128 (shapeCast S128x1 v h1) h2 (ix2 s j) = v (ix1 s) := by
  refine (broadcastTo_apply _ h2 (ix2 s j) (ix2 s (0 : Fin 1)) fun ax => ?_).trans ?_
  · match ax with
    | ⟨0, _⟩ => rfl
    | ⟨1, _⟩ => rfl
  · exact shapeCast_apply v h1 _ _ (by
      rw [Shape.rowMajor_val_one, Shape.rowMajor_val_two]
      show s.val = s.val * 1 + 0
      omega)

/-- The row maximum from −∞. -/
private theorem rowmax_apply (v : FVec Ideal S128x128 .f32) (h : S128x128.Reduces [1] S128) (hφ : FKind.Formats .f32)
    (hacc : (0xFF800000#32 : BitVec 32) = FKind.maximumf.neutral .f32 hφ) (s : Fin 128) :
    multiReduction .maximumf [1] S128 v 0xFF800000#32 h hφ hacc (ix1 s) = Attn.rowmax fun j => v (ix2 s j) := by
  rw [Ideal.multiReduction_maximumf_single]
  have e : (v ∘ h.lift (ix1 s)) = fun j : Fin 128 => v (ix2 s j) := funext fun j => congrArg v (lift_ix h s j)
  rw [e]
  rfl

/-- The row sum. -/
private theorem rowsum_apply (v : FVec Ideal S128x128 .f32) (h : S128x128.Reduces [1] S128) (hφ : FKind.Formats .f32)
    (hacc : (0x00000000#32 : BitVec 32) = FKind.add.neutral .f32 hφ) (s : Fin 128) :
    multiReduction .add [1] S128 v 0x00000000#32 h hφ hacc (ix1 s) = ∑ l : Fin 128, v (ix2 s l) := by
  rw [Ideal.multiReduction_add_single]
  exact Finset.sum_congr rfl fun l _ => congrArg v (lift_ix h s l)

/-- The scaled scores at an entry. -/
private theorem sc_apply (x0 x1 : FVec Ideal S1x128x64 .f32) (h : S1x128x64.ShapeCasts S128x64) (s j : Fin 128) :
    mulf (F := Ideal) (matmul dot_S128x64_S128x64_S128x128_1_1_0_0_n_n none (shapeCast S128x64 x0 h) (shapeCast S128x64 x1 h) (constant S128x128 .f32 0x00000000#32))
      (broadcast S128x128 (Scalar.ofBits .f32 0x3E000000#32)) (ix2 s j) = scHead x0 x1 s j := by
  rw [mulf_apply, mm1_apply, broadcast_apply]
  unfold scHead
  simp only [shapeCast_1ab_ab_apply]
  rfl

/-- The unnormalised weights of a score array at an entry. -/
private theorem p_apply (sc : FVec Ideal S128x128 .f32) (hr : S128x128.Reduces [1] S128) (hφ : FKind.Formats .f32)
    (hacc : (0xFF800000#32 : BitVec 32) = FKind.maximumf.neutral .f32 hφ)
    (h1 : S128.ShapeCasts S128x1) (h2 : S128x1.Broadcasts S128x128) (s j : Fin 128) :
    exp (subf sc (broadcastTo S128x128 (shapeCast S128x1 (multiReduction .maximumf [1] S128 sc 0xFF800000#32 hr hφ hacc) h1) h2)) (ix2 s j)
      = Attn.pOf (fun l => sc (ix2 s l)) j := by
  show FloatOps.exp (subf sc _ (ix2 s j)) = _
  rw [subf_apply, col_apply, rowmax_apply]
  rfl

/-- The normalised weights at an entry. -/
private theorem w_apply (p : FVec Ideal S128x128 .f32) (hr : S128x128.Reduces [1] S128) (hφ : FKind.Formats .f32)
    (hacc : (0x00000000#32 : BitVec 32) = FKind.add.neutral .f32 hφ)
    (h1 : S128.ShapeCasts S128x1) (h2 : S128x1.Broadcasts S128x128) (s j : Fin 128) :
    divf p (broadcastTo S128x128 (shapeCast S128x1 (multiReduction .add [1] S128 p 0x00000000#32 hr hφ hacc) h1) h2) (ix2 s j)
      = Ideal.div (p (ix2 s j)) (∑ l : Fin 128, p (ix2 s l)) := by
  rw [divf_apply, col_apply, rowsum_apply]

/-- A quotient by the row's sum depends on the row only. -/
private theorem div_sum_congr {p : S128x128.Idx → EReal} {q : Fin 128 → EReal} (s j : Fin 128) (h : ∀ l, p (ix2 s l) = q l) :
    Ideal.div (p (ix2 s j)) (∑ l : Fin 128, p (ix2 s l)) = Ideal.div (q j) (∑ l : Fin 128, q l) := by
  rw [h j]
  exact congrArg _ (Finset.sum_congr rfl fun l _ => h l)

theorem out1_3_apply (x0 x1 x2 : Vec Ideal S1x128x64 .f32) (s : Fin 128) (d : Fin 64) :
    Gen.out1_3 (F := Ideal) x0 x1 x2 (ix3 0 s d)
      = ∑ j : Fin 128, Ideal.div (Attn.pOf (scHead x0 x1 s) j) (∑ l : Fin 128, Attn.pOf (scHead x0 x1 s) l) * x2 (ix3 0 j d) := by
  unfold Gen.out1_3
  rw [View.canon_unit_zero hz3]
  simp only [View.ld_unit_zero (S := S1x128x64) hz3]
  unfold Gen.k1_pay1
  refine (shapeCast_ab_1ab_apply _ _ 0 s d).trans ?_
  refine (mm2_apply _ _ s d).trans ?_
  refine Finset.sum_congr rfl fun j _ => ?_
  refine congrArg₂ (· * ·) ?_ (shapeCast_1ab_ab_apply _ _ j d)
  refine (w_apply _ _ _ _ _ _ s j).trans ?_
  refine div_sum_congr s j fun l => ?_
  refine (p_apply _ _ _ _ _ _ s l).trans ?_
  exact congrArg (fun f => Attn.pOf f l) (funext fun l' => sc_apply x0 x1 _ s l')

end Cert.ReferenceIdeal.RV

end
-- ==== Proof.RBody2.lean ====
/-
  The reference's third kernel body read at an entry: the output layer (weights already transposed to (in, out)) on a
  context row, plus its bias, plus the residual row, then layer normalisation over the 768 features.
-/
import proofs.«110644_g2000702396236789_pallasbulk_1056_3_alg».proof.Proof.Gen.ReferenceIdeal.Frame
import proofs.«110644_g2000702396236789_pallasbulk_1056_3_alg».proof.Proof.Spec
import Idealize.ShloMosaic.Lib.Pipeline.Value
import Idealize.ShloMosaic.Lib.ValueLayout
import Idealize.ShloMosaic.PureOps.Ideal.Laws

noncomputable section

open scoped BigOperators

namespace Cert.ReferenceIdeal.RV

open Idealize.ShloMosaic Idealize.ShloMosaic.ValueIdx Cert.ReferenceIdeal Cert.ReferenceIdeal.Facts₀

private theorem hz : (![0, 0] : Fin 2 → Nat) = fun _ => 0 := by funext a; fin_cases a <;> rfl

/-! ## The layout operations the body uses, read at an entry -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 768 features of row `r`. -/
private theorem rowsum_apply (v : FVec Ideal S512x768 .f32) (r : Fin 512) :
    multiReduction (F := Ideal) .add [1] S512 v 0x00000000#32 reduces_S512x768_S512 (.inl rfl) rfl (ix1 r)
      = ∑ k : Fin 768, v (ix2 r k) := by
  refine (Ideal.multiReduction_add_single v _ reduces_S512x768_S512 (.inl rfl) rfl (ix1 r)).trans ?_
  refine Finset.sum_congr rfl fun k _ => congrArg v ?_
  funext a; apply Fin.ext
  match a with
  | ⟨0, _⟩ => rfl
  | ⟨1, _⟩ => rfl

/-! ## The product's operand indices, axis by axis -/

private theorem dotL0 (j : S512x768.Idx) (k : dot_S512x768_S768x768_S512x768_1_0_0_1_n_n.contr.Idx) :
    (dot_S512x768_S768x768_S512x768_1_0_0_1_n_n.lhsIdx j k 0).val = (j 0).val := by
  simp [DotDims.lhsIdx, dot_S512x768_S768x768_S512x768_1_0_0_1_n_n]; rfl

private theorem dotL1 (j : S512x768.Idx) (k : dot_S512x768_S768x768_S512x768_1_0_0_1_n_n.contr.Idx) :
    (dot_S512x768_S768x768_S512x768_1_0_0_1_n_n.lhsIdx j k 1).val = (k ⟨0, by decide⟩).val :=
  DotDims.lhsIdx_val_of_single _ rfl j k

private theorem dotR0 (j : S512x768.Idx) (k : dot_S512x768_S768x768_S512x768_1_0_0_1_n_n.contr.Idx) :
    (dot_S512x768_S768x768_S512x768_1_0_0_1_n_n.rhsIdx j k 0).val = (k ⟨0, by decide⟩).val :=
  DotDims.rhsIdx_val_of_single _ rfl j k

private theorem dotR1 (j : S512x768.Idx) (k : dot_S512x768_S768x768_S512x768_1_0_0_1_n_n.contr.Idx) :
    (dot_S512x768_S768x768_S512x768_1_0_0_1_n_n.rhsIdx j k 1).val = (j 1).val := by
  simp [DotDims.rhsIdx, dot_S512x768_S768x768_S512x768_1_0_0_1_n_n]; rfl

/-- The block product against (in, out) weights into the zero accumulator, at an entry. -/
private theorem mm_apply (A : FVec Ideal S512x768 .f32) (B : FVec Ideal S768x768 .f32) (r : Fin 512) (c : Fin 768) :
    matmul dot_S512x768_S768x768_S512x768_1_0_0_1_n_n none A B (constant S512x768 .f32 0x00000000#32) (ix2 r c)
      = ∑ k : Fin 768, A (ix2 r k) * B (ix2 k c) := by
  show FloatOps.matmul _ none A B (constant S512x768 .f32 0x00000000#32) (ix2 r c) = _
  rw [Ideal.matmul_constant_zero_apply,
    ← Equiv.sum_comp (contrEquiv1 dot_S512x768_S768x768_S512x768_1_0_0_1_n_n 768 rfl rfl).symm]
  refine Finset.sum_congr rfl fun k _ => ?_
  have c2 := contrEquiv1_symm_val dot_S512x768_S768x768_S512x768_1_0_0_1_n_n 768 rfl rfl k
  have l2 : dot_S512x768_S768x768_S512x768_1_0_0_1_n_n.lhsIdx (ix2 r c) ((contrEquiv1 _ 768 rfl rfl).symm k) = ix2 r k := by
    funext ax; apply Fin.ext
    match ax with
    | ⟨0, _⟩ => exact dotL0 _ _
    | ⟨1, _⟩ => exact (dotL1 _ _).trans c2
  have r2 : dot_S512x768_S768x768_S512x768_1_0_0_1_n_n.rhsIdx (ix2 r c) ((contrEquiv1 _ 768 rfl rfl).symm k) = ix2 k c := by
    funext ax; apply Fin.ext
    match ax with
    | ⟨0, _⟩ => exact (dotR0 _ _).trans c2
    | ⟨1, _⟩ => exact dotR1 _ _
  rw [l2, r2]

/-! ## The body's stages -/

/-- The output layer on the context block, plus the bias row, plus the residual block. -/
private def hArr (x0 x1 : Vec Ideal S512x768 .f32) (x2 : Vec Ideal S768x768 .f32) (x3 : Vec Ideal S1x768 .f32) :
    FVec Ideal S512x768 .f32 :=
  addf (addf (matmul dot_S512x768_S768x768_S512x768_1_0_0_1_n_n none
        (shapeCast S512x768 x0 shapeCasts_S512x768_S512x768 : FVec Ideal S512x768 .f32)
        (shapeCast S768x768 x2 shapeCasts_S768x768_S768x768 : FVec Ideal S768x768 .f32) (constant S512x768 .f32 0x00000000#32))
      (broadcastTo S512x768 (shapeCast S1x768 x3 shapeCasts_S1x768_S1x768 : FVec Ideal S1x768 .f32) broadcasts_S1x768_S512x768))
    (shapeCast S512x768 x1 shapeCasts_S512x768_S512x768 : FVec Ideal S512x768 .f32)

private theorem hArr_apply (x0 x1 : Vec Ideal S512x768 .f32) (x2 : Vec Ideal S768x768 .f32) (x3 : Vec Ideal S1x768 .f32)
    (r : Fin 512) (c : Fin 768) :
    hArr x0 x1 x2 x3 (ix2 r c) = ((∑ j : Fin 768, x0 (ix2 r j) * x2 (ix2 j c)) + x3 (ix2 0 c)) + x1 (ix2 r c) := by
  unfold hArr
  rw [shapeCast_self, shapeCast_self, shapeCast_self, shapeCast_self, addf_apply, addf_apply, mm_apply]
  exact congrArg (fun t => (∑ j : Fin 768, x0 (ix2 r j) * x2 (ix2 j c)) + t + x1 (ix2 r c))
    (broadcastTo_1b_ab_apply x3 broadcasts_S1x768_S512x768 r c)

/-- The row sums of a block as a column, divided by the feature count. -/
private def meanCol (v : FVec Ideal S512x768 .f32) : FVec Ideal S512x1 .f32 :=
  divf (shapeCast S512x1 (multiReduction .add [1] S512 v 0x00000000#32 reduces_S512x768_S512 (.inl rfl) rfl) shapeCasts_S512_S512x1)
    (broadcast S512x1 (Scalar.ofBits .f32 0x44400000#32))

private theorem meanCol_apply (v : FVec Ideal S512x768 .f32) (r : Fin 512) (u : Fin 1) :
    meanCol v (ix2 r u) = Ideal.div (∑ k : Fin 768, v (ix2 r k)) Attn.n768 := by
  unfold meanCol
  rw [divf_apply, broadcast_apply]
  refine congrArg (fun t => Ideal.div t Attn.n768) ?_
  exact (shapeCast_a_a1_apply _ shapeCasts_S512_S512x1 r u).trans (rowsum_apply v r)

/-- A block less its rows' means. -/
private def centred (h : FVec Ideal S512x768 .f32) : FVec Ideal S512x768 .f32 :=
  subf h (broadcastTo S512x768 (meanCol h) broadcasts_S512x1_S512x768)

private theorem centred_apply (h : FVec Ideal S512x768 .f32) (r : Fin 512) (c : Fin 768) :
    centred h (ix2 r c) = h (ix2 r c) - Ideal.div (∑ k : Fin 768, h (ix2 r k)) Attn.n768 := by
  unfold centred
  rw [subf_apply]
  exact congrArg (fun t => h (ix2 r c) - t)
    ((broadcastTo_a1_ab_apply (meanCol h) broadcasts_S512x1_S512x768 r c).trans (meanCol_apply h r 0))

/-- The reciprocal root of the rows' variances plus ε, as a column. -/
private def rstdCol (h : FVec Ideal S512x768 .f32) : FVec Ideal S512x1 .f32 :=
  rsqrt (addf (meanCol (mulf (centred h) (centred h))) (broadcast S512x1 (Scalar.ofBits .f32 0x2B8CBCCC#32)))

private theorem rstdCol_apply (h : FVec Ideal S512x768 .f32) (r : Fin 512) (u : Fin 1) :
    rstdCol h (ix2 r u)
      = Ideal.rsqrt (Ideal.div (∑ k : Fin 768, (h (ix2 r k) - Ideal.div (∑ k' : Fin 768, h (ix2 r k')) Attn.n768)
          * (h (ix2 r k) - Ideal.div (∑ k' : Fin 768, h (ix2 r k')) Attn.n768)) Attn.n768 + Attn.eps) := by
  show Ideal.rsqrt (meanCol (mulf (centred h) (centred h)) (ix2 r u) + Attn.eps) = _
  rw [meanCol_apply]
  refine congrArg (fun t => Ideal.rsqrt (Ideal.div t Attn.n768 + Attn.eps)) ?_
  refine Finset.sum_congr rfl fun k _ => ?_
  rw [mulf_apply, centred_apply]

/-- The payload is the stages composed. -/
private theorem pay_eq (x0 x1 : Vec Ideal S512x768 .f32) (x2 : Vec Ideal S768x768 .f32) (x3 x4 x5 : Vec Ideal S1x768 .f32) :
    Gen.k2_pay1 x0 x2 x3 x1 x4 x5
      = addf (mulf (mulf (centred (hArr x0 x1 x2 x3)) (broadcastTo S512x768 (rstdCol (hArr x0 x1 x2 x3)) broadcasts_S512x1_S512x768))
          (broadcastTo S512x768 (shapeCast S1x768 x4 shapeCasts_S1x768_S1x768) broadcasts_S1x768_S512x768))
        (broadcastTo S512x768 (shapeCast S1x768 x5 shapeCasts_S1x768_S1x768) broadcasts_S1x768_S512x768) := rfl

theorem out2_6_apply (x0 x1 : Vec Ideal S512x768 .f32) (x2 : Vec Ideal S768x768 .f32) (x3 x4 x5 : Vec Ideal S1x768 .f32) (r : Fin 512) (c : Fin 768) :
    Gen.out2_6 (F := Ideal) x0 x1 x2 x3 x4 x5 (ix2 r c)
      = Attn.lnRow x4 x5 (fun c' => ((∑ j : Fin 768, x0 (ix2 r j) * x2 (ix2 j c')) + x3 (ix2 0 c')) + x1 (ix2 r c')) c := by
  unfold Gen.out2_6
  rw [View.canon_unit_zero hz]
  simp only [View.ld_unit_zero (S := S512x768) hz, View.ld_unit_zero (S := S768x768) hz, View.ld_unit_zero (S := S1x768) hz]
  rw [pay_eq, addf_apply, mulf_apply, mulf_apply, shapeCast_self, shapeCast_self,
    broadcastTo_1b_ab_apply x4, broadcastTo_1b_ab_apply x5, broadcastTo_a1_ab_apply, rstdCol_apply, centred_apply]
  unfold Attn.lnRow
  simp only [hArr_apply]

end Cert.ReferenceIdeal.RV

end
-- ==== Proof.RArr.lean ====
/-
  Each region's output arrays after the region, entry by entry, from the contents `V` the region is entered with:
  the 512-row blocks of regions 0 and 2 tile the 8192 rows, region 1's 768 blocks are one (batch, head) each.
-/
import proofs.«110644_g2000702396236789_pallasbulk_1056_3_alg».proof.Proof.Gen.ReferenceIdeal.Frame
import proofs.«110644_g2000702396236789_pallasbulk_1056_3_alg».proof.Proof.RBody
import proofs.«110644_g2000702396236789_pallasbulk_1056_3_alg».proof.Proof.RBody2
import Idealize.ShloMosaic.Lib.Pipeline.Value

noncomputable section

open scoped BigOperators

namespace Cert.ReferenceIdeal.RV

open Idealize.ShloMosaic Idealize.ShloMosaic.TcCoe Idealize.ShloMosaic.ValueIdx Idealize.SL.Sem Cert.ReferenceIdeal Cert.ReferenceIdeal.Facts₀ Cert.ReferenceIdeal.Gen

variable (V : (c : Dev nD) → (b : Ref sig .tc) → Buf (Elt Ideal) ((c : Thread nD τ).loc b))

/-- Region 0's block indices over its 16 points: the row-blocked windows sit at block (t, 0), the whole-array windows at (0, 0). -/
private theorem blockIndex0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row r of block t of an 8192-row array. -/
private def rowAt (t : Fin 16) (r : Fin 512) : Fin 8192 := ⟨512 * t.val + r.val, by omega⟩

/-- Window 0's block at point t is rows 512 t … 512 t + 511 of the activations. -/
private theorem inBlock0_0_rows (c : Dev nD) (t : Fin cfg0.N) (x : S512x768.Idx) (k : S8192x768.Idx)
    (hk0 : (k 0).val = 512 * t.val + (x 0).val) (hk1 : (k 1).val = (x 1).val) :
    (iblk0 (F := Ideal) V c 0 t : Vec Ideal S512x768 .f32) x = (V c main_v0 : S8192x768.Idx → EReal) k := by
  obtain ⟨⟨h0, h1⟩, -⟩ := blockIndex0 t
  unfold iblk0
  rw [View.read_apply]
  show V c main_v0 _ = V c main_v0 _
  congr 1
  funext a
  apply Fin.ext
  match a with
  | ⟨0, _⟩ => show win0_0.index t 0 * 512 + 1 * (x 0).val = (k 0).val; rw [h0, hk0]; omega
  | ⟨1, _⟩ => show win0_0.index t 1 * 768 + 1 * (x 1).val = (k 1).val; rw [h1, hk1]; omega

/-- Window 1's block is the whole first weight array. -/
private theorem inBlock0_1_whole (c : Dev nD) (t : Fin cfg0.N) :
    (iblk0 (F := Ideal) V c 1 t : Vec Ideal S768x768 .f32) = (V c main_v1 : S768x768.Idx → EReal) := by
  obtain ⟨-, ⟨h0, h1⟩, -⟩ := blockIndex0 t
  funext x
  unfold iblk0
  rw [View.read_apply]
  show V c main_v1 _ = V c main_v1 _
  congr 1
  funext a
  apply Fin.ext
  match a with
  | ⟨0, _⟩ => show win0_1.index t 0 * 768 + 1 * (x 0).val = (x 0).val; rw [h0]; omega
  | ⟨1, _⟩ => show win0_1.index t 1 * 768 + 1 * (x 1).val = (x 1).val; rw [h1]; omega

/-- Window 2's block is the whole second weight array. -/
private theorem inBlock0_2_whole (c : Dev nD) (t : Fin cfg0.N) :
    (iblk0 (F := Ideal) V c 2 t : Vec Ideal S768x768 .f32) = (V c main_v2 : S768x768.Idx → EReal) := by
  obtain ⟨-, -, ⟨h0, h1⟩, -⟩ := blockIndex0 t
  funext x
  unfold iblk0
  rw [View.read_apply]
  show V c main_v2 _ = V c main_v2 _
  congr 1
  funext a
  apply Fin.ext
  match a with
  | ⟨0, _⟩ => show win0_2.index t 0 * 768 + 1 * (x 0).val = (x 0).val; rw [h0]; omega
  | ⟨1, _⟩ => show win0_2.index t 1 * 768 + 1 * (x 1).val = (x 1).val; rw [h1]; omega

/-- Window 3's block is the whole third weight array. -/
private theorem inBlock0_3_whole (c : Dev nD) (t : Fin cfg0.N) :
    (iblk0 (F := Ideal) V c 3 t : Vec Ideal S768x768 .f32) = (V c main_v3 : S768x768.Idx → EReal) := by
  obtain ⟨-, -, -, ⟨h0, h1⟩, -⟩ := blockIndex0 t
  funext x
  unfold iblk0
  rw [View.read_apply]
  show V c main_v3 _ = V c main_v3 _
  congr 1
  funext a
  apply Fin.ext
  match a with
  | ⟨0, _⟩ => show win0_3.index t 0 * 768 + 1 * (x 0).val = (x 0).val; rw [h0]; omega
  | ⟨1, _⟩ => show win0_3.index t 1 * 768 + 1 * (x 1).val = (x 1).val; rw [h1]; omega

/-- Window 4's block is the whole first bias. -/
private theorem inBlock0_4_whole (c : Dev nD) (t : Fin cfg0.N) :
    (iblk0 (F := Ideal) V c 4 t : Vec Ideal S1x768 .f32) = (V c main_v5 : S1x768.Idx → EReal) := by
  obtain ⟨-, -, -, -, ⟨h0, h1⟩, -⟩ := blockIndex0 t
  funext x
  unfold iblk0
  rw [View.read_apply]
  show V c main_v5 _ = V c main_v5 _
  congr 1
  funext a
  apply Fin.ext
  match a with
  | ⟨0, _⟩ => show win0_4.index t 0 * 1 + 1 * (x 0).val = (x 0).val; rw [h0]; omega
  | ⟨1, _⟩ => show win0_4.index t 1 * 768 + 1 * (x 1).val = (x 1).val; rw [h1]; omega

/-- Window 5's block is the whole second bias. -/
private theorem inBlock0_5_whole (c : Dev nD) (t : Fin cfg0.N) :
    (iblk0 (F := Ideal) V c 5 t : Vec Ideal S1x768 .f32) = (V c main_v6 : S1x768.Idx → EReal) := by
  obtain ⟨-, -, -, -, -, ⟨h0, h1⟩, -⟩ := blockIndex0 t
  funext x
  unfold iblk0
  rw [View.read_apply]
  show V c main_v6 _ = V c main_v6 _
  congr 1
  funext a
  apply Fin.ext
  match a with
  | ⟨0, _⟩ => show win0_5.index t 0 * 1 + 1 * (x 0).val = (x 0).val; rw [h0]; omega
  | ⟨1, _⟩ => show win0_5.index t 1 * 768 + 1 * (x 1).val = (x 1).val; rw [h1]; omega

/-- Window 6's block is the whole third bias. -/
private theorem inBlock0_6_whole (c : Dev nD) (t : Fin cfg0.N) :
    (iblk0 (F := Ideal) V c 6 t : Vec Ideal S1x768 .f32) = (V c main_v7 : S1x768.Idx → EReal) := by
  obtain ⟨-, -, -, -, -, -, ⟨h0, h1⟩, -⟩ := blockIndex0 t
  funext x
  unfold iblk0
  rw [View.read_apply]
  show V c main_v7 _ = V c main_v7 _
  congr 1
  funext a
  apply Fin.ext
  match a with
  | ⟨0, _⟩ => show win0_6.index t 0 * 1 + 1 * (x 0).val = (x 0).val; rw [h0]; omega
  | ⟨1, _⟩ => show win0_6.index t 1 * 768 + 1 * (x 1).val = (x 1).val; rw [h1]; omega

/-- Region 0's activations at entry, typed. -/
private abbrev actArr0 (c : Dev nD) : S8192x768.Idx → EReal := V c main_v0

private abbrev w1T (c : Dev nD) : S768x768.Idx → EReal := V c main_v1
private abbrev b1A (c : Dev nD) : S1x768.Idx → EReal := V c main_v5

/-- The first projection of every row. -/
private def proj1 (c : Dev nD) : S8192x768.Idx → EReal := fun i => linT (actArr0 V c) (w1T V c) (b1A V c) (i 0) (i 1)

/-- Entry (r, o) of output window 7's block at point t is entry (512 t + r, o) of its array. -/
private theorem outBlock0_7_at (t : Fin cfg0.N) (r : Fin 512) (o : Fin 768) :
    (((cfg0.win 7).blk t).view.emb (ix2 r o : S512x768.Idx) : S8192x768.Idx) = ix2 (rowAt t r) o := by
  obtain ⟨-, -, -, -, -, -, -, ⟨h0, h1⟩, -⟩ := blockIndex0 t
  funext a
  apply Fin.ext
  match a with
  | ⟨0, _⟩ => show win0_7.index t 0 * 512 + 1 * r.val = 512 * t.val + r.val; rw [h0]; omega
  | ⟨1, _⟩ => show win0_7.index t 1 * 768 + 1 * o.val = o.val; rw [h1]; omega

/-- An entry is in point t's block of window 7 iff each coordinate is in the block's range on its axis. -/
private theorem memBlock0_7 (t : Fin cfg0.N) (i : S8192x768.Idx) :
    i ∈ ((cfg0.win 7).blk t).view.set ↔ ∀ a : Fin 2, win0_7.index t a * S512x768.size a ≤ (i a).val ∧ (i a).val < win0_7.index t a * S512x768.size a + S512x768.size a := by
  show i ∈ ((View.whole main_v11_0).slice (win0_7.rect t)).set ↔ _
  rw [View.set_slice_whole, Rect.mem_set_unit]
  exact Iff.rfl

/-- Row R is written by point R / 512: the sixteen blocks tile the 8192 rows. -/
private theorem covered0_7 (i : S8192x768.Idx) :
    ∃ t : Fin cfg0.N, (cfg0.win 7).flush t = true ∧ i ∈ ((cfg0.win 7).blk t).view.set := by
  have hi0 : (i 0).val < 8192 := (i 0).isLt
  have hi1 : (i 1).val < 768 := (i 1).isLt
  have ht : (i 0).val / 512 < 16 := by omega
  refine ⟨⟨(i 0).val / 512, ht⟩, flush0_7 _, ?_⟩
  rw [memBlock0_7]
  obtain ⟨-, -, -, -, -, -, -, ⟨h0, h1⟩, -⟩ := blockIndex0 ⟨(i 0).val / 512, ht⟩
  intro a
  match a with
  | ⟨0, _⟩ =>
    show win0_7.index ⟨(i 0).val / 512, ht⟩ 0 * 512 ≤ (i 0).val ∧ (i 0).val < win0_7.index ⟨(i 0).val / 512, ht⟩ 0 * 512 + 512
    rw [h0]; show (i 0).val / 512 * 512 ≤ (i 0).val ∧ (i 0).val < (i 0).val / 512 * 512 + 512; omega
  | ⟨1, _⟩ =>
    show win0_7.index ⟨(i 0).val / 512, ht⟩ 1 * 768 ≤ (i 1).val ∧ (i 1).val < win0_7.index ⟨(i 0).val / 512, ht⟩ 1 * 768 + 768
    rw [h1]; omega

/-- What point t writes back through window 7 is block t of that projection. -/
private theorem written0_7 (c : Dev nD) (t : Fin cfg0.N) :
    (dat0 (F := Ideal) V c).flushed 7 t = ((cfg0.win 7).blk t).view.read (Elt Ideal) (proj1 V c) := by
  show (cfg0.win 7).cut (grid0.coords t) ((dat0 (F := Ideal) V c).after 7 t) = _
  rw [after0_7]
  funext y
  obtain ⟨r, o, rfl⟩ : ∃ r o, y = ix2 r o := ⟨y 0, y 1, eq_ix2 y⟩
  rw [View.read_apply, outBlock0_7_at]
  refine (out0_7_apply _ _ _ _ _ _ _ r o).trans ?_
  rw [inBlock0_1_whole, inBlock0_4_whole]
  show linT _ _ _ r o = linT (actArr0 V c) (w1T V c) (b1A V c) (rowAt t r) o
  unfold linT
  congr 1
  refine Finset.sum_congr rfl fun i _ => ?_
  congr 1
  exact inBlock0_0_rows V c t _ _ rfl rfl

private abbrev w2T (c : Dev nD) : S768x768.Idx → EReal := V c main_v2
private abbrev b2A (c : Dev nD) : S1x768.Idx → EReal := V c main_v6

/-- The second projection of every row. -/
private def proj2 (c : Dev nD) : S8192x768.Idx → EReal := fun i => linT (actArr0 V c) (w2T V c) (b2A V c) (i 0) (i 1)

/-- Entry (r, o) of output window 8's block at point t is entry (512 t + r, o) of its array. -/
private theorem outBlock0_8_at (t : Fin cfg0.N) (r : Fin 512) (o : Fin 768) :
    (((cfg0.win 8).blk t).view.emb (ix2 r o : S512x768.Idx) : S8192x768.Idx) = ix2 (rowAt t r) o := by
  obtain ⟨-, -, -, -, -, -, -, -, ⟨h0, h1⟩, -⟩ := blockIndex0 t
  funext a
  apply Fin.ext
  match a with
  | ⟨0, _⟩ => show win0_8.index t 0 * 512 + 1 * r.val = 512 * t.val + r.val; rw [h0]; omega
  | ⟨1, _⟩ => show win0_8.index t 1 * 768 + 1 * o.val = o.val; rw [h1]; omega

/-- An entry is in point t's block of window 8 iff each coordinate is in the block's range on its axis. -/
private theorem memBlock0_8 (t : Fin cfg0.N) (i : S8192x768.Idx) :
    i ∈ ((cfg0.win 8).blk t).view.set ↔ ∀ a : Fin 2, win0_8.index t a * S512x768.size a ≤ (i a).val ∧ (i a).val < win0_8.index t a * S512x768.size a + S512x768.size a := by
  show i ∈ ((View.whole main_v11_1).slice (win0_8.rect t)).set ↔ _
  rw [View.set_slice_whole, Rect.mem_set_unit]
  exact Iff.rfl

/-- Row R is written by point R / 512: the sixteen blocks tile the 8192 rows. -/
private theorem covered0_8 (i : S8192x768.Idx) :
    ∃ t : Fin cfg0.N, (cfg0.win 8).flush t = true ∧ i ∈ ((cfg0.win 8).blk t).view.set := by
  have hi0 : (i 0).val < 8192 := (i 0).isLt
  have hi1 : (i 1).val < 768 := (i 1).isLt
  have ht : (i 0).val / 512 < 16 := by omega
  refine ⟨⟨(i 0).val / 512, ht⟩, flush0_8 _, ?_⟩
  rw [memBlock0_8]
  obtain ⟨-, -, -, -, -, -, -, -, ⟨h0, h1⟩, -⟩ := blockIndex0 ⟨(i 0).val / 512, ht⟩
  intro a
  match a with
  | ⟨0, _⟩ =>
    show win0_8.index ⟨(i 0).val / 512, ht⟩ 0 * 512 ≤ (i 0).val ∧ (i 0).val < win0_8.index ⟨(i 0).val / 512, ht⟩ 0 * 512 + 512
    rw [h0]; show (i 0).val / 512 * 512 ≤ (i 0).val ∧ (i 0).val < (i 0).val / 512 * 512 + 512; omega
  | ⟨1, _⟩ =>
    show win0_8.index ⟨(i 0).val / 512, ht⟩ 1 * 768 ≤ (i 1).val ∧ (i 1).val < win0_8.index ⟨(i 0).val / 512, ht⟩ 1 * 768 + 768
    rw [h1]; omega

/-- What point t writes back through window 8 is block t of that projection. -/
private theorem written0_8 (c : Dev nD) (t : Fin cfg0.N) :
    (dat0 (F := Ideal) V c).flushed 8 t = ((cfg0.win 8).blk t).view.read (Elt Ideal) (proj2 V c) := by
  show (cfg0.win 8).cut (grid0.coords t) ((dat0 (F := Ideal) V c).after 8 t) = _
  rw [after0_8]
  funext y
  obtain ⟨r, o, rfl⟩ : ∃ r o, y = ix2 r o := ⟨y 0, y 1, eq_ix2 y⟩
  rw [View.read_apply, outBlock0_8_at]
  refine (out0_8_apply _ _ _ _ _ _ _ r o).trans ?_
  rw [inBlock0_2_whole, inBlock0_5_whole]
  show linT _ _ _ r o = linT (actArr0 V c) (w2T V c) (b2A V c) (rowAt t r) o
  unfold linT
  congr 1
  refine Finset.sum_congr rfl fun i _ => ?_
  congr 1
  exact inBlock0_0_rows V c t _ _ rfl rfl

private abbrev w3T (c : Dev nD) : S768x768.Idx → EReal := V c main_v3
private abbrev b3A (c : Dev nD) : S1x768.Idx → EReal := V c main_v7

/-- The third projection of every row. -/
private def proj3 (c : Dev nD) : S8192x768.Idx → EReal := fun i => linT (actArr0 V c) (w3T V c) (b3A V c) (i 0) (i 1)

/-- Entry (r, o) of output window 9's block at point t is entry (512 t + r, o) of its array. -/
private theorem outBlock0_9_at (t : Fin cfg0.N) (r : Fin 512) (o : Fin 768) :
    (((cfg0.win 9).blk t).view.emb (ix2 r o : S512x768.Idx) : S8192x768.Idx) = ix2 (rowAt t r) o := by
  obtain ⟨-, -, -, -, -, -, -, -, -, ⟨h0, h1⟩⟩ := blockIndex0 t
  funext a
  apply Fin.ext
  match a with
  | ⟨0, _⟩ => show win0_9.index t 0 * 512 + 1 * r.val = 512 * t.val + r.val; rw [h0]; omega
  | ⟨1, _⟩ => show win0_9.index t 1 * 768 + 1 * o.val = o.val; rw [h1]; omega

/-- An entry is in point t's block of window 9 iff each coordinate is in the block's range on its axis. -/
private theorem memBlock0_9 (t : Fin cfg0.N) (i : S8192x768.Idx) :
    i ∈ ((cfg0.win 9).blk t).view.set ↔ ∀ a : Fin 2, win0_9.index t a * S512x768.size a ≤ (i a).val ∧ (i a).val < win0_9.index t a * S512x768.size a + S512x768.size a := by
  show i ∈ ((View.whole main_v11_2).slice (win0_9.rect t)).set ↔ _
  rw [View.set_slice_whole, Rect.mem_set_unit]
  exact Iff.rfl

/-- Row R is written by point R / 512: the sixteen blocks tile the 8192 rows. -/
private theorem covered0_9 (i : S8192x768.Idx) :
    ∃ t : Fin cfg0.N, (cfg0.win 9).flush t = true ∧ i ∈ ((cfg0.win 9).blk t).view.set := by
  have hi0 : (i 0).val < 8192 := (i 0).isLt
  have hi1 : (i 1).val < 768 := (i 1).isLt
  have ht : (i 0).val / 512 < 16 := by omega
  refine ⟨⟨(i 0).val / 512, ht⟩, flush0_9 _, ?_⟩
  rw [memBlock0_9]
  obtain ⟨-, -, -, -, -, -, -, -, -, ⟨h0, h1⟩⟩ := blockIndex0 ⟨(i 0).val / 512, ht⟩
  intro a
  match a with
  | ⟨0, _⟩ =>
    show win0_9.index ⟨(i 0).val / 512, ht⟩ 0 * 512 ≤ (i 0).val ∧ (i 0).val < win0_9.index ⟨(i 0).val / 512, ht⟩ 0 * 512 + 512
    rw [h0]; show (i 0).val / 512 * 512 ≤ (i 0).val ∧ (i 0).val < (i 0).val / 512 * 512 + 512; omega
  | ⟨1, _⟩ =>
    show win0_9.index ⟨(i 0).val / 512, ht⟩ 1 * 768 ≤ (i 1).val ∧ (i 1).val < win0_9.index ⟨(i 0).val / 512, ht⟩ 1 * 768 + 768
    rw [h1]; omega

/-- What point t writes back through window 9 is block t of that projection. -/
private theorem written0_9 (c : Dev nD) (t : Fin cfg0.N) :
    (dat0 (F := Ideal) V c).flushed 9 t = ((cfg0.win 9).blk t).view.read (Elt Ideal) (proj3 V c) := by
  show (cfg0.win 9).cut (grid0.coords t) ((dat0 (F := Ideal) V c).after 9 t) = _
  rw [after0_9]
  funext y
  obtain ⟨r, o, rfl⟩ : ∃ r o, y = ix2 r o := ⟨y 0, y 1, eq_ix2 y⟩
  rw [View.read_apply, outBlock0_9_at]
  refine (out0_9_apply _ _ _ _ _ _ _ r o).trans ?_
  rw [inBlock0_3_whole, inBlock0_6_whole]
  show linT _ _ _ r o = linT (actArr0 V c) (w3T V c) (b3A V c) (rowAt t r) o
  unfold linT
  congr 1
  refine Finset.sum_congr rfl fun i _ => ?_
  congr 1
  exact inBlock0_0_rows V c t _ _ rfl rfl

theorem arr0_7 (c : Dev nD) (R : Fin 8192) (o : Fin 768) :
    (dat0 (F := Ideal) V c).arrAt 7 cfg0.N (ix2 R o) = linT (V c main_v0) (V c main_v1) (V c main_v5) R o := by
  have h := (dat0 (F := Ideal) V c).arrAt_eq_of_cover 7 (proj1 V c) (fun t _ => written0_7 V c t) covered0_7
  exact congrFun h (ix2 R o)
theorem arr0_8 (c : Dev nD) (R : Fin 8192) (o : Fin 768) :
    (dat0 (F := Ideal) V c).arrAt 8 cfg0.N (ix2 R o) = linT (V c main_v0) (V c main_v2) (V c main_v6) R o := by
  have h := (dat0 (F := Ideal) V c).arrAt_eq_of_cover 8 (proj2 V c) (fun t _ => written0_8 V c t) covered0_8
  exact congrFun h (ix2 R o)
theorem arr0_9 (c : Dev nD) (R : Fin 8192) (o : Fin 768) :
    (dat0 (F := Ideal) V c).arrAt 9 cfg0.N (ix2 R o) = linT (V c main_v0) (V c main_v3) (V c main_v7) R o := by
  have h := (dat0 (F := Ideal) V c).arrAt_eq_of_cover 9 (proj3 V c) (fun t _ => written0_9 V c t) covered0_9
  exact congrFun h (ix2 R o)

/-- Block i of a (768, 128, 64) array as a (1, 128, 64) array. -/
def blk3 (x : S768x128x64.Idx → EReal) (i : Fin 768) : S1x128x64.Idx → EReal := fun y => x (ix3 i (y 1) (y 2))

/-- Region 1's block indices over its 768 points: every window sits at block (t, 0, 0). -/
private theorem blockIndex1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The head a point of region 1 works on: point t is head t. -/
private def headAt (t : Fin cfg1.N) : Fin 768 := ⟨t.val, t.isLt⟩

/-- Window 0's block at point t is head t of the queries. -/
private theorem inBlock1_0_head (c : Dev nD) (t : Fin cfg1.N) :
    (iblk1 (F := Ideal) V c 0 t : Vec Ideal S1x128x64 .f32) = blk3 (V c main_v14) (headAt t) := by
  obtain ⟨⟨h0, h1, h2⟩, -⟩ := blockIndex1 t
  funext x
  unfold iblk1 blk3
  rw [View.read_apply]
  show V c main_v14 _ = V c main_v14 _
  congr 1
  funext a
  apply Fin.ext
  have hx : (x 0).val < 1 := (x 0).isLt
  match a with
  | ⟨0, _⟩ => show win1_0.index t 0 * 1 + 1 * (x 0).val = t.val; rw [h0]; omega
  | ⟨1, _⟩ => show win1_0.index t 1 * 128 + 1 * (x 1).val = (x 1).val; rw [h1]; omega
  | ⟨2, _⟩ => show win1_0.index t 2 * 64 + 1 * (x 2).val = (x 2).val; rw [h2]; omega

/-- Window 1's block at point t is head t of the keys. -/
private theorem inBlock1_1_head (c : Dev nD) (t : Fin cfg1.N) :
    (iblk1 (F := Ideal) V c 1 t : Vec Ideal S1x128x64 .f32) = blk3 (V c main_v17) (headAt t) := by
  obtain ⟨-, ⟨h0, h1, h2⟩, -⟩ := blockIndex1 t
  funext x
  unfold iblk1 blk3
  rw [View.read_apply]
  show V c main_v17 _ = V c main_v17 _
  congr 1
  funext a
  apply Fin.ext
  have hx : (x 0).val < 1 := (x 0).isLt
  match a with
  | ⟨0, _⟩ => show win1_1.index t 0 * 1 + 1 * (x 0).val = t.val; rw [h0]; omega
  | ⟨1, _⟩ => show win1_1.index t 1 * 128 + 1 * (x 1).val = (x 1).val; rw [h1]; omega
  | ⟨2, _⟩ => show win1_1.index t 2 * 64 + 1 * (x 2).val = (x 2).val; rw [h2]; omega

/-- Window 2's block at point t is head t of the values. -/
private theorem inBlock1_2_head (c : Dev nD) (t : Fin cfg1.N) :
    (iblk1 (F := Ideal) V c 2 t : Vec Ideal S1x128x64 .f32) = blk3 (V c main_v20) (headAt t) := by
  obtain ⟨-, -, ⟨h0, h1, h2⟩, -⟩ := blockIndex1 t
  funext x
  unfold iblk1 blk3
  rw [View.read_apply]
  show V c main_v20 _ = V c main_v20 _
  congr 1
  funext a
  apply Fin.ext
  have hx : (x 0).val < 1 := (x 0).isLt
  match a with
  | ⟨0, _⟩ => show win1_2.index t 0 * 1 + 1 * (x 0).val = t.val; rw [h0]; omega
  | ⟨1, _⟩ => show win1_2.index t 1 * 128 + 1 * (x 1).val = (x 1).val; rw [h1]; omega
  | ⟨2, _⟩ => show win1_2.index t 2 * 64 + 1 * (x 2).val = (x 2).val; rw [h2]; omega

/-- Region 1's values at entry, typed. -/
private abbrev valArr1 (c : Dev nD) : S768x128x64.Idx → EReal := V c main_v20

/-- Every head's attention: the normalised weights of a query row against the keys, applied to the values. -/
private def attended (c : Dev nD) : S768x128x64.Idx → EReal := fun i =>
  ∑ j : Fin 128, Ideal.div (Attn.pOf (scHead (blk3 (V c main_v14) (i 0)) (blk3 (V c main_v17) (i 0)) (i 1)) j)
      (∑ l : Fin 128, Attn.pOf (scHead (blk3 (V c main_v14) (i 0)) (blk3 (V c main_v17) (i 0)) (i 1)) l) * valArr1 V c (ix3 (i 0) j (i 2))

/-- Entry (0, s, d) of the output window's block at point t is entry (t, s, d) of its array. -/
private theorem outBlock1_3_at (t : Fin cfg1.N) (s : Fin 128) (d : Fin 64) :
    (((cfg1.win 3).blk t).view.emb (ix3 0 s d : S1x128x64.Idx) : S768x128x64.Idx) = ix3 (headAt t) s d := by
  obtain ⟨-, -, -, ⟨h0, h1, h2⟩⟩ := blockIndex1 t
  funext a
  apply Fin.ext
  match a with
  | ⟨0, _⟩ => show win1_3.index t 0 * 1 + 1 * 0 = t.val; rw [h0]; omega
  | ⟨1, _⟩ => show win1_3.index t 1 * 128 + 1 * s.val = s.val; rw [h1]; omega
  | ⟨2, _⟩ => show win1_3.index t 2 * 64 + 1 * d.val = d.val; rw [h2]; omega

/-- An entry is in point t's block of window 3 iff each coordinate is in the block's range on its axis. -/
private theorem memBlock1_3 (t : Fin cfg1.N) (i : S768x128x64.Idx) :
    i ∈ ((cfg1.win 3).blk t).view.set ↔ ∀ a : Fin 3, win1_3.index t a * S1x128x64.size a ≤ (i a).val ∧ (i a).val < win1_3.index t a * S1x128x64.size a + S1x128x64.size a := by
  show i ∈ ((View.whole main_v21).slice (win1_3.rect t)).set ↔ _
  rw [View.set_slice_whole, Rect.mem_set_unit]
  exact Iff.rfl

/-- Head i is written by point i: the 768 blocks are the 768 heads. -/
private theorem covered1_3 (i : S768x128x64.Idx) :
    ∃ t : Fin cfg1.N, (cfg1.win 3).flush t = true ∧ i ∈ ((cfg1.win 3).blk t).view.set := by
  have hi0 : (i 0).val < 768 := (i 0).isLt
  have hi1 : (i 1).val < 128 := (i 1).isLt
  have hi2 : (i 2).val < 64 := (i 2).isLt
  refine ⟨⟨(i 0).val, hi0⟩, flush1_3 _, ?_⟩
  rw [memBlock1_3]
  obtain ⟨-, -, -, ⟨h0, h1, h2⟩⟩ := blockIndex1 ⟨(i 0).val, hi0⟩
  intro a
  match a with
  | ⟨0, _⟩ =>
    show win1_3.index ⟨(i 0).val, hi0⟩ 0 * 1 ≤ (i 0).val ∧ (i 0).val < win1_3.index ⟨(i 0).val, hi0⟩ 0 * 1 + 1
    rw [h0]; show (i 0).val * 1 ≤ (i 0).val ∧ (i 0).val < (i 0).val * 1 + 1; omega
  | ⟨1, _⟩ =>
    show win1_3.index ⟨(i 0).val, hi0⟩ 1 * 128 ≤ (i 1).val ∧ (i 1).val < win1_3.index ⟨(i 0).val, hi0⟩ 1 * 128 + 128
    rw [h1]; omega
  | ⟨2, _⟩ =>
    show win1_3.index ⟨(i 0).val, hi0⟩ 2 * 64 ≤ (i 2).val ∧ (i 2).val < win1_3.index ⟨(i 0).val, hi0⟩ 2 * 64 + 64
    rw [h2]; omega

/-- What point t writes back through window 3 is head t of the attention. -/
private theorem written1_3 (c : Dev nD) (t : Fin cfg1.N) :
    (dat1 (F := Ideal) V c).flushed 3 t = ((cfg1.win 3).blk t).view.read (Elt Ideal) (attended V c) := by
  show (cfg1.win 3).cut (grid1.coords t) ((dat1 (F := Ideal) V c).after 3 t) = _
  rw [after1_3]
  funext y
  obtain ⟨z, s, d, rfl⟩ : ∃ z s d, y = ix3 z s d := ⟨y 0, y 1, y 2, eq_ix3 y⟩
  obtain rfl : z = 0 := Fin.ext (by have hz : z.val < 1 := z.isLt; show z.val = 0; omega)
  rw [View.read_apply, outBlock1_3_at]
  refine (out1_3_apply _ _ _ s d).trans ?_
  rw [inBlock1_0_head, inBlock1_1_head, inBlock1_2_head]
  rfl

theorem arr1_3 (c : Dev nD) (i : Fin 768) (s : Fin 128) (d : Fin 64) :
    (dat1 (F := Ideal) V c).arrAt 3 cfg1.N (ix3 i s d)
      = ∑ j : Fin 128, Ideal.div (Attn.pOf (scHead (blk3 (V c main_v14) i) (blk3 (V c main_v17) i) s) j)
            (∑ l : Fin 128, Attn.pOf (scHead (blk3 (V c main_v14) i) (blk3 (V c main_v17) i) s) l) * V c main_v20 (ix3 i j d) := by
  have h := (dat1 (F := Ideal) V c).arrAt_eq_of_cover 3 (attended V c) (fun t _ => written1_3 V c t) covered1_3
  exact congrFun h (ix3 i s d)

/-- Region 2's arrays at entry, typed: the merged context, the flattened activations, the transposed output weights,
    the output bias, γ and β. -/
abbrev ctxArr (c : Dev nD) : S8192x768.Idx → EReal := V c main_v24
abbrev xArr (c : Dev nD) : S8192x768.Idx → EReal := V c main_v0
abbrev woTArr (c : Dev nD) : S768x768.Idx → EReal := V c main_v4
abbrev boArr (c : Dev nD) : S1x768.Idx → EReal := V c main_v8
abbrev gArr (c : Dev nD) : S1x768.Idx → EReal := V c main_v9
abbrev beArr (c : Dev nD) : S1x768.Idx → EReal := V c main_v10

/-- Region 2's block indices over its 16 points: the row-blocked windows sit at block (t, 0), the whole-array windows at (0, 0). -/
private theorem blockIndex2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Window 0's block at point t is rows 512 t … 512 t + 511 of the merged context. -/
private theorem inBlock2_0_rows (c : Dev nD) (t : Fin cfg2.N) (x : S512x768.Idx) (k : S8192x768.Idx)
    (hk0 : (k 0).val = 512 * t.val + (x 0).val) (hk1 : (k 1).val = (x 1).val) :
    (iblk2 (F := Ideal) V c 0 t : Vec Ideal S512x768 .f32) x = (V c main_v24 : S8192x768.Idx → EReal) k := by
  obtain ⟨⟨h0, h1⟩, -⟩ := blockIndex2 t
  unfold iblk2
  rw [View.read_apply]
  show V c main_v24 _ = V c main_v24 _
  congr 1
  funext a
  apply Fin.ext
  match a with
  | ⟨0, _⟩ => show win2_0.index t 0 * 512 + 1 * (x 0).val = (k 0).val; rw [h0, hk0]; omega
  | ⟨1, _⟩ => show win2_0.index t 1 * 768 + 1 * (x 1).val = (k 1).val; rw [h1, hk1]; omega

/-- Window 1's block at point t is rows 512 t … 512 t + 511 of the activations. -/
private theorem inBlock2_1_rows (c : Dev nD) (t : Fin cfg2.N) (x : S512x768.Idx) (k : S8192x768.Idx)
    (hk0 : (k 0).val = 512 * t.val + (x 0).val) (hk1 : (k 1).val = (x 1).val) :
    (iblk2 (F := Ideal) V c 1 t : Vec Ideal S512x768 .f32) x = (V c main_v0 : S8192x768.Idx → EReal) k := by
  obtain ⟨-, ⟨h0, h1⟩, -⟩ := blockIndex2 t
  unfold iblk2
  rw [View.read_apply]
  show V c main_v0 _ = V c main_v0 _
  congr 1
  funext a
  apply Fin.ext
  match a with
  | ⟨0, _⟩ => show win2_1.index t 0 * 512 + 1 * (x 0).val = (k 0).val; rw [h0, hk0]; omega
  | ⟨1, _⟩ => show win2_1.index t 1 * 768 + 1 * (x 1).val = (k 1).val; rw [h1, hk1]; omega

/-- Window 2's block is the whole output weight array. -/
private theorem inBlock2_2_whole (c : Dev nD) (t : Fin cfg2.N) :
    (iblk2 (F := Ideal) V c 2 t : Vec Ideal S768x768 .f32) = (V c main_v4 : S768x768.Idx → EReal) := by
  obtain ⟨-, -, ⟨h0, h1⟩, -⟩ := blockIndex2 t
  funext x
  unfold iblk2
  rw [View.read_apply]
  show V c main_v4 _ = V c main_v4 _
  congr 1
  funext a
  apply Fin.ext
  match a with
  | ⟨0, _⟩ => show win2_2.index t 0 * 768 + 1 * (x 0).val = (x 0).val; rw [h0]; omega
  | ⟨1, _⟩ => show win2_2.index t 1 * 768 + 1 * (x 1).val = (x 1).val; rw [h1]; omega

/-- Window 3's block is the whole output bias. -/
private theorem inBlock2_3_whole (c : Dev nD) (t : Fin cfg2.N) :
    (iblk2 (F := Ideal) V c 3 t : Vec Ideal S1x768 .f32) = (V c main_v8 : S1x768.Idx → EReal) := by
  obtain ⟨-, -, -, ⟨h0, h1⟩, -⟩ := blockIndex2 t
  funext x
  unfold iblk2
  rw [View.read_apply]
  show V c main_v8 _ = V c main_v8 _
  congr 1
  funext a
  apply Fin.ext
  match a with
  | ⟨0, _⟩ => show win2_3.index t 0 * 1 + 1 * (x 0).val = (x 0).val; rw [h0]; omega
  | ⟨1, _⟩ => show win2_3.index t 1 * 768 + 1 * (x 1).val = (x 1).val; rw [h1]; omega

/-- Window 4's block is the whole γ. -/
private theorem inBlock2_4_whole (c : Dev nD) (t : Fin cfg2.N) :
    (iblk2 (F := Ideal) V c 4 t : Vec Ideal S1x768 .f32) = (V c main_v9 : S1x768.Idx → EReal) := by
  obtain ⟨-, -, -, -, ⟨h0, h1⟩, -⟩ := blockIndex2 t
  funext x
  unfold iblk2
  rw [View.read_apply]
  show V c main_v9 _ = V c main_v9 _
  congr 1
  funext a
  apply Fin.ext
  match a with
  | ⟨0, _⟩ => show win2_4.index t 0 * 1 + 1 * (x 0).val = (x 0).val; rw [h0]; omega
  | ⟨1, _⟩ => show win2_4.index t 1 * 768 + 1 * (x 1).val = (x 1).val; rw [h1]; omega

/-- Window 5's block is the whole β. -/
private theorem inBlock2_5_whole (c : Dev nD) (t : Fin cfg2.N) :
    (iblk2 (F := Ideal) V c 5 t : Vec Ideal S1x768 .f32) = (V c main_v10 : S1x768.Idx → EReal) := by
  obtain ⟨-, -, -, -, -, ⟨h0, h1⟩, -⟩ := blockIndex2 t
  funext x
  unfold iblk2
  rw [View.read_apply]
  show V c main_v10 _ = V c main_v10 _
  congr 1
  funext a
  apply Fin.ext
  match a with
  | ⟨0, _⟩ => show win2_5.index t 0 * 1 + 1 * (x 0).val = (x 0).val; rw [h0]; omega
  | ⟨1, _⟩ => show win2_5.index t 1 * 768 + 1 * (x 1).val = (x 1).val; rw [h1]; omega

/-- Every row's output layer plus bias plus residual, layer-normalised. -/
private def normed (c : Dev nD) : S8192x768.Idx → EReal := fun i =>
  Attn.lnRow (gArr V c) (beArr V c)
    (fun c' => ((∑ j : Fin 768, ctxArr V c (ix2 (i 0) j) * woTArr V c (ix2 j c')) + boArr V c (ix2 0 c')) + xArr V c (ix2 (i 0) c')) (i 1)

/-- Entry (r, o) of output window 6's block at point t is entry (512 t + r, o) of its array. -/
private theorem outBlock2_6_at (t : Fin cfg2.N) (r : Fin 512) (o : Fin 768) :
    (((cfg2.win 6).blk t).view.emb (ix2 r o : S512x768.Idx) : S8192x768.Idx) = ix2 (rowAt t r) o := by
  obtain ⟨-, -, -, -, -, -, ⟨h0, h1⟩⟩ := blockIndex2 t
  funext a
  apply Fin.ext
  match a with
  | ⟨0, _⟩ => show win2_6.index t 0 * 512 + 1 * r.val = 512 * t.val + r.val; rw [h0]; omega
  | ⟨1, _⟩ => show win2_6.index t 1 * 768 + 1 * o.val = o.val; rw [h1]; omega

/-- An entry is in point t's block of window 6 iff each coordinate is in the block's range on its axis. -/
private theorem memBlock2_6 (t : Fin cfg2.N) (i : S8192x768.Idx) :
    i ∈ ((cfg2.win 6).blk t).view.set ↔ ∀ a : Fin 2, win2_6.index t a * S512x768.size a ≤ (i a).val ∧ (i a).val < win2_6.index t a * S512x768.size a + S512x768.size a := by
  show i ∈ ((View.whole main_v25).slice (win2_6.rect t)).set ↔ _
  rw [View.set_slice_whole, Rect.mem_set_unit]
  exact Iff.rfl

/-- Row R is written by point R / 512: the sixteen blocks tile the 8192 rows. -/
private theorem covered2_6 (i : S8192x768.Idx) :
    ∃ t : Fin cfg2.N, (cfg2.win 6).flush t = true ∧ i ∈ ((cfg2.win 6).blk t).view.set := by
  have hi0 : (i 0).val < 8192 := (i 0).isLt
  have hi1 : (i 1).val < 768 := (i 1).isLt
  have ht : (i 0).val / 512 < 16 := by omega
  refine ⟨⟨(i 0).val / 512, ht⟩, flush2_6 _, ?_⟩
  rw [memBlock2_6]
  obtain ⟨-, -, -, -, -, -, ⟨h0, h1⟩⟩ := blockIndex2 ⟨(i 0).val / 512, ht⟩
  intro a
  match a with
  | ⟨0, _⟩ =>
    show win2_6.index ⟨(i 0).val / 512, ht⟩ 0 * 512 ≤ (i 0).val ∧ (i 0).val < win2_6.index ⟨(i 0).val / 512, ht⟩ 0 * 512 + 512
    rw [h0]; show (i 0).val / 512 * 512 ≤ (i 0).val ∧ (i 0).val < (i 0).val / 512 * 512 + 512; omega
  | ⟨1, _⟩ =>
    show win2_6.index ⟨(i 0).val / 512, ht⟩ 1 * 768 ≤ (i 1).val ∧ (i 1).val < win2_6.index ⟨(i 0).val / 512, ht⟩ 1 * 768 + 768
    rw [h1]; omega

/-- What point t writes back through window 6 is block t of the normalised rows. -/
private theorem written2_6 (c : Dev nD) (t : Fin cfg2.N) :
    (dat2 (F := Ideal) V c).flushed 6 t = ((cfg2.win 6).blk t).view.read (Elt Ideal) (normed V c) := by
  show (cfg2.win 6).cut (grid2.coords t) ((dat2 (F := Ideal) V c).after 6 t) = _
  rw [after2_6]
  funext y
  obtain ⟨r, o, rfl⟩ : ∃ r o, y = ix2 r o := ⟨y 0, y 1, eq_ix2 y⟩
  rw [View.read_apply, outBlock2_6_at]
  refine (out2_6_apply _ _ _ _ _ _ r o).trans ?_
  rw [inBlock2_2_whole, inBlock2_3_whole, inBlock2_4_whole, inBlock2_5_whole]
  show Attn.lnRow _ _ _ o = Attn.lnRow (gArr V c) (beArr V c)
    (fun c' => ((∑ j : Fin 768, ctxArr V c (ix2 (rowAt t r) j) * woTArr V c (ix2 j c')) + boArr V c (ix2 0 c')) + xArr V c (ix2 (rowAt t r) c')) o
  refine congrArg (fun hr => Attn.lnRow (gArr V c) (beArr V c) hr o) (funext fun c' => ?_)
  congr 1
  · congr 1
    refine Finset.sum_congr rfl fun j _ => ?_
    congr 1
    exact inBlock2_0_rows V c t _ _ rfl rfl
  · exact inBlock2_1_rows V c t _ _ rfl rfl

theorem arr2_6 (c : Dev nD) (R : Fin 8192) (col : Fin 768) :
    (dat2 (F := Ideal) V c).arrAt 6 cfg2.N (ix2 R col)
      = Attn.lnRow (gArr V c) (beArr V c)
          (fun c' => ((∑ j : Fin 768, ctxArr V c (ix2 R j) * woTArr V c (ix2 j c')) + boArr V c (ix2 0 c')) + xArr V c (ix2 R c')) col := by
  have h := (dat2 (F := Ideal) V c).arrAt_eq_of_cover 6 (normed V c) (fun t _ => written2_6 V c t) covered2_6
  exact congrFun h (ix2 R col)

end Cert.ReferenceIdeal.RV

end
-- ==== Proof.RHost.lean ====
/-
  The host stretches of the reference between its regions, read at an entry: the flattening of the activations, the
  transposed weights, the bias rows; the split into heads (flattened row 128 B + s, feature 64 h + e ↦ block 12 B + h,
  row s, feature e) and its inverse; and the unflattening of the result.
-/
import proofs.«110644_g2000702396236789_pallasbulk_1056_3_alg».proof.Proof.Gen.ReferenceIdeal.Frame
import proofs.«110644_g2000702396236789_pallasbulk_1056_3_alg».proof.Proof.Spec
import Idealize.ShloMosaic.Lib.Pipeline.Value
import Idealize.ShloMosaic.Lib.ValueLayout
import Idealize.ShloMosaic.Lib.StableHlo.Run

noncomputable section

open scoped BigOperators

namespace Cert.ReferenceIdeal.RV

open Idealize.ShloMosaic Idealize.ShloMosaic.TcCoe Idealize.ShloMosaic.ValueIdx Idealize.SL.Sem Cert.ReferenceIdeal Cert.ReferenceIdeal.Facts₀ Cert.ReferenceIdeal.Gen

variable (m : (ℓ : Loc nD τ sig) → Buf (Elt Ideal) ℓ) (ρ : Dev nD → PrngReg)

/-- Splitting into heads, read at a point: the entry at flattened row 128 B + s, feature 64 h + e is what block 12 B + h
    holds at row s, feature e. Each of the two reshapes keeps the row-major position; the transposition swaps the row
    and head coordinates. -/
private theorem split_heads_apply (X : S8192x768.Idx → EReal) (B : Fin 64) (h : Fin 12) (s : Fin 128) (e : Fin 64) :
    shapeCast S768x128x64 (transpose S64x12x128x64 [0, 2, 1, 3] (shapeCast S64x128x12x64 X Gen.shapeCasts_S8192x768_S64x128x12x64)
        Gen.transposes_S64x128x12x64_S64x12x128x64_0_2_1_3) Gen.shapeCasts_S64x12x128x64_S768x128x64 (ix3 (Attn.bhOf B h) s e)
      = X (ix2 (Attn.rowOf B s) (Attn.colOf h e)) := by
  refine (shapeCast_apply _ _ (ix3 (Attn.bhOf B h) s e) (ix4 B h s e) ?_).trans ?_
  · rw [Shape.rowMajor_val_four, Shape.rowMajor_val_three]
    show ((B.val * 12 + h.val) * 128 + s.val) * 64 + e.val = ((12 * B.val + h.val) * 128 + s.val) * 64 + e.val
    omega
  refine (transpose_apply _ _ _ (ix4 B h s e) (ix4 B s h e) (by intro b; fin_cases b <;> rfl)).trans ?_
  refine shapeCast_apply _ _ (ix4 B s h e) (ix2 (Attn.rowOf B s) (Attn.colOf h e)) ?_
  rw [Shape.rowMajor_val_four, Shape.rowMajor_val_two]
  show (128 * B.val + s.val) * 768 + (64 * h.val + e.val) = ((B.val * 128 + s.val) * 12 + h.val) * 64 + e.val
  omega

/-- Merging the heads back, read at a point: the inverse of the split. -/
private theorem merge_heads_apply (Y : S768x128x64.Idx → EReal) (B : Fin 64) (s : Fin 128) (h : Fin 12) (d : Fin 64) :
    shapeCast S8192x768 (transpose S64x128x12x64 [0, 2, 1, 3] (shapeCast S64x12x128x64 Y Gen.shapeCasts_S768x128x64_S64x12x128x64)
        Gen.transposes_S64x12x128x64_S64x128x12x64_0_2_1_3) Gen.shapeCasts_S64x128x12x64_S8192x768 (ix2 (Attn.rowOf B s) (Attn.colOf h d))
      = Y (ix3 (Attn.bhOf B h) s d) := by
  refine (shapeCast_apply _ _ (ix2 (Attn.rowOf B s) (Attn.colOf h d)) (ix4 B s h d) ?_).trans ?_
  · rw [Shape.rowMajor_val_four, Shape.rowMajor_val_two]
    show ((B.val * 128 + s.val) * 12 + h.val) * 64 + d.val = (128 * B.val + s.val) * 768 + (64 * h.val + d.val)
    omega
  refine (transpose_apply _ _ _ (ix4 B s h d) (ix4 B h s d) (by intro b; fin_cases b <;> rfl)).trans ?_
  refine shapeCast_apply _ _ (ix4 B h s d) (ix3 (Attn.bhOf B h) s d) ?_
  rw [Shape.rowMajor_val_three, Shape.rowMajor_val_four]
  show ((12 * B.val + h.val) * 128 + s.val) * 64 + d.val = ((B.val * 12 + h.val) * 128 + s.val) * 64 + d.val
  omega

/-! ## Region 0's entry -/
theorem V1_v0 (c : Dev nD) : V1 m ρ c main_v0 = shapeCast S8192x768 (m ((c.tc : Thread nD τ).loc main_arg0)) Facts₀.shapeCasts_S64x128x768_S8192x768 := by
  show StableHlo.after hostOps0 _ (Proc.devRef .tc main_v0) = _
  after_results <;> rfl
theorem V1_v1 (c : Dev nD) (i o : Fin 768) : V1 m ρ c main_v1 (ix2 i o) = m ((c.tc : Thread nD τ).loc main_arg1) (ix2 o i) := by
  have e : V1 m ρ c main_v1 = transpose S768x768 [1, 0] (m ((c.tc : Thread nD τ).loc main_arg1)) Gen.transposes_S768x768_S768x768_1_0 := by
    show StableHlo.after hostOps0 _ (Proc.devRef .tc main_v1) = _
    after_results <;> rfl
  rw [e]
  exact transpose_apply _ _ _ (ix2 i o) (ix2 o i) (by intro b; fin_cases b <;> rfl)
theorem V1_v2 (c : Dev nD) (i o : Fin 768) : V1 m ρ c main_v2 (ix2 i o) = m ((c.tc : Thread nD τ).loc main_arg2) (ix2 o i) := by
  have e : V1 m ρ c main_v2 = transpose S768x768 [1, 0] (m ((c.tc : Thread nD τ).loc main_arg2)) Gen.transposes_S768x768_S768x768_1_0 := by
    show StableHlo.after hostOps0 _ (Proc.devRef .tc main_v2) = _
    after_results <;> rfl
  rw [e]
  exact transpose_apply _ _ _ (ix2 i o) (ix2 o i) (by intro b; fin_cases b <;> rfl)
theorem V1_v3 (c : Dev nD) (i o : Fin 768) : V1 m ρ c main_v3 (ix2 i o) = m ((c.tc : Thread nD τ).loc main_arg3) (ix2 o i) := by
  have e : V1 m ρ c main_v3 = transpose S768x768 [1, 0] (m ((c.tc : Thread nD τ).loc main_arg3)) Gen.transposes_S768x768_S768x768_1_0 := by
    show StableHlo.after hostOps0 _ (Proc.devRef .tc main_v3) = _
    after_results <;> rfl
  rw [e]
  exact transpose_apply _ _ _ (ix2 i o) (ix2 o i) (by intro b; fin_cases b <;> rfl)
theorem V1_v5 (c : Dev nD) : V1 m ρ c main_v5 = shapeCast S1x768 (m ((c.tc : Thread nD τ).loc main_arg5)) Facts₀.shapeCasts_S768_S1x768 := by
  show StableHlo.after hostOps0 _ (Proc.devRef .tc main_v5) = _
  after_results <;> rfl
theorem V1_v6 (c : Dev nD) : V1 m ρ c main_v6 = shapeCast S1x768 (m ((c.tc : Thread nD τ).loc main_arg6)) Facts₀.shapeCasts_S768_S1x768 := by
  show StableHlo.after hostOps0 _ (Proc.devRef .tc main_v6) = _
  after_results <;> rfl
theorem V1_v7 (c : Dev nD) : V1 m ρ c main_v7 = shapeCast S1x768 (m ((c.tc : Thread nD τ).loc main_arg7)) Facts₀.shapeCasts_S768_S1x768 := by
  show StableHlo.after hostOps0 _ (Proc.devRef .tc main_v7) = _
  after_results <;> rfl

/-! ## Region 1's entry: the three projections split into heads -/
theorem V3_v14 (c : Dev nD) (B : Fin 64) (h : Fin 12) (s : Fin 128) (e : Fin 64) :
    V3 m ρ c main_v14 (ix3 (Attn.bhOf B h) s e) = (dat0 (V1 m ρ) c).arrAt 7 cfg0.N (ix2 (Attn.rowOf B s) (Attn.colOf h e)) := by
  have e1 : V3 m ρ c main_v14 = shapeCast S768x128x64 (transpose S64x12x128x64 [0, 2, 1, 3]
        (shapeCast S64x128x12x64 (W2 m ρ c (Proc.devRef .tc main_v11_0)) Gen.shapeCasts_S8192x768_S64x128x12x64)
        Gen.transposes_S64x128x12x64_S64x12x128x64_0_2_1_3) Gen.shapeCasts_S64x12x128x64_S768x128x64 := by
    show StableHlo.after hostOps1 _ (Proc.devRef .tc main_v14) = _
    after_results <;> rfl
  have e2 : W2 m ρ c (Proc.devRef .tc main_v11_0) = (dat0 (V1 m ρ) c).arrAt 7 cfg0.N := W2_arr m ρ c 7
  rw [e1, e2]
  exact split_heads_apply _ B h s e
theorem V3_v17 (c : Dev nD) (B : Fin 64) (h : Fin 12) (s : Fin 128) (e : Fin 64) :
    V3 m ρ c main_v17 (ix3 (Attn.bhOf B h) s e) = (dat0 (V1 m ρ) c).arrAt 8 cfg0.N (ix2 (Attn.rowOf B s) (Attn.colOf h e)) := by
  have e1 : V3 m ρ c main_v17 = shapeCast S768x128x64 (transpose S64x12x128x64 [0, 2, 1, 3]
        (shapeCast S64x128x12x64 (W2 m ρ c (Proc.devRef .tc main_v11_1)) Gen.shapeCasts_S8192x768_S64x128x12x64)
        Gen.transposes_S64x128x12x64_S64x12x128x64_0_2_1_3) Gen.shapeCasts_S64x12x128x64_S768x128x64 := by
    show StableHlo.after hostOps1 _ (Proc.devRef .tc main_v17) = _
    after_results <;> rfl
  have e2 : W2 m ρ c (Proc.devRef .tc main_v11_1) = (dat0 (V1 m ρ) c).arrAt 8 cfg0.N := W2_arr m ρ c 8
  rw [e1, e2]
  exact split_heads_apply _ B h s e
theorem V3_v20 (c : Dev nD) (B : Fin 64) (h : Fin 12) (s : Fin 128) (e : Fin 64) :
    V3 m ρ c main_v20 (ix3 (Attn.bhOf B h) s e) = (dat0 (V1 m ρ) c).arrAt 9 cfg0.N (ix2 (Attn.rowOf B s) (Attn.colOf h e)) := by
  have e1 : V3 m ρ c main_v20 = shapeCast S768x128x64 (transpose S64x12x128x64 [0, 2, 1, 3]
        (shapeCast S64x128x12x64 (W2 m ρ c (Proc.devRef .tc main_v11_2)) Gen.shapeCasts_S8192x768_S64x128x12x64)
        Gen.transposes_S64x128x12x64_S64x12x128x64_0_2_1_3) Gen.shapeCasts_S64x12x128x64_S768x128x64 := by
    show StableHlo.after hostOps1 _ (Proc.devRef .tc main_v20) = _
    after_results <;> rfl
  have e2 : W2 m ρ c (Proc.devRef .tc main_v11_2) = (dat0 (V1 m ρ) c).arrAt 9 cfg0.N := W2_arr m ρ c 9
  rw [e1, e2]
  exact split_heads_apply _ B h s e

/-! ## Region 2's entry: the heads merged back, and what was there since the start -/
theorem V5_v24 (c : Dev nD) (B : Fin 64) (s : Fin 128) (h : Fin 12) (d : Fin 64) :
    V5 m ρ c main_v24 (ix2 (Attn.rowOf B s) (Attn.colOf h d)) = (dat1 (V3 m ρ) c).arrAt 3 cfg1.N (ix3 (Attn.bhOf B h) s d) := by
  have e1 : V5 m ρ c main_v24 = shapeCast S8192x768 (transpose S64x128x12x64 [0, 2, 1, 3]
        (shapeCast S64x12x128x64 (W4 m ρ c (Proc.devRef .tc main_v21)) Gen.shapeCasts_S768x128x64_S64x12x128x64)
        Gen.transposes_S64x12x128x64_S64x128x12x64_0_2_1_3) Gen.shapeCasts_S64x128x12x64_S8192x768 := by
    show StableHlo.after hostOps2 _ (Proc.devRef .tc main_v24) = _
    after_results <;> rfl
  have e2 : W4 m ρ c (Proc.devRef .tc main_v21) = (dat1 (V3 m ρ) c).arrAt 3 cfg1.N := W4_arr m ρ c 3
  rw [e1, e2]
  exact merge_heads_apply _ B s h d
theorem V5_v0 (c : Dev nD) : V5 m ρ c main_v0 = shapeCast S8192x768 (m ((c.tc : Thread nD τ).loc main_arg0)) Facts₀.shapeCasts_S64x128x768_S8192x768 :=
  calc V5 m ρ c main_v0
    _ = W4 m ρ c (Proc.devRef .tc main_v0) := by
          show StableHlo.after hostOps2 _ (Proc.devRef .tc main_v0) = _
          after_results <;> rfl
    _ = W3 m ρ c (Proc.devRef .tc main_v0) := W4_of_ne m ρ c main_v0 (by decide)
    _ = W2 m ρ c (Proc.devRef .tc main_v0) := by
          show StableHlo.after hostOps1 _ (Proc.devRef .tc main_v0) = _
          after_results <;> rfl
    _ = (dat0 (V1 m ρ) c).arrAt 0 cfg0.N := W2_arr m ρ c 0
    _ = (dat0 (V1 m ρ) c).A 0 := Pipeline.Dat.arrAt_in _ 0 (by decide) _
    _ = W1 m ρ c (Proc.devRef .tc main_v0) := rfl
    _ = _ := by
          show StableHlo.after hostOps0 _ (Proc.devRef .tc main_v0) = _
          after_results <;> rfl
theorem V5_v4 (c : Dev nD) (j o : Fin 768) : V5 m ρ c main_v4 (ix2 j o) = m ((c.tc : Thread nD τ).loc main_arg4) (ix2 o j) := by
  have e : V5 m ρ c main_v4 = transpose S768x768 [1, 0] (m ((c.tc : Thread nD τ).loc main_arg4)) Gen.transposes_S768x768_S768x768_1_0 :=
    calc V5 m ρ c main_v4
      _ = W4 m ρ c (Proc.devRef .tc main_v4) := by
          show StableHlo.after hostOps2 _ (Proc.devRef .tc main_v4) = _
          after_results <;> rfl
      _ = W3 m ρ c (Proc.devRef .tc main_v4) := W4_of_ne m ρ c main_v4 (by decide)
      _ = W2 m ρ c (Proc.devRef .tc main_v4) := by
          show StableHlo.after hostOps1 _ (Proc.devRef .tc main_v4) = _
          after_results <;> rfl
      _ = W1 m ρ c (Proc.devRef .tc main_v4) := W2_of_ne m ρ c main_v4 (by decide)
      _ = _ := by
          show StableHlo.after hostOps0 _ (Proc.devRef .tc main_v4) = _
          after_results <;> rfl
  rw [e]
  exact transpose_apply _ _ _ (ix2 j o) (ix2 o j) (by intro b; fin_cases b <;> rfl)
theorem V5_v8 (c : Dev nD) : V5 m ρ c main_v8 = shapeCast S1x768 (m ((c.tc : Thread nD τ).loc main_arg8)) Facts₀.shapeCasts_S768_S1x768 :=
  calc V5 m ρ c main_v8
    _ = W4 m ρ c (Proc.devRef .tc main_v8) := by
          show StableHlo.after hostOps2 _ (Proc.devRef .tc main_v8) = _
          after_results <;> rfl
    _ = W3 m ρ c (Proc.devRef .tc main_v8) := W4_of_ne m ρ c main_v8 (by decide)
    _ = W2 m ρ c (Proc.devRef .tc main_v8) := by
          show StableHlo.after hostOps1 _ (Proc.devRef .tc main_v8) = _
          after_results <;> rfl
    _ = W1 m ρ c (Proc.devRef .tc main_v8) := W2_of_ne m ρ c main_v8 (by decide)
    _ = _ := by
          show StableHlo.after hostOps0 _ (Proc.devRef .tc main_v8) = _
          after_results <;> rfl
theorem V5_v9 (c : Dev nD) : V5 m ρ c main_v9 = shapeCast S1x768 (m ((c.tc : Thread nD τ).loc main_arg9)) Facts₀.shapeCasts_S768_S1x768 :=
  calc V5 m ρ c main_v9
    _ = W4 m ρ c (Proc.devRef .tc main_v9) := by
          show StableHlo.after hostOps2 _ (Proc.devRef .tc main_v9) = _
          after_results <;> rfl
    _ = W3 m ρ c (Proc.devRef .tc main_v9) := W4_of_ne m ρ c main_v9 (by decide)
    _ = W2 m ρ c (Proc.devRef .tc main_v9) := by
          show StableHlo.after hostOps1 _ (Proc.devRef .tc main_v9) = _
          after_results <;> rfl
    _ = W1 m ρ c (Proc.devRef .tc main_v9) := W2_of_ne m ρ c main_v9 (by decide)
    _ = _ := by
          show StableHlo.after hostOps0 _ (Proc.devRef .tc main_v9) = _
          after_results <;> rfl
theorem V5_v10 (c : Dev nD) : V5 m ρ c main_v10 = shapeCast S1x768 (m ((c.tc : Thread nD τ).loc main_arg10)) Facts₀.shapeCasts_S768_S1x768 :=
  calc V5 m ρ c main_v10
    _ = W4 m ρ c (Proc.devRef .tc main_v10) := by
          show StableHlo.after hostOps2 _ (Proc.devRef .tc main_v10) = _
          after_results <;> rfl
    _ = W3 m ρ c (Proc.devRef .tc main_v10) := W4_of_ne m ρ c main_v10 (by decide)
    _ = W2 m ρ c (Proc.devRef .tc main_v10) := by
          show StableHlo.after hostOps1 _ (Proc.devRef .tc main_v10) = _
          after_results <;> rfl
    _ = W1 m ρ c (Proc.devRef .tc main_v10) := W2_of_ne m ρ c main_v10 (by decide)
    _ = _ := by
          show StableHlo.after hostOps0 _ (Proc.devRef .tc main_v10) = _
          after_results <;> rfl

/-! ## The result -/
theorem W7_v26 (c : Dev nD) :
    W7 m ρ c (Proc.devRef .tc main_v26) = shapeCast S64x128x768 ((dat2 (V5 m ρ) c).arrAt 6 cfg2.N) Facts₀.shapeCasts_S8192x768_S64x128x768 := by
  have e : W7 m ρ c (Proc.devRef .tc main_v26) = shapeCast S64x128x768 (W6 m ρ c (Proc.devRef .tc main_v25)) Gen.shapeCasts_S8192x768_S64x128x768 := by
    show StableHlo.after hostOps3 _ (Proc.devRef .tc main_v26) = _
    after_results <;> rfl
  have h : W6 m ρ c (Proc.devRef .tc main_v25) = (dat2 (V5 m ρ) c).arrAt 6 cfg2.N := W6_arr m ρ c 6
  rw [e, h]

end Cert.ReferenceIdeal.RV

end
-- ==== Proof.RValue.lean ====
/-
  The reference's run with its result named: region 2's output array is the second reading of the attention block on
  the flattened activations, and the result is that array unflattened.
-/
import proofs.«110644_g2000702396236789_pallasbulk_1056_3_alg».proof.Proof.RRun
import proofs.«110644_g2000702396236789_pallasbulk_1056_3_alg».proof.Proof.RArr
import proofs.«110644_g2000702396236789_pallasbulk_1056_3_alg».proof.Proof.RHost

noncomputable section

open scoped BigOperators

namespace Cert.ReferenceIdeal.RV

open Idealize.ShloMosaic Idealize.ShloMosaic.TcCoe Idealize.ShloMosaic.ValueIdx Idealize.SL.Sem Cert.ReferenceIdeal Cert.ReferenceIdeal.Facts₀ Cert.ReferenceIdeal.Gen

variable (m : (ℓ : Loc nD τ sig) → Buf (Elt Ideal) ℓ) (ρ : Dev nD → PrngReg)

/-! ## The argument arrays as the attention block takes them -/

/-- The flattened activations. -/
abbrev aX (c : Dev nD) : Attn.SX.Idx → EReal := shapeCast S8192x768 (m ((c.tc : Thread nD τ).loc main_arg0)) Facts₀.shapeCasts_S64x128x768_S8192x768
/-- The four weight matrices, (out, in). -/
abbrev aWq (c : Dev nD) : Attn.SW.Idx → EReal := m ((c.tc : Thread nD τ).loc main_arg1)
abbrev aWk (c : Dev nD) : Attn.SW.Idx → EReal := m ((c.tc : Thread nD τ).loc main_arg2)
abbrev aWv (c : Dev nD) : Attn.SW.Idx → EReal := m ((c.tc : Thread nD τ).loc main_arg3)
abbrev aWo (c : Dev nD) : Attn.SW.Idx → EReal := m ((c.tc : Thread nD τ).loc main_arg4)
/-- The six vectors as rows. -/
abbrev abq (c : Dev nD) : Attn.SB.Idx → EReal := shapeCast S1x768 (m ((c.tc : Thread nD τ).loc main_arg5)) Facts₀.shapeCasts_S768_S1x768
abbrev abk (c : Dev nD) : Attn.SB.Idx → EReal := shapeCast S1x768 (m ((c.tc : Thread nD τ).loc main_arg6)) Facts₀.shapeCasts_S768_S1x768
abbrev abv (c : Dev nD) : Attn.SB.Idx → EReal := shapeCast S1x768 (m ((c.tc : Thread nD τ).loc main_arg7)) Facts₀.shapeCasts_S768_S1x768
abbrev abo (c : Dev nD) : Attn.SB.Idx → EReal := shapeCast S1x768 (m ((c.tc : Thread nD τ).loc main_arg8)) Facts₀.shapeCasts_S768_S1x768
abbrev ag (c : Dev nD) : Attn.SB.Idx → EReal := shapeCast S1x768 (m ((c.tc : Thread nD τ).loc main_arg9)) Facts₀.shapeCasts_S768_S1x768
abbrev abe (c : Dev nD) : Attn.SB.Idx → EReal := shapeCast S1x768 (m ((c.tc : Thread nD τ).loc main_arg10)) Facts₀.shapeCasts_S768_S1x768

/-! ## Region 0: the three projections of a batch's row -/

theorem proj_q (c : Dev nD) (B : Fin 64) (s : Fin 128) (o : Fin 768) :
    (dat0 (V1 m ρ) c).arrAt 7 cfg0.N (ix2 (Attn.rowOf B s) o) = Attn.lin (Attn.rowsOf (aX m c) B s) (aWq m c) (abq m c) o := by
  rw [arr0_7]
  unfold linT Attn.lin Attn.rowsOf
  rw [V1_v0, V1_v5]
  refine congrArg (· + _) (Finset.sum_congr rfl fun i _ => ?_)
  rw [V1_v1]
theorem proj_k (c : Dev nD) (B : Fin 64) (s : Fin 128) (o : Fin 768) :
    (dat0 (V1 m ρ) c).arrAt 8 cfg0.N (ix2 (Attn.rowOf B s) o) = Attn.lin (Attn.rowsOf (aX m c) B s) (aWk m c) (abk m c) o := by
  rw [arr0_8]
  unfold linT Attn.lin Attn.rowsOf
  rw [V1_v0, V1_v6]
  refine congrArg (· + _) (Finset.sum_congr rfl fun i _ => ?_)
  rw [V1_v2]
theorem proj_v (c : Dev nD) (B : Fin 64) (s : Fin 128) (o : Fin 768) :
    (dat0 (V1 m ρ) c).arrAt 9 cfg0.N (ix2 (Attn.rowOf B s) o) = Attn.lin (Attn.rowsOf (aX m c) B s) (aWv m c) (abv m c) o := by
  rw [arr0_9]
  unfold linT Attn.lin Attn.rowsOf
  rw [V1_v0, V1_v7]
  refine congrArg (· + _) (Finset.sum_congr rfl fun i _ => ?_)
  rw [V1_v3]

/-! ## Region 1: a head's context -/

/-- Region 1's arrays, typed: the three projections split into heads at its entry, the contexts at its exit. -/
abbrev qhArr (c : Dev nD) : S768x128x64.Idx → EReal := V3 m ρ c main_v14
abbrev khArr (c : Dev nD) : S768x128x64.Idx → EReal := V3 m ρ c main_v17
abbrev vhArr (c : Dev nD) : S768x128x64.Idx → EReal := V3 m ρ c main_v20
abbrev o1Arr (c : Dev nD) : S768x128x64.Idx → EReal := (dat1 (V3 m ρ) c).arrAt 3 cfg1.N

theorem qh_eq (c : Dev nD) (B : Fin 64) (h : Fin 12) (s : Fin 128) (e : Fin 64) :
    qhArr m ρ c (ix3 (Attn.bhOf B h) s e) = Attn.lin (Attn.rowsOf (aX m c) B s) (aWq m c) (abq m c) (Attn.colOf h e) :=
  (V3_v14 m ρ c B h s e).trans (proj_q m ρ c B s _)
theorem kh_eq (c : Dev nD) (B : Fin 64) (h : Fin 12) (s : Fin 128) (e : Fin 64) :
    khArr m ρ c (ix3 (Attn.bhOf B h) s e) = Attn.lin (Attn.rowsOf (aX m c) B s) (aWk m c) (abk m c) (Attn.colOf h e) :=
  (V3_v17 m ρ c B h s e).trans (proj_k m ρ c B s _)
theorem vh_eq (c : Dev nD) (B : Fin 64) (h : Fin 12) (s : Fin 128) (e : Fin 64) :
    vhArr m ρ c (ix3 (Attn.bhOf B h) s e) = Attn.lin (Attn.rowsOf (aX m c) B s) (aWv m c) (abv m c) (Attn.colOf h e) :=
  (V3_v20 m ρ c B h s e).trans (proj_v m ρ c B s _)

theorem ctx_eq (c : Dev nD) (B : Fin 64) (h : Fin 12) (s : Fin 128) (d : Fin 64) :
    o1Arr m ρ c (ix3 (Attn.bhOf B h) s d)
      = Attn.ctxR (Attn.rowsOf (aX m c) B) (aWq m c) (aWk m c) (aWv m c) (abq m c) (abk m c) (abv m c) h s d := by
  have h1 : o1Arr m ρ c (ix3 (Attn.bhOf B h) s d)
      = ∑ j : Fin 128, Ideal.div (Attn.pOf (scHead (blk3 (qhArr m ρ c) (Attn.bhOf B h)) (blk3 (khArr m ρ c) (Attn.bhOf B h)) s) j)
          (∑ l : Fin 128, Attn.pOf (scHead (blk3 (qhArr m ρ c) (Attn.bhOf B h)) (blk3 (khArr m ρ c) (Attn.bhOf B h)) s) l)
          * vhArr m ρ c (ix3 (Attn.bhOf B h) j d) := arr1_3 (V3 m ρ) c (Attn.bhOf B h) s d
  rw [h1]
  unfold Attn.ctxR
  have hsc : scHead (blk3 (qhArr m ρ c) (Attn.bhOf B h)) (blk3 (khArr m ρ c) (Attn.bhOf B h)) s
      = Attn.scR (Attn.rowsOf (aX m c) B) (aWq m c) (aWk m c) (abq m c) (abk m c) h s := by
    funext j
    unfold scHead Attn.scR
    refine congrArg (· * Attn.cs) (Finset.sum_congr rfl fun e _ => ?_)
    show qhArr m ρ c (ix3 (Attn.bhOf B h) s e) * khArr m ρ c (ix3 (Attn.bhOf B h) j e) = _
    rw [qh_eq, kh_eq]
  rw [hsc]
  refine Finset.sum_congr rfl fun j _ => ?_
  rw [vh_eq]

/-! ## Region 2: the output rows -/

theorem row_eq (R : Fin 8192) : Attn.rowOf (Attn.batchOf R) (Attn.inBatch R) = R :=
  Fin.ext (by show 128 * (R.val / 128) + R.val % 128 = R.val; omega)
theorem col_eq (j : Fin 768) : Attn.colOf (Attn.headOf j) (Attn.inHead j) = j :=
  Fin.ext (by show 64 * (j.val / 64) + j.val % 64 = j.val; omega)

theorem arr_final (c : Dev nD) (R : Fin 8192) (col : Fin 768) :
    (dat2 (V5 m ρ) c).arrAt 6 cfg2.N (ix2 R col)
      = Attn.outR (Attn.rowsOf (aX m c) (Attn.batchOf R)) (aWq m c) (aWk m c) (aWv m c) (aWo m c) (abq m c) (abk m c) (abv m c)
          (abo m c) (ag m c) (abe m c) (Attn.inBatch R) col := by
  rw [arr2_6]
  unfold Attn.outR
  have hg : gArr (V5 m ρ) c = ag m c := V5_v9 m ρ c
  have hbe : beArr (V5 m ρ) c = abe m c := V5_v10 m ρ c
  rw [hg, hbe]
  refine congrArg (fun f => Attn.lnRow (ag m c) (abe m c) f col) (funext fun c' => ?_)
  unfold Attn.hout
  have e3 : xArr (V5 m ρ) c (ix2 R c') = Attn.rowsOf (aX m c) (Attn.batchOf R) (Attn.inBatch R) c' := by
    unfold Attn.rowsOf
    rw [row_eq]
    exact congrFun (V5_v0 m ρ c) _
  have e2 : boArr (V5 m ρ) c (ix2 0 c') = abo m c (ix2 0 c') := congrFun (V5_v8 m ρ c) _
  rw [e3, e2]
  refine congrArg (fun z => z + abo m c (ix2 0 c') + Attn.rowsOf (aX m c) (Attn.batchOf R) (Attn.inBatch R) c') (Finset.sum_congr rfl fun j _ => ?_)
  have e1 : ctxArr (V5 m ρ) c (ix2 R j)
      = Attn.ctxR (Attn.rowsOf (aX m c) (Attn.batchOf R)) (aWq m c) (aWk m c) (aWv m c) (abq m c) (abk m c) (abv m c) (Attn.headOf j) (Attn.inBatch R) (Attn.inHead j) := by
    have := V5_v24 m ρ c (Attn.batchOf R) (Attn.inBatch R) (Attn.headOf j) (Attn.inHead j)
    rw [row_eq, col_eq] at this
    exact this.trans (ctx_eq m ρ c _ _ _ _)
  have e4 : woTArr (V5 m ρ) c (ix2 j c') = aWo m c (ix2 c' j) := V5_v4 m ρ c j c'
  rw [e1, e4]

/-! ## The result -/

theorem W7_result (c : Dev nD) :
    W7 m ρ c (Proc.devRef .tc main_v26) = Attn.result Attn.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [W7_v26]
  unfold Attn.result
  refine congrArg (fun z => shapeCast S64x128x768 z Facts₀.shapeCasts_S8192x768_S64x128x768) ?_
  funext i
  obtain ⟨R, col, rfl⟩ : ∃ (R : Fin 8192) (col : Fin 768), i = ix2 R col := ⟨i 0, i 1, eq_ix2 i⟩
  rw [arr_final, Attn.arrOf_ix2]

theorem ref_run : θ_run (defs (F := Ideal)) (onTc (τ := τ) (main (F := Ideal))) ⟨m, fun _ => 0, ρ⟩ (fun r => ∀ c : Dev nD,
      r.2.mem ((c.tc : Thread nD τ).loc main_v26) = Attn.result Attn.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W7_result m ρ c), (h c).2⟩) (run_all (F := Ideal) m ρ)

end Cert.ReferenceIdeal.RV

end
-- ==== Proof.Algebra.lean ====
/-
  The two readings of the attention block agree on real inputs.

  Every quantity in sight is a real number as soon as the rows, weights and biases are: a dense layer is a finite sum of
  products of reals; a score is such a sum times the real scale; the maximum of a row of reals, started from −∞, is one
  of them; the exponential of a real is a positive real; so the divisor is a positive real. Among reals the two
  readings differ by the commutativity of the product, by the distributivity of the scale over a finite sum, and by
  the distributivity of a division over a finite sum.
-/
import proofs.«110644_g2000702396236789_pallasbulk_1056_3_alg».proof.Proof.Spec

noncomputable section

open scoped BigOperators

namespace Cert.Attn

open Idealize.ShloMosaic Idealize.ShloMosaic.ValueIdx

/-! ### The constants -/

/-- The score scale is the real 1/8. -/
private theorem cs_eq : cs = (((1 / 8 : ℝ)) : EReal) := by
  unfold cs
  simp [Ideal.ofBits, Ideal.ieee, -EReal.coe_mul]; norm_num

/-- The ones column holds 1. -/
private theorem one16_eq : one16 = 1 := by
  unfold one16
  simp [Ideal.ofBits, Ideal.ieee, -EReal.coe_mul]; norm_num

/-- The maximum starts from −∞. -/
private theorem negInf_eq : negInf = ⊥ := by
  unfold negInf
  simp [Ideal.ofBits, Ideal.ieee]

/-! ### Finite sums of reals -/

/-- A finite sum of reals, read in the extended reals, is the real sum. -/
private theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A dense layer on a real row with real weights and a real bias gives reals. -/
private theorem lin_real {x : Fin 768 → EReal} {W : SW.Idx → EReal} {b : SB.Idx → EReal}
    (hx : IsReal x) (hW : IsReal W) (hb : IsReal b) : IsReal (lin x W b) := by
  choose x' hx' using hx
  choose W' hW' using hW
  choose b' hb' using hb
  intro o
  refine ⟨(∑ i : Fin 768, x' i * W' (ix2 o i)) + b' (ix2 0 o), ?_⟩
  unfold lin
  simp only [hx', hW', hb', ← EReal.coe_mul, sum_coe, ← EReal.coe_add]

/-! ### The scores -/

/-- The scale on one factor of each product or on the whole sum: the same real. -/
private theorem sum_scale (q k : Fin 64 → EReal) (hq : IsReal q) (hk : IsReal k) :
    (∑ e : Fin 64, (q e * cs) * k e) = (∑ e : Fin 64, q e * k e) * cs := by
  choose q' hq' using hq
  choose k' hk' using hk
  rw [cs_eq]
  simp only [hq', hk', ← EReal.coe_mul, sum_coe]
  congr 1
  rw [Finset.sum_mul]
  exact Finset.sum_congr rfl (fun e _ => by ring)

/-- A sum of products of reals times the scale is a real. -/
private theorem sum_mul_cs_real (q k : Fin 64 → EReal) (hq : IsReal q) (hk : IsReal k) :
    ∃ r : ℝ, (∑ e : Fin 64, q e * k e) * cs = (r : EReal) := by
  choose q' hq' using hq
  choose k' hk' using hk
  refine ⟨(∑ e : Fin 64, q' e * k' e) * (1 / 8), ?_⟩
  rw [cs_eq]
  simp only [hq', hk', ← EReal.coe_mul, sum_coe]

/-! ### The weights -/

/-- The maximum of a row of reals, from −∞, is a real. -/
private theorem rowmax_real (f : Fin 128 → EReal) (hf : IsReal f) : ∃ m : ℝ, rowmax f = (m : EReal) := by
  choose f' hf' using hf
  have htop : rowmax f ≠ ⊤ := by
    apply ne_of_lt
    unfold rowmax
    rw [Finset.fold_max_lt]
    refine ⟨by rw [negInf_eq]; exact bot_lt_top, fun x _ => ?_⟩
    rw [hf']; exact EReal.coe_lt_top _
  have hbot : rowmax f ≠ ⊥ := by
    apply ne_of_gt
    unfold rowmax
    rw [Finset.lt_fold_max]
    exact Or.inr ⟨0, Finset.mem_univ _, by rw [hf']; exact EReal.bot_lt_coe _⟩
  exact ⟨(rowmax f).toReal, (EReal.coe_toReal htop hbot).symm⟩

/-- The unnormalised weights of a row of real scores are positive reals. -/
private theorem pOf_pos (sc : Fin 128 → EReal) (hsc : IsReal sc) (j : Fin 128) :
    ∃ r : ℝ, 0 < r ∧ pOf sc j = (r : EReal) := by
  obtain ⟨m, hm⟩ := rowmax_real sc hsc
  obtain ⟨a, ha⟩ := hsc j
  refine ⟨Real.exp (a - m), Real.exp_pos _, ?_⟩
  unfold pOf
  rw [hm, ha, ← EReal.coe_sub, Ideal.exp_coe]

/-! ### The context -/

/-- One division after the two sums, or the weights normalised first: with positive real weights and real values the
    divisor is a positive real and the division distributes over the sum. -/
private theorem ctx_eq (p v : Fin 128 → EReal) (hp : ∀ j, ∃ r : ℝ, 0 < r ∧ p j = (r : EReal)) (hv : IsReal v) :
    Ideal.div (∑ j : Fin 128, p j * v j) (∑ j : Fin 128, p j * one16)
      = ∑ j : Fin 128, Ideal.div (p j) (∑ l : Fin 128, p l) * v j := by
  choose p' hp0 hp' using hp
  choose v' hv' using hv
  have hD : (0 : ℝ) < ∑ l : Fin 128, p' l := Finset.sum_pos (fun i _ => hp0 i) Finset.univ_nonempty
  rw [one16_eq]
  simp only [hp', hv', mul_one, ← EReal.coe_mul, sum_coe, Ideal.div_coe hD.ne']
  congr 1
  rw [Finset.sum_mul]
  exact Finset.sum_congr rfl (fun j _ => by ring)

/-! ### The two readings -/

/-- On real rows, weights and biases the two readings of one batch are the same function. -/
theorem outK_eq_outR (xr : Fin 128 → Fin 768 → EReal) (Wq Wk Wv Wo : SW.Idx → EReal) (bq bk bv bo g be : SB.Idx → EReal)
    (hx : ∀ j, IsReal (xr j)) (hWq : IsReal Wq) (hWk : IsReal Wk) (hWv : IsReal Wv)
    (hbq : IsReal bq) (hbk : IsReal bk) (hbv : IsReal bv) :
    outK xr Wq Wk Wv Wo bq bk bv bo g be = outR xr Wq Wk Wv Wo bq bk bv bo g be := by
  have hq : ∀ (h : Fin 12) (s : Fin 128), IsReal (fun e : Fin 64 => lin (xr s) Wq bq (colOf h e)) :=
    fun h s e => lin_real (hx s) hWq hbq (colOf h e)
  have hk : ∀ (h : Fin 12) (j : Fin 128), IsReal (fun e : Fin 64 => lin (xr j) Wk bk (colOf h e)) :=
    fun h j e => lin_real (hx j) hWk hbk (colOf h e)
  -- the scores agree, as functions of the row scored against
  have hsc : ∀ (h : Fin 12) (s : Fin 128), scK xr Wq Wk bq bk h s = scR xr Wq Wk bq bk h s := by
    intro h s
    funext j
    exact sum_scale _ _ (hq h s) (hk h j)
  have hscR : ∀ (h : Fin 12) (s : Fin 128), IsReal (scR xr Wq Wk bq bk h s) :=
    fun h s j => sum_mul_cs_real _ _ (hq h s) (hk h j)
  -- so the contexts agree
  have hctx : ∀ (h : Fin 12) (s : Fin 128) (d : Fin 64),
      ctxK xr Wq Wk Wv bq bk bv h s d = ctxR xr Wq Wk Wv bq bk bv h s d := by
    intro h s d
    unfold ctxK ctxR
    rw [hsc h s]
    exact ctx_eq _ (fun j => lin (xr j) Wv bv (colOf h d)) (fun j => pOf_pos _ (hscR h s) j)
      (fun j => lin_real (hx j) hWv hbv (colOf h d))
  funext s c
  unfold outK outR
  simp only [hctx]

/-- So the two whole results agree on real argument arrays. -/
theorem result_eq (a0 : (⟨3, ![64, 128, 768]⟩ : Shape).Idx → EReal) (a1 a2 a3 a4 : SW.Idx → EReal)
    (a5 a6 a7 a8 a9 a10 : (⟨1, ![768]⟩ : Shape).Idx → EReal)
    (h0 : IsReal a0) (h1 : IsReal a1) (h2 : IsReal a2) (h3 : IsReal a3) (h5 : IsReal a5) (h6 : IsReal a6) (h7 : IsReal a7) :
    result outK a0 a1 a2 a3 a4 a5 a6 a7 a8 a9 a10 = result outR a0 a1 a2 a3 a4 a5 a6 a7 a8 a9 a10 := by
  unfold result
  refine congrArg (fun z => shapeCast ⟨3, ![64, 128, 768]⟩ z (by decide)) ?_
  funext i
  unfold arrOf
  exact congrFun (congrFun (outK_eq_outR _ a1 a2 a3 a4 _ _ _ _ _ _
    (fun j i' => h0 _) h1 h2 h3 (fun i' => h5 _) (fun i' => h6 _) (fun i' => h7 _)) _) _

end Cert.Attn

end
-- ==== Proof.Finite.lean ====
/-
  From the precondition — every float input below +∞ in absolute value — every entry of the argument arrays the
  attention weights depend on is a real number.
-/
import proofs.«110644_g2000702396236789_pallasbulk_1056_3_alg».proof.Defs
import proofs.«110644_g2000702396236789_pallasbulk_1056_3_alg».proof.Proof.Gen.Pre_finite_inputs
import proofs.«110644_g2000702396236789_pallasbulk_1056_3_alg».proof.Proof.Spec
import Idealize.ShloMosaic.Lib.ReduceAll

noncomputable section

open scoped BigOperators

namespace Cert.Finite

open Idealize.ShloMosaic Idealize.ShloMosaic.TcCoe Idealize.ShloMosaic.ValueIdx Idealize.SL.Sem Cert.KernelIdeal

/-- The rank-0 shape has one index. -/
private instance subsingleton_scalar_idx : Subsingleton Cert.Pre_finite_inputs.S_.Idx :=
  ⟨fun a b => funext fun d => d.elim0⟩

/-- The f32 pattern 0x7F800000 is +∞. -/
private theorem ofBits_inf : Ideal.ofBits .f32 0x7F800000#32 = (⊤ : EReal) := by
  simp [Ideal.ofBits, Ideal.ieee]

/-- An extended real whose absolute value max x (-x) is below +∞ is a real. -/
private theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
private theorem ofBool_eq_one (b : Bool) : BitVec.ofBool b = 1#1 ↔ b = true := by cases b <;> decide

/-- If the conjunction over all entries of |x| < +∞ is 1, every entry of x is a real. -/
private theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1) :
    Attn.IsReal x := by
  intro i
  have hi := Host.reduce_andi_all _ _ hr hu j e i
  have hlt : max (x i) (-(x i)) < Ideal.ofBits .f32 0x7F800000#32 := by
    have h2 : Ideal.cmp .olt (max (x i) (-(x i))) (Ideal.ofBits .f32 0x7F800000#32) = 1#1 := hi
    unfold Ideal.cmp at h2
    rw [ofBool_eq_one] at h2
    simpa using h2
  rw [ofBits_inf] at hlt
  exact real_of_abs_lt_top _ hlt

theorem real_of_pre [hP : Cert.Pre_finite_inputs.Facts] (m : (ℓ : Loc nD τ sig) → Buf (Elt Ideal) ℓ) (h : Cert.Pre_KernelIdeal m) (c : Dev nD) :
    Attn.IsReal (m ((c.tc : Thread nD τ).loc main_arg0)) ∧ Attn.IsReal (m ((c.tc : Thread nD τ).loc main_arg1))
    ∧ Attn.IsReal (m ((c.tc : Thread nD τ).loc main_arg2)) ∧ Attn.IsReal (m ((c.tc : Thread nD τ).loc main_arg3))
    ∧ Attn.IsReal (m ((c.tc : Thread nD τ).loc main_arg5)) ∧ Attn.IsReal (m ((c.tc : Thread nD τ).loc main_arg6))
    ∧ Attn.IsReal (m ((c.tc : Thread nD τ).loc main_arg7)) := by
  have e := congrFun (h c) ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨e0, e1⟩, e2⟩, e3⟩, e4⟩, e5⟩, e6⟩, e7⟩, e8⟩, e9⟩, e10⟩ := e
  exact ⟨isReal_of_all _ _ _ _ _ e0, isReal_of_all _ _ _ _ _ e1, isReal_of_all _ _ _ _ _ e2, isReal_of_all _ _ _ _ _ e3,
    isReal_of_all _ _ _ _ _ e5, isReal_of_all _ _ _ _ _ e6, isReal_of_all _ _ _ _ _ e7⟩

end Cert.Finite

end
-- ==== Proof.lean ====
/-
  The fused self-attention kernel against its three-kernel reference, over the extended reals.

  Both programs compute, for every batch of 128 rows, the same attention block (Proof/Spec.lean): the kernel scales
  q by 1/8 before the score product and divides the weighted sum of v by the summed weights once, at the end
  (`Attn.outK`); the reference scales the score product and normalises the weights before the sum (`Attn.outR`).
  On real inputs the two are one function (Proof/Algebra.lean: a real factor moves across a finite sum of reals, and
  a sum of reals divided by a positive real is the sum of the quotients), and the precondition makes every input
  entry real (Proof/Finite.lean). The kernel's run ends with the first reading in its result (Proof/KValue.lean over
  Proof/KBody.lean, the body entry by entry), the reference's with the second (Proof/RValue.lean over its three
  regions' arrays, Proof/RArr.lean, and the host stretches between them, Proof/RHost.lean).
  The three frames are the generated ones; nothing was rewritten by the ideal pass, so `preserves` is trivial.
-/
import proofs.«110644_g2000702396236789_pallasbulk_1056_3_alg».proof.Defs
import proofs.«110644_g2000702396236789_pallasbulk_1056_3_alg».proof.Proof.Gen.Kernel
import proofs.«110644_g2000702396236789_pallasbulk_1056_3_alg».proof.Proof.Gen.Kernel.Frame
import proofs.«110644_g2000702396236789_pallasbulk_1056_3_alg».proof.Proof.Gen.KernelIdeal
import proofs.«110644_g2000702396236789_pallasbulk_1056_3_alg».proof.Proof.Gen.KernelIdeal.Frame
import proofs.«110644_g2000702396236789_pallasbulk_1056_3_alg».proof.Proof.Gen.ReferenceIdeal
import proofs.«110644_g2000702396236789_pallasbulk_1056_3_alg».proof.Proof.Gen.ReferenceIdeal.Frame
import proofs.«110644_g2000702396236789_pallasbulk_1056_3_alg».proof.Proof.Gen.Pre_finite_inputs
import proofs.«110644_g2000702396236789_pallasbulk_1056_3_alg».proof.Proof.KValue
import proofs.«110644_g2000702396236789_pallasbulk_1056_3_alg».proof.Proof.RValue
import proofs.«110644_g2000702396236789_pallasbulk_1056_3_alg».proof.Proof.Algebra
import proofs.«110644_g2000702396236789_pallasbulk_1056_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The kernel's run ends at the first reading of the block, the reference's at the second, of argument arrays that
    agree and are real: one function. -/
theorem algebraic : Cert.algebraic_KernelIdeal_ReferenceIdeal := by
  intro m ρ m' ρ' hpre hagree
  refine ⟨fun c => Attn.result Attn.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KV.kernel_run m ρ, ?_⟩
  refine (θ_run Cert.ReferenceIdeal.defs _ _).mono (fun r h c => ⟨(h c).1.trans ?_, (h c).2⟩)
    (Cert.ReferenceIdeal.RV.ref_run m' ρ')
  obtain ⟨h0, h1, h2, h3, h5, h6, h7⟩ := Cert.Finite.real_of_pre m hpre c
  obtain ⟨e0, e1, e2, e3, e4, e5, e6, e7, e8, e9, e10⟩ := hagree c
  rw [e0, e1, e2, e3, e4, e5, e6, e7, e8, e9, e10]
  exact (Attn.result_eq _ _ _ _ _ _ _ _ _ _ _ h0 h1 h2 h3 h5 h6 h7).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
